-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S32768x4096 : Shape := ⟨2, ![32768, 4096]⟩
abbrev S32768x2 : Shape := ⟨2, ![32768, 2]⟩
abbrev S16384 : Shape := ⟨1, ![16384]⟩
abbrev S1024x512 : Shape := ⟨2, ![1024, 512]⟩
abbrev S1024 : Shape := ⟨1, ![1024]⟩
abbrev S4096x1024 : Shape := ⟨2, ![4096, 1024]⟩
abbrev S4096 : Shape := ⟨1, ![4096]⟩
abbrev S51x4096 : Shape := ⟨2, ![51, 4096]⟩
abbrev S51 : Shape := ⟨1, ![51]⟩
abbrev S151x151x51 : Shape := ⟨3, ![151, 151, 51]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S32768x4096 : S_.BroadcastsInDim S32768x4096 (![] : Fin 0 → Fin S32768x4096.rank)
  reducesTo_S32768x4096_S_d0_1 : S32768x4096.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S51x4096 : S_.BroadcastsInDim S51x4096 (![] : Fin 0 → Fin S51x4096.rank)
  reducesTo_S51x4096_S_d0_1 : S51x4096.ReducesTo [0, 1] S_
  bcast_S_S51 : S_.BroadcastsInDim S51 (![] : Fin 0 → Fin S51.rank)
  reducesTo_S51_S_d0 : S51.ReducesTo [0] S_
  bcast_S_S151x151x51 : S_.BroadcastsInDim S151x151x51 (![] : Fin 0 → Fin S151x151x51.rank)
  reducesTo_S151x151x51_S_d0_1_2 : S151x151x51.ReducesTo [0, 1, 2] S_
  bcast_S_S32768x2 : S_.BroadcastsInDim S32768x2 (![] : Fin 0 → Fin S32768x2.rank)
  reducesTo_S32768x2_S_d0_1 : S32768x2.ReducesTo [0, 1] S_
  bcast_S_S16384 : S_.BroadcastsInDim S16384 (![] : Fin 0 → Fin S16384.rank)
  reducesTo_S16384_S_d0 : S16384.ReducesTo [0] S_

variable [Facts]

def fn_part3 {F : FTy → Type} [FloatOps F] (main_arg3 : IVec S16384 32) (main_v50 : IVec S_ 1) : IVec S_ 1 :=
  let main_c_19 : IVec S_ 32 := constantI S_ 32 0#32
  let main_v51 : IVec S16384 32 := broadcastInDim S16384 ![] bcast_S_S16384 main_c_19
  let main_v52 : IVec S16384 1 := cmpi .sge main_arg3 main_v51
  let main_c_20 : IVec S_ 32 := constantI S_ 32 151#32
  let main_v53 : IVec S16384 32 := broadcastInDim S16384 ![] bcast_S_S16384 main_c_20
  let main_v54 : IVec S16384 1 := cmpi .slt main_arg3 main_v53
  let main_v55 : IVec S16384 1 := andi main_v52 main_v54
  let main_c_21 : IVec S_ 1 := constantI S_ 1 1#1
  let main_v56 : IVec S_ 1 := (fun x v => Host.reduce IntOp.andi x v reducesTo_S16384_S_d0 h_S_) main_v55 main_c_21
  let main_v57 : IVec S_ 1 := andi main_v50 main_v56
  main_v57

def fn_part2 {F : FTy → Type} [FloatOps F] (main_arg2 : IVec S32768x2 32) (main_arg3 : IVec S16384 32) (main_arg9 : FVec F S51 .f32) (main_arg10 : FVec F S151x151x51 .f32) (main_v33 : IVec S_ 1) : IVec S_ 1 :=
  let main_v34 : FVec F S51 .f32 := Host.absf main_arg9
  let main_cst_12 : FVec F S_ .f32 := constant S_ .f32 0x7F800000#32
  let main_v35 : FVec F S51 .f32 := broadcastInDim S51 ![] bcast_S_S51 main_cst_12
  let main_v36 : IVec S51 1 := cmpf .olt main_v34 main_v35
  let main_c_13 : IVec S_ 1 := constantI S_ 1 1#1
  let main_v37 : IVec S_ 1 := (fun x v => Host.reduce IntOp.andi x v reducesTo_S51_S_d0 h_S_) main_v36 main_c_13
  let main_v38 : IVec S_ 1 := andi main_v33 main_v37
  let main_v39 : FVec F S151x151x51 .f32 := Host.absf main_arg10
  let main_cst_14 : FVec F S_ .f32 := constant S_ .f32 0x7F800000#32
  let main_v40 : FVec F S151x151x51 .f32 := broadcastInDim S151x151x51 ![] bcast_S_S151x151x51 main_cst_14
  let main_v41 : IVec S151x151x51 1 := cmpf .olt main_v39 main_v40
  let main_c_15 : IVec S_ 1 := constantI S_ 1 1#1
  let main_v42 : IVec S_ 1 := (fun x v => Host.reduce IntOp.andi x v reducesTo_S151x151x51_S_d0_1_2 h_S_) main_v41 main_c_15
  let main_v43 : IVec S_ 1 := andi main_v38 main_v42
  let main_c_16 : IVec S_ 32 := constantI S_ 32 0#32
  let main_v44 : IVec S32768x2 32 := broadcastInDim S32768x2 ![] bcast_S_S32768x2 main_c_16
  let main_v45 : IVec S32768x2 1 := cmpi .sge main_arg2 main_v44
  let main_c_17 : IVec S_ 32 := constantI S_ 32 16384#32
  let main_v46 : IVec S32768x2 32 := broadcastInDim S32768x2 ![] bcast_S_S32768x2 main_c_17
  let main_v47 : IVec S32768x2 1 := cmpi .slt main_arg2 main_v46
  let main_v48 : IVec S32768x2 1 := andi main_v45 main_v47
  let main_c_18 : IVec S_ 1 := constantI S_ 1 1#1
  let main_v49 : IVec S_ 1 := (fun x v => Host.reduce IntOp.andi x v reducesTo_S32768x2_S_d0_1 h_S_) main_v48 main_c_18
  let main_v50 : IVec S_ 1 := andi main_v43 main_v49
  fn_part3 (F := F) main_arg3 main_v50

def fn_part1 {F : FTy → Type} [FloatOps F] (main_arg2 : IVec S32768x2 32) (main_arg3 : IVec S16384 32) (main_arg6 : FVec F S4096x1024 .f32) (main_arg7 : FVec F S4096 .f32) (main_arg8 : FVec F S51x4096 .f32) (main_arg9 : FVec F S51 .f32) (main_arg10 : FVec F S151x151x51 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := Host.absf main_arg6
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg7
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S51x4096 .f32 := Host.absf main_arg8
  let main_cst_10 : FVec F S_ .f32 := constant S_ .f32 0x7F800000#32
  let main_v30 : FVec F S51x4096 .f32 := broadcastInDim S51x4096 ![] bcast_S_S51x4096 main_cst_10
  let main_v31 : IVec S51x4096 1 := cmpf .olt main_v29 main_v30
  let main_c_11 : IVec S_ 1 := constantI S_ 1 1#1
  let main_v32 : IVec S_ 1 := (fun x v => Host.reduce IntOp.andi x v reducesTo_S51x4096_S_d0_1 h_S_) main_v31 main_c_11
  let main_v33 : IVec S_ 1 := andi main_v28 main_v32
  fn_part2 (F := F) main_arg2 main_arg3 main_arg9 main_arg10 main_v33

def fn {F : FTy → Type} [FloatOps F] (main_arg0 : FVec F S16384x512 .f32) (main_arg1 : FVec F S32768x4096 .f32) (main_arg2 : IVec S32768x2 32) (main_arg3 : IVec S16384 32) (main_arg4 : FVec F S1024x512 .f32) (main_arg5 : FVec F S1024 .f32) (main_arg6 : FVec F S4096x1024 .f32) (main_arg7 : FVec F S4096 .f32) (main_arg8 : FVec F S51x4096 .f32) (main_arg9 : FVec F S51 .f32) (main_arg10 : FVec F S151x151x51 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S32768x4096 .f32 := Host.absf main_arg1
  let main_cst_0 : FVec F S_ .f32 := constant S_ .f32 0x7F800000#32
  let main_v5 : FVec F S32768x4096 .f32 := broadcastInDim S32768x4096 ![] bcast_S_S32768x4096 main_cst_0
  let main_v6 : IVec S32768x4096 1 := cmpf .olt main_v4 main_v5
  let main_c_1 : IVec S_ 1 := constantI S_ 1 1#1
  let main_v7 : IVec S_ 1 := (fun x v => Host.reduce IntOp.andi x v reducesTo_S32768x4096_S_d0_1 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg2 main_arg3 main_arg6 main_arg7 main_arg8 main_arg9 main_arg10 main_v13 main_v16
-- ==== Kernel.lean ====
abbrev S16384x512 : Shape := ⟨2, ![16384, 512]⟩
abbrev S32768x4096 : Shape := ⟨2, ![32768, 4096]⟩
abbrev S32768x2 : Shape := ⟨2, ![32768, 2]⟩
abbrev S16384 : Shape := ⟨1, ![16384]⟩
abbrev S1024x512 : Shape := ⟨2, ![1024, 512]⟩
abbrev S1024 : Shape := ⟨1, ![1024]⟩
abbrev S4096x1024 : Shape := ⟨2, ![4096, 1024]⟩
abbrev S4096 : Shape := ⟨1, ![4096]⟩
abbrev S51x4096 : Shape := ⟨2, ![51, 4096]⟩
abbrev S51 : Shape := ⟨1, ![51]⟩
abbrev S151x151x51 : Shape := ⟨3, ![151, 151, 51]⟩
abbrev S512x1024 : Shape := ⟨2, ![512, 1024]⟩
abbrev S1024x4096 : Shape := ⟨2, ![1024, 4096]⟩
abbrev S4096x51 : Shape := ⟨2, ![4096, 51]⟩
abbrev S1x1024 : Shape := ⟨2, ![1, 1024]⟩
abbrev S1x4096 : Shape := ⟨2, ![1, 4096]⟩
abbrev S1x51 : Shape := ⟨2, ![1, 51]⟩
abbrev S16384x1024 : Shape := ⟨2, ![16384, 1024]⟩
abbrev S1024x1024 : Shape := ⟨2, ![1024, 1024]⟩
abbrev S32768x1 : Shape := ⟨2, ![32768, 1]⟩
abbrev S32768 : Shape := ⟨1, ![32768]⟩
abbrev S_ : Shape := ⟨0, ![]⟩
abbrev S1 : Shape := ⟨1, ![1]⟩
abbrev S1x1 : Shape := ⟨2, ![1, 1]⟩
abbrev S32768x512 : Shape := ⟨2, ![32768, 512]⟩
abbrev S32768x1024 : Shape := ⟨2, ![32768, 1024]⟩
abbrev S22801x51 : Shape := ⟨2, ![22801, 51]⟩
abbrev S32768x51 : Shape := ⟨2, ![32768, 51]⟩
abbrev S256x1024 : Shape := ⟨2, ![256, 1024]⟩
abbrev S256x4096 : Shape := ⟨2, ![256, 4096]⟩
abbrev S256x51 : Shape := ⟨2, ![256, 51]⟩

abbrev nBuf : Space → Nat
  | .hbm => 148
  | .vmem => 18
  | .smem => 0
  | _ => 0

abbrev hbmTy0_0 (i : Nat) : BufTy := match i % 128 with
  | 0 => ⟨S16384x512, .f32⟩
  | 1 => ⟨S32768x4096, .f32⟩
  | 2 => ⟨S32768x2, .i32⟩
  | 3 => ⟨S16384, .i32⟩
  | 4 => ⟨S1024x512, .f32⟩
  | 5 => ⟨S1024, .f32⟩
  | 6 => ⟨S4096x1024, .f32⟩
  | 7 => ⟨S4096, .f32⟩
  | 8 => ⟨S51x4096, .f32⟩
  | 9 => ⟨S51, .f32⟩
  | 10 => ⟨S151x151x51, .f32⟩
  | 11 => ⟨S512x1024, .f32⟩
  | 12 => ⟨S512x1024, .bf16⟩
  | 13 => ⟨S1024x4096, .f32⟩
  | 14 => ⟨S1024x4096, .bf16⟩
  | 15 => ⟨S4096x51, .f32⟩
  | 16 => ⟨S4096x51, .bf16⟩
  | 17 => ⟨S1x1024, .f32⟩
  | 18 => ⟨S1x4096, .f32⟩
  | 19 => ⟨S1x51, .f32⟩
  | 20 => ⟨S16384x1024, .f32⟩
  | 21 => ⟨S16384x512, .f32⟩
  | 22 => ⟨S16384x512, .f32⟩
  | 23 => ⟨S32768x1, .i32⟩
  | 24 => ⟨S32768, .i32⟩
  | 25 => ⟨S32768x1, .i32⟩
  | 26 => ⟨S32768, .i32⟩
  | 27 => ⟨S_, .i32⟩
  | 28 => ⟨S32768, .i32⟩
  | 29 => ⟨S32768, .i1⟩
  | 30 => ⟨S_, .i32⟩
  | 31 => ⟨S32768, .i32⟩
  | 32 => ⟨S32768, .i32⟩
  | 33 => ⟨S32768, .i32⟩
  | 34 => ⟨S32768x1, .i32⟩
  | 35 => ⟨S1, .i32⟩
  | 36 => ⟨S_, .i32⟩
  | 37 => ⟨S32768x1, .i32⟩
  | 38 => ⟨S32768x1, .i1⟩
  | 39 => ⟨S1x1, .i32⟩
  | 40 => ⟨S32768x1, .i32⟩
  | 41 => ⟨S32768x1, .i1⟩
  | 42 => ⟨S32768x1, .i1⟩
  | 43 => ⟨S_, .i1⟩
  | 44 => ⟨S32768, .i1⟩
  | 45 => ⟨S32768x512, .f32⟩
  | 46 => ⟨S32768x512, .i1⟩
  | 47 => ⟨S_, .f32⟩
  | 48 => ⟨S32768x512, .f32⟩
  | 49 => ⟨S32768x512, .f32⟩
  | 50 => ⟨S_, .i32⟩
  | 51 => ⟨S32768, .i32⟩
  | 52 => ⟨S32768, .i1⟩
  | 53 => ⟨S_, .i32⟩
  | 54 => ⟨S32768, .i32⟩
  | 55 => ⟨S32768, .i32⟩
  | 56 => ⟨S32768, .i32⟩
  | 57 => ⟨S32768x1, .i32⟩
  | 58 => ⟨S1, .i32⟩
  | 59 => ⟨S_, .i32⟩
  | 60 => ⟨S32768x1, .i32⟩
  | 61 => ⟨S32768x1, .i1⟩
  | 62 => ⟨S1x1, .i32⟩
  | 63 => ⟨S32768x1, .i32⟩
  | 64 => ⟨S32768x1, .i1⟩
  | 65 => ⟨S32768x1, .i1⟩
  | 66 => ⟨S_, .i1⟩
  | 67 => ⟨S32768, .i1⟩
  | 68 => ⟨S32768x512, .f32⟩
  | 69 => ⟨S32768x512, .i1⟩
  | 70 => ⟨S_, .f32⟩
  | 71 => ⟨S32768x512, .f32⟩
  | 72 => ⟨S32768x512, .f32⟩
  | 73 => ⟨S32768x1024, .f32⟩
  | 74 => ⟨S32768x1024, .bf16⟩
  | 75 => ⟨S_, .i32⟩
  | 76 => ⟨S32768, .i32⟩
  | 77 => ⟨S32768, .i1⟩
  | 78 => ⟨S_, .i32⟩
  | 79 => ⟨S32768, .i32⟩
  | 80 => ⟨S32768, .i32⟩
  | 81 => ⟨S32768, .i32⟩
  | 82 => ⟨S32768x1, .i32⟩
  | 83 => ⟨S1, .i32⟩
  | 84 => ⟨S_, .i32⟩
  | 85 => ⟨S32768x1, .i32⟩
  | 86 => ⟨S32768x1, .i1⟩
  | 87 => ⟨S1x1, .i32⟩
  | 88 => ⟨S32768x1, .i32⟩
  | 89 => ⟨S32768x1, .i1⟩
  | 90 => ⟨S32768x1, .i1⟩
  | 91 => ⟨S_, .i1⟩
  | 92 => ⟨S32768, .i1⟩
  | 93 => ⟨S32768, .i32⟩
  | 94 => ⟨S_, .i32⟩
  | 95 => ⟨S32768, .i32⟩
  | 96 => ⟨S32768, .i32⟩
  | 97 => ⟨S_, .i32⟩
  | 98 => ⟨S32768, .i32⟩
  | 99 => ⟨S32768, .i1⟩
  | 100 => ⟨S_, .i32⟩
  | 101 => ⟨S32768, .i32⟩
  | 102 => ⟨S32768, .i32⟩
  | 103 => ⟨S32768, .i32⟩
  | 104 => ⟨S32768x1, .i32⟩
  | 105 => ⟨S1, .i32⟩
  | 106 => ⟨S_, .i32⟩
  | 107 => ⟨S32768x1, .i32⟩
  | 108 => ⟨S32768x1, .i1⟩
  | 109 => ⟨S1x1, .i32⟩
  | 110 => ⟨S32768x1, .i32⟩
  | 111 => ⟨S32768x1, .i1⟩
  | 112 => ⟨S32768x1, .i1⟩
  | 113 => ⟨S_, .i1⟩
  | 114 => ⟨S32768, .i1⟩
  | 115 => ⟨S32768, .i32⟩
  | 116 => ⟨S_, .i32⟩
  | 117 => ⟨S32768, .i32⟩
  | 118 => ⟨S32768, .i32⟩
  | 119 => ⟨S22801x51, .f32⟩
  | 120 => ⟨S_, .i32⟩
  | 121 => ⟨S32768, .i32⟩
  | 122 => ⟨S32768, .i32⟩
  | 123 => ⟨S32768, .i32⟩
  | 124 => ⟨S_, .i32⟩
  | 125 => ⟨S32768, .i32⟩
  | 126 => ⟨S32768, .i1⟩
  | 127 => ⟨S_, .i32⟩
  | _ => ⟨S16384x512, .f32⟩

abbrev hbmTy0_1 (i : Nat) : BufTy := match i % 128 with
  | 0 => ⟨S32768, .i32⟩
  | 1 => ⟨S32768, .i32⟩
  | 2 => ⟨S32768, .i32⟩
  | 3 => ⟨S32768x1, .i32⟩
  | 4 => ⟨S1, .i32⟩
  | 5 => ⟨S_, .i32⟩
  | 6 => ⟨S32768x1, .i32⟩
  | 7 => ⟨S32768x1, .i1⟩
  | 8 => ⟨S1x1, .i32⟩
  | 9 => ⟨S32768x1, .i32⟩
  | 10 => ⟨S32768x1, .i1⟩
  | 11 => ⟨S32768x1, .i1⟩
  | 12 => ⟨S_, .i1⟩
  | 13 => ⟨S32768, .i1⟩
  | 14 => ⟨S32768x51, .f32⟩
  | 15 => ⟨S32768x51, .i1⟩
  | 16 => ⟨S_, .f32⟩
  | 17 => ⟨S32768x51, .f32⟩
  | 18 => ⟨S32768x51, .f32⟩
  | 19 => ⟨S32768x51, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S256x1024, .bf16⟩
  | .local _ .vmem, ⟨7, _⟩ => ⟨S256x1024, .bf16⟩
  | .local _ .vmem, ⟨8, _⟩ => ⟨S1024x4096, .bf16⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | .local _ .vmem, ⟨12, _⟩ => ⟨S4096x51, .bf16⟩
  | .local _ .vmem, ⟨13, _⟩ => ⟨S1x51, .f32⟩
  | .local _ .vmem, ⟨14, _⟩ => ⟨S256x51, .f32⟩
  | .local _ .vmem, ⟨15, _⟩ => ⟨S256x51, .f32⟩
  | .local _ .vmem, ⟨16, _⟩ => ⟨S256x51, .f32⟩
  | .local _ .vmem, ⟨17, _⟩ => ⟨S256x51, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v16 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_c_4 : Ref sig .tc := ⟨.hbm, 94, rfl⟩
abbrev main_call2_v14 : Ref sig .tc := ⟨.hbm, 95, rfl⟩
abbrev main_v20 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_c_4 : Ref sig .tc := ⟨.hbm, 116, rfl⟩
abbrev main_call3_v14 : Ref sig .tc := ⟨.hbm, 117, rfl⟩
abbrev main_v21 : Ref sig .tc := ⟨.hbm, 118, rfl⟩
abbrev main_v22 : Ref sig .tc := ⟨.hbm, 119, rfl⟩
abbrev main_c : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_call4_c : Ref sig .tc := ⟨.hbm, 124, rfl⟩
abbrev main_call4_v0 : Ref sig .tc := ⟨.hbm, 125, rfl⟩
abbrev main_call4_v1 : Ref sig .tc := ⟨.hbm, 126, rfl⟩
abbrev main_call4_c_0 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_c_1 : Ref sig .tc := ⟨.hbm, 132, rfl⟩
abbrev main_call4_c_2 : Ref sig .tc := ⟨.hbm, 133, rfl⟩
abbrev main_call4_v6 : Ref sig .tc := ⟨.hbm, 134, rfl⟩
abbrev main_call4_v7 : Ref sig .tc := ⟨.hbm, 135, rfl⟩
abbrev main_call4_v8 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_c_3 : Ref sig .tc := ⟨.hbm, 140, rfl⟩
abbrev main_call4_v12 : Ref sig .tc := ⟨.hbm, 141, rfl⟩
abbrev main_call4_v13 : Ref sig .tc := ⟨.hbm, 142, rfl⟩
abbrev main_call4_v14 : Ref sig .tc := ⟨.hbm, 143, rfl⟩
abbrev main_call4_cst : Ref sig .tc := ⟨.hbm, 144, rfl⟩
abbrev main_call4_v15 : Ref sig .tc := ⟨.hbm, 145, rfl⟩
abbrev main_v26 : Ref sig .tc := ⟨.hbm, 146, rfl⟩
abbrev main_v27 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4096x51 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x51 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x51 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x51 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S1024x512_S512x1024_1_0 : S1024x512.Transposes [1, 0] S512x1024
  bitsLt_bf16_f32 : FTy.bits .bf16 < FTy.bits .f32
  transposes_S4096x1024_S1024x4096_1_0 : S4096x1024.Transposes [1, 0] S1024x4096
  transposes_S51x4096_S4096x51_1_0 : S51x4096.Transposes [1, 0] S4096x51
  shapeCasts_S1024_S1x1024 : S1024.ShapeCasts S1x1024
  shapeCasts_S4096_S1x4096 : S4096.ShapeCasts S1x4096
  shapeCasts_S51_S1x51 : S51.ShapeCasts S1x51
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  slices_S16384x1024_S16384x512_0_0 : S16384x1024.Slices ![0, 0] S16384x512
  slices_S16384x1024_S16384x512_0_512 : S16384x1024.Slices ![0, 512] S16384x512
  slices_S32768x2_S32768x1_0_0 : S32768x2.Slices ![0, 0] S32768x1
  shapeCasts_S32768x1_S32768 : S32768x1.ShapeCasts S32768
  slices_S32768x2_S32768x1_0_1 : S32768x2.Slices ![0, 1] S32768x1
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768_S32768x512_0 : S32768.BroadcastsInDim S32768x512 (![0] : Fin 1 → Fin S32768x512.rank)
  bcast_S_S32768x512 : S_.BroadcastsInDim S32768x512 (![] : Fin 0 → Fin S32768x512.rank)
  concatenates_S32768x512_S32768x512_S32768x1024_d1 : Shape.Concatenates [S32768x512, S32768x512] S32768x1024 1
  shapeCasts_S151x151x51_S22801x51 : S151x151x51.ShapeCasts S22801x51
  bcast_S32768_S32768x51_0 : S32768.BroadcastsInDim S32768x51 (![0] : Fin 1 → Fin S32768x51.rank)
  bcast_S_S32768x51 : S_.BroadcastsInDim S32768x51 (![] : Fin 0 → Fin S32768x51.rank)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  inb_S4096x51_S4096x51_0_0 : ∀ a, (![0, 0] : Fin 2 → Nat) a + S4096x51.size a ≤ S4096x51.size a
  h_S4096x51 : 0 < S4096x51.numel
  shapeCasts_S4096x51_S4096x51 : S4096x51.ShapeCasts S4096x51
  inb_S1x51_S1x51_0_0 : ∀ a, (![0, 0] : Fin 2 → Nat) a + S1x51.size a ≤ S1x51.size a
  h_S1x51 : 0 < S1x51.numel
  shapeCasts_S1x51_S1x51 : S1x51.ShapeCasts S1x51
  broadcasts_S1x51_S256x51 : S1x51.Broadcasts S256x51
  inb_S256x51_S256x51_0_0 : ∀ a, (![0, 0] : Fin 2 → Nat) a + S256x51.size a ≤ S256x51.size a
  h_S256x51 : 0 < S256x51.numel
  shapeCasts_S256x51_S256x51 : S256x51.ShapeCasts S256x51
  dot_S1024x512_S512x1024_S1024x1024_1_0_0_1_n_n_wf : DotDims.WF S1024x512 S512x1024 S1024x1024 [1] [0] [0] [1] [] []
  gather_S16384x512_S32768x1_S32768x512_1_0_n_n_0_1_1512_wf : GatherDims.WF S16384x512 S32768x1 S32768x512 [1] [0] [] [0] [] 1 ![1, 512]
  gather_S16384_S32768x1_S32768_n_0_n_n_0_1_1_wf : GatherDims.WF S16384 S32768x1 S32768 [] [0] [] [0] [] 1 ![1]
  gather_S22801x51_S32768x1_S32768x51_1_0_n_n_0_1_151_wf : GatherDims.WF S22801x51 S32768x1 S32768x51 [1] [0] [] [0] [] 1 ![1, 51]
  dot_S256x1024_S1024x4096_S256x4096_1_0_0_1_n_n_wf : DotDims.WF S256x1024 S1024x4096 S256x4096 [1] [0] [0] [1] [] []
  dot_S256x4096_S4096x51_S256x51_1_0_0_1_n_n_wf : DotDims.WF S256x4096 S4096x51 S256x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S32768x1024.size a
  hwx1_0 : ∀ i : grid1.Coords, EltTy.bits .bf16 = 32 ∨ (Rect.block (s := S32768x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S32768x4096.size a
  hwx1_3 : ∀ i : grid1.Coords, EltTy.bits .f32 = 32 ∨ (Rect.block (s := S32768x4096) S256x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x51.size a ≤ S4096x51.size a
  hwx1_4 : ∀ i : grid1.Coords, EltTy.bits .bf16 = 32 ∨ (Rect.block (s := S4096x51) S4096x51.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x51.size a ≤ S1x51.size a
  hwx1_5 : ∀ i : grid1.Coords, EltTy.bits .f32 = 32 ∨ (Rect.block (s := S1x51) S1x51.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x51.size a ≤ S32768x51.size a
  hwx1_6 : ∀ i : grid1.Coords, EltTy.bits .f32 = 32 ∨ (Rect.block (s := S32768x51) S256x51.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x51.size a ≤ S32768x51.size a
  hwx1_7 : ∀ i : grid1.Coords, EltTy.bits .f32 = 32 ∨ (Rect.block (s := S32768x51) S256x51.size (cc1_transform_7 i) (hinb1_7 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def gather_S16384x512_S32768x1_S32768x512_1_0_n_n_0_1_1512 : GatherDims S16384x512 S32768x1 S32768x512 where
  offsetDims := [1]
  collapsedSliceDims := [0]
  operandBatchingDims := []
  startIndicesBatchingDims := []
  startIndexMap := [0]
  indexVectorDim := 1
  sliceSizes := ![1, 512]
  wf := gather_S16384x512_S32768x1_S32768x512_1_0_n_n_0_1_1512_wf
def gather_S16384_S32768x1_S32768_n_0_n_n_0_1_1 : GatherDims S16384 S32768x1 S32768 where
  offsetDims := []
  collapsedSliceDims := [0]
  operandBatchingDims := []
  startIndicesBatchingDims := []
  startIndexMap := [0]
  indexVectorDim := 1
  sliceSizes := ![1]
  wf := gather_S16384_S32768x1_S32768_n_0_n_n_0_1_1_wf
def gather_S22801x51_S32768x1_S32768x51_1_0_n_n_0_1_151 : GatherDims S22801x51 S32768x1 S32768x51 where
  offsetDims := [1]
  collapsedSliceDims := [0]
  operandBatchingDims := []
  startIndicesBatchingDims := []
  startIndexMap := [0]
  indexVectorDim := 1
  sliceSizes := ![1, 51]
  wf := gather_S22801x51_S32768x1_S32768x51_1_0_n_n_0_1_151_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x51_S256x51_1_0_0_1_n_n : DotDims S256x4096 S4096x51 S256x51 where
  lhsContracting := [1]
  rhsContracting := [0]
  lhsNonContracting := [0]
  rhsNonContracting := [1]
  lhsBatch := []
  rhsBatch := []
  wf := dot_S256x4096_S4096x51_S256x51_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S4096x51.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x51.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S256x51.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27) S256x51.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16384x512 : Shape := ⟨2, ![16384, 512]⟩
abbrev S32768x4096 : Shape := ⟨2, ![32768, 4096]⟩
abbrev S32768x2 : Shape := ⟨2, ![32768, 2]⟩
abbrev S16384 : Shape := ⟨1, ![16384]⟩
abbrev S1024x512 : Shape := ⟨2, ![1024, 512]⟩
abbrev S1024 : Shape := ⟨1, ![1024]⟩
abbrev S4096x1024 : Shape := ⟨2, ![4096, 1024]⟩
abbrev S4096 : Shape := ⟨1, ![4096]⟩
abbrev S51x4096 : Shape := ⟨2, ![51, 4096]⟩
abbrev S51 : Shape := ⟨1, ![51]⟩
abbrev S151x151x51 : Shape := ⟨3, ![151, 151, 51]⟩
abbrev S512x1024 : Shape := ⟨2, ![512, 1024]⟩
abbrev S16384x1024 : Shape := ⟨2, ![16384, 1024]⟩
abbrev S1x1024 : Shape := ⟨2, ![1, 1024]⟩
abbrev S16384x2x512 : Shape := ⟨3, ![16384, 2, 512]⟩
abbrev S16384x1x512 : Shape := ⟨3, ![16384, 1, 512]⟩
abbrev S32768x1 : Shape := ⟨2, ![32768, 1]⟩
abbrev S32768 : Shape := ⟨1, ![32768]⟩
abbrev S_ : Shape := ⟨0, ![]⟩
abbrev S32768x512 : Shape := ⟨2, ![32768, 512]⟩
abbrev S32768x1024 : Shape := ⟨2, ![32768, 1024]⟩
abbrev S1024x4096 : Shape := ⟨2, ![1024, 4096]⟩
abbrev S1x4096 : Shape := ⟨2, ![1, 4096]⟩
abbrev S4096x51 : Shape := ⟨2, ![4096, 51]⟩
abbrev S32768x51 : Shape := ⟨2, ![32768, 51]⟩
abbrev S1x51 : Shape := ⟨2, ![1, 51]⟩

abbrev nBuf : Space → Nat
  | .hbm => 92
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S32768x4096, .f32⟩
  | .hbm, ⟨2, _⟩ => ⟨S32768x2, .i32⟩
  | .hbm, ⟨3, _⟩ => ⟨S16384, .i32⟩
  | .hbm, ⟨4, _⟩ => ⟨S1024x512, .f32⟩
  | .hbm, ⟨5, _⟩ => ⟨S1024, .f32⟩
  | .hbm, ⟨6, _⟩ => ⟨S4096x1024, .f32⟩
  | .hbm, ⟨7, _⟩ => ⟨S4096, .f32⟩
  | .hbm, ⟨8, _⟩ => ⟨S51x4096, .f32⟩
  | .hbm, ⟨9, _⟩ => ⟨S51, .f32⟩
  | .hbm, ⟨10, _⟩ => ⟨S151x151x51, .f32⟩
  | .hbm, ⟨11, _⟩ => ⟨S512x1024, .f32⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x2x512, .f32⟩
  | .hbm, ⟨17, _⟩ => ⟨S16384x1x512, .f32⟩
  | .hbm, ⟨18, _⟩ => ⟨S16384x512, .f32⟩
  | .hbm, ⟨19, _⟩ => ⟨S16384x1x512, .f32⟩
  | .hbm, ⟨20, _⟩ => ⟨S16384x512, .f32⟩
  | .hbm, ⟨21, _⟩ => ⟨S32768x1, .i32⟩
  | .hbm, ⟨22, _⟩ => ⟨S32768, .i32⟩
  | .hbm, ⟨23, _⟩ => ⟨S32768x1, .i32⟩
  | .hbm, ⟨24, _⟩ => ⟨S32768, .i32⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S32768x512, .f32⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S32768, .i32⟩
  | .hbm, ⟨41, _⟩ => ⟨S32768x1, .i32⟩
  | .hbm, ⟨42, _⟩ => ⟨S32768x512, .f32⟩
  | .hbm, ⟨43, _⟩ => ⟨S32768x1024, .f32⟩
  | .hbm, ⟨44, _⟩ => ⟨S1024x4096, .f32⟩
  | .hbm, ⟨45, _⟩ => ⟨S32768x4096, .f32⟩
  | .hbm, ⟨46, _⟩ => ⟨S1x4096, .f32⟩
  | .hbm, ⟨47, _⟩ => ⟨S32768x4096, .f32⟩
  | .hbm, ⟨48, _⟩ => ⟨S32768x4096, .f32⟩
  | .hbm, ⟨49, _⟩ => ⟨S32768x4096, .f32⟩
  | .hbm, ⟨50, _⟩ => ⟨S4096x51, .f32⟩
  | .hbm, ⟨51, _⟩ => ⟨S32768x51, .f32⟩
  | .hbm, ⟨52, _⟩ => ⟨S1x51, .f32⟩
  | .hbm, ⟨53, _⟩ => ⟨S32768x51, .f32⟩
  | .hbm, ⟨54, _⟩ => ⟨S32768x51, .f32⟩
  | .hbm, ⟨55, _⟩ => ⟨S_, .i32⟩
  | .hbm, ⟨56, _⟩ => ⟨S32768, .i32⟩
  | .hbm, ⟨57, _⟩ => ⟨S32768, .i1⟩
  | .hbm, ⟨58, _⟩ => ⟨S_, .i32⟩
  | .hbm, ⟨59, _⟩ => ⟨S32768, .i32⟩
  | .hbm, ⟨60, _⟩ => ⟨S32768, .i32⟩
  | .hbm, ⟨61, _⟩ => ⟨S32768, .i32⟩
  | .hbm, ⟨62, _⟩ => ⟨S32768x1, .i32⟩
  | .hbm, ⟨63, _⟩ => ⟨S32768, .i32⟩
  | .hbm, ⟨64, _⟩ => ⟨S_, .i32⟩
  | .hbm, ⟨65, _⟩ => ⟨S32768, .i32⟩
  | .hbm, ⟨66, _⟩ => ⟨S32768, .i1⟩
  | .hbm, ⟨67, _⟩ => ⟨S_, .i32⟩
  | .hbm, ⟨68, _⟩ => ⟨S32768, .i32⟩
  | .hbm, ⟨69, _⟩ => ⟨S32768, .i32⟩
  | .hbm, ⟨70, _⟩ => ⟨S32768, .i32⟩
  | .hbm, ⟨71, _⟩ => ⟨S32768x1, .i32⟩
  | .hbm, ⟨72, _⟩ => ⟨S32768, .i32⟩
  | .hbm, ⟨73, _⟩ => ⟨S_, .i32⟩
  | .hbm, ⟨74, _⟩ => ⟨S32768, .i32⟩
  | .hbm, ⟨75, _⟩ => ⟨S32768, .i1⟩
  | .hbm, ⟨76, _⟩ => ⟨S_, .i32⟩
  | .hbm, ⟨77, _⟩ => ⟨S32768, .i32⟩
  | .hbm, ⟨78, _⟩ => ⟨S32768, .i32⟩
  | .hbm, ⟨79, _⟩ => ⟨S32768, .i32⟩
  | .hbm, ⟨80, _⟩ => ⟨S_, .i32⟩
  | .hbm, ⟨81, _⟩ => ⟨S32768, .i32⟩
  | .hbm, ⟨82, _⟩ => ⟨S32768, .i1⟩
  | .hbm, ⟨83, _⟩ => ⟨S_, .i32⟩
  | .hbm, ⟨84, _⟩ => ⟨S32768, .i32⟩
  | .hbm, ⟨85, _⟩ => ⟨S32768, .i32⟩
  | .hbm, ⟨86, _⟩ => ⟨S32768, .i32⟩
  | .hbm, ⟨87, _⟩ => ⟨S32768x1, .i32⟩
  | .hbm, ⟨88, _⟩ => ⟨S32768x1, .i32⟩
  | .hbm, ⟨89, _⟩ => ⟨S32768x2, .i32⟩
  | .hbm, ⟨90, _⟩ => ⟨S32768x51, .f32⟩
  | .hbm, ⟨91, _⟩ => ⟨S32768x51, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_3 : Ref sig .tc := ⟨.hbm, 55, rfl⟩
abbrev main_v40 : Ref sig .tc := ⟨.hbm, 56, rfl⟩
abbrev main_v41 : Ref sig .tc := ⟨.hbm, 57, rfl⟩
abbrev main_c_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_5 : Ref sig .tc := ⟨.hbm, 64, rfl⟩
abbrev main_v47 : Ref sig .tc := ⟨.hbm, 65, rfl⟩
abbrev main_v48 : Ref sig .tc := ⟨.hbm, 66, rfl⟩
abbrev main_c_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_7 : Ref sig .tc := ⟨.hbm, 73, rfl⟩
abbrev main_v54 : Ref sig .tc := ⟨.hbm, 74, rfl⟩
abbrev main_v55 : Ref sig .tc := ⟨.hbm, 75, rfl⟩
abbrev main_c_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_9 : Ref sig .tc := ⟨.hbm, 80, rfl⟩
abbrev main_v59 : Ref sig .tc := ⟨.hbm, 81, rfl⟩
abbrev main_v60 : Ref sig .tc := ⟨.hbm, 82, rfl⟩
abbrev main_c_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x2x512 : S16384x1024.ShapeCasts S16384x2x512
  slices_S16384x2x512_S16384x1x512_0_0_0 : S16384x2x512.Slices ![0, 0, 0] S16384x1x512
  shapeCasts_S16384x1x512_S16384x512 : S16384x1x512.ShapeCasts S16384x512
  slices_S16384x2x512_S16384x1x512_0_1_0 : S16384x2x512.Slices ![0, 1, 0] S16384x1x512
  slices_S32768x2_S32768x1_0_0 : S32768x2.Slices ![0, 0] S32768x1
  shapeCasts_S32768x1_S32768 : S32768x1.ShapeCasts S32768
  slices_S32768x2_S32768x1_0_1 : S32768x2.Slices ![0, 1] S32768x1
  bcast_S_S32768 : S_.BroadcastsInDim S32768 (![] : Fin 0 → Fin S32768.rank)
  bcast_S32768_S32768x1_0 : S32768.BroadcastsInDim S32768x1 (![0] : Fin 1 → Fin S32768x1.rank)
  concatenates_S32768x512_S32768x512_S32768x1024_d1 : Shape.Concatenates [S32768x512, S32768x512] S32768x1024 1
  transposes_S4096x1024_S1024x4096_1_0 : S4096x1024.Transposes [1, 0] S1024x4096
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  transposes_S51x4096_S4096x51_1_0 : S51x4096.Transposes [1, 0] S4096x51
  bcast_S51_S1x51_1 : S51.BroadcastsInDim S1x51 (![1] : Fin 1 → Fin S1x51.rank)
  bcast_S1x51_S32768x51_0_1 : S1x51.BroadcastsInDim S32768x51 (![0, 1] : Fin 2 → Fin S32768x51.rank)
  concatenates_S32768x1_S32768x1_S32768x2_d1 : Shape.Concatenates [S32768x1, S32768x1] S32768x2 1
  dot_S16384x512_S512x1024_S16384x1024_1_0_0_1_n_n_wf : DotDims.WF S16384x512 S512x1024 S16384x1024 [1] [0] [0] [1] [] []
  gather_S16384x512_S32768x1_S32768x512_1_0_n_n_0_1_1512_wf : GatherDims.WF S16384x512 S32768x1 S32768x512 [1] [0] [] [0] [] 1 ![1, 512]
  dot_S32768x1024_S1024x4096_S32768x4096_1_0_0_1_n_n_wf : DotDims.WF S32768x1024 S1024x4096 S32768x4096 [1] [0] [0] [1] [] []
  dot_S32768x4096_S4096x51_S32768x51_1_0_0_1_n_n_wf : DotDims.WF S32768x4096 S4096x51 S32768x51 [1] [0] [0] [1] [] []
  gather_S16384_S32768x1_S32768_n_0_n_n_0_1_1_wf : GatherDims.WF S16384 S32768x1 S32768 [] [0] [] [0] [] 1 ![1]
  gather_S151x151x51_S32768x2_S32768x51_1_01_n_n_01_1_1151_wf : GatherDims.WF S151x151x51 S32768x2 S32768x51 [1] [0, 1] [] [0, 1] [] 1 ![1, 1, 51]

variable [Facts₀]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def gather_S16384x512_S32768x1_S32768x512_1_0_n_n_0_1_1512 : GatherDims S16384x512 S32768x1 S32768x512 where
  offsetDims := [1]
  collapsedSliceDims := [0]
  operandBatchingDims := []
  startIndicesBatchingDims := []
  startIndexMap := [0]
  indexVectorDim := 1
  sliceSizes := ![1, 512]
  wf := gather_S16384x512_S32768x1_S32768x512_1_0_n_n_0_1_1512_wf
def dot_S32768x1024_S1024x4096_S32768x4096_1_0_0_1_n_n : DotDims S32768x1024 S1024x4096 S32768x4096 where
  lhsContracting := [1]
  rhsContracting := [0]
  lhsNonContracting := [0]
  rhsNonContracting := [1]
  lhsBatch := []
  rhsBatch := []
  wf := dot_S32768x1024_S1024x4096_S32768x4096_1_0_0_1_n_n_wf
def dot_S32768x4096_S4096x51_S32768x51_1_0_0_1_n_n : DotDims S32768x4096 S4096x51 S32768x51 where
  lhsContracting := [1]
  rhsContracting := [0]
  lhsNonContracting := [0]
  rhsNonContracting := [1]
  lhsBatch := []
  rhsBatch := []
  wf := dot_S32768x4096_S4096x51_S32768x51_1_0_0_1_n_n_wf
def gather_S16384_S32768x1_S32768_n_0_n_n_0_1_1 : GatherDims S16384 S32768x1 S32768 where
  offsetDims := []
  collapsedSliceDims := [0]
  operandBatchingDims := []
  startIndicesBatchingDims := []
  startIndexMap := [0]
  indexVectorDim := 1
  sliceSizes := ![1]
  wf := gather_S16384_S32768x1_S32768_n_0_n_n_0_1_1_wf
def gather_S151x151x51_S32768x2_S32768x51_1_01_n_n_01_1_1151 : GatherDims S151x151x51 S32768x2 S32768x51 where
  offsetDims := [1]
  collapsedSliceDims := [0, 1]
  operandBatchingDims := []
  startIndicesBatchingDims := []
  startIndexMap := [0, 1]
  indexVectorDim := 1
  sliceSizes := ![1, 1, 51]
  wf := gather_S151x151x51_S32768x2_S32768x51_1_01_n_n_01_1_1151_wf

class Facts : Prop extends Facts₀ where

variable [Facts]
-- ==== Proof.Spec.lean ====
/-
  The function both programs compute, written once over the argument arrays at the ideal values.

  Objects n < 16384 carry a context row x0[n, ·]; a linear layer gives each object an edge
  representation of 1024 numbers, edge n j = Σ_k x0[n,k]·x4[j,k] + x5[j], whose first 512 entries are the
  object's "head" features and whose last 512 its "tail" features. A relation r < 32768 names a head object
  and a tail object by the two integers x2[r,0], x2[r,1]; its pair feature row is the head features of the
  first followed by the tail features of the second (pairs). A second linear layer, gated entrywise by the
  relation's own visual features x1[r, ·], gives gated r p = (Σ_q pairs r q · x6[p,q] + x7[p]) · x1[r,p],
  and a third the 51 scores Σ_p gated r p · x8[j,p] + x9[j], to which a bias looked up in the table x10 at
  the two objects' classes x3[head], x3[tail] is added (bias, relDists).

  An integer word names a row by its signed value clamped into the table (rowAt); under the domain
  hypothesis that every index is in range the clamp does nothing.
-/
import Idealize.ShloMosaic.Lib.ValueIdx
import Idealize.ShloMosaic.PureOps.Ideal.Laws

noncomputable section

open scoped BigOperators

namespace Cert.RelSpec

open Idealize.ShloMosaic Idealize.ShloMosaic.ValueIdx

/-- The row of an N-row table a 32-bit word names: its signed value, clamped into [0, N − 1]. -/
def rowAt (N : ℕ) (hN : 0 < N) (w : BitVec 32) : Fin N := ⟨min w.toInt.toNat (N - 1), by omega⟩

theorem rowAt_val (N : ℕ) (hN : 0 < N) (w : BitVec 32) : (rowAt N hN w).val = min w.toInt.toNat (N - 1) := rfl

/-- In range, the row a word names is its value. -/
theorem rowAt_of_range (N : ℕ) (hN : 0 < N) (w : BitVec 32) (h0 : 0 ≤ w.toInt) (h1 : w.toInt < N) :
    ((rowAt N hN w).val : ℤ) = w.toInt := by
  rw [rowAt_val]; omega

abbrev A0 : Shape := ⟨2, ![16384, 512]⟩
abbrev A1 : Shape := ⟨2, ![32768, 4096]⟩
abbrev A2 : Shape := ⟨2, ![32768, 2]⟩
abbrev A3 : Shape := ⟨1, ![16384]⟩
abbrev A4 : Shape := ⟨2, ![1024, 512]⟩
abbrev A5 : Shape := ⟨1, ![1024]⟩
abbrev A6 : Shape := ⟨2, ![4096, 1024]⟩
abbrev A7 : Shape := ⟨1, ![4096]⟩
abbrev A8 : Shape := ⟨2, ![51, 4096]⟩
abbrev A9 : Shape := ⟨1, ![51]⟩
abbrev A10 : Shape := ⟨3, ![151, 151, 51]⟩
abbrev AOut : Shape := ⟨2, ![32768, 51]⟩

/-- The domain hypothesis on the pair list: both entries of every pair name an object. -/
def PairsInRange (x2 : IVec A2 32) : Prop :=
  ∀ (r : Fin 32768) (s : Fin 2), 0 ≤ (x2 (ix2 r s)).toInt ∧ (x2 (ix2 r s)).toInt < 16384

/-- The domain hypothesis on the class list: every object's class names a row and a column of the bias table. -/
def ClassesInRange (x3 : IVec A3 32) : Prop :=
  ∀ n : Fin 16384, 0 ≤ (x3 (ix1 n)).toInt ∧ (x3 (ix1 n)).toInt < 151

/-- The head object of relation r. -/
def hrow (x2 : IVec A2 32) (r : Fin 32768) : Fin 16384 := rowAt 16384 (by decide) (x2 (ix2 r (0 : Fin 2)))
/-- The tail object of relation r. -/
def trow (x2 : IVec A2 32) (r : Fin 32768) : Fin 16384 := rowAt 16384 (by decide) (x2 (ix2 r (1 : Fin 2)))
/-- The class of object n. -/
def cls (x3 : IVec A3 32) (n : Fin 16384) : Fin 151 := rowAt 151 (by decide) (x3 (ix1 n))

/-- The first linear layer: object n's edge representation, entry j. -/
def edge (x0 : FVec Ideal A0 .f32) (x4 : FVec Ideal A4 .f32) (x5 : FVec Ideal A5 .f32) (n : Fin 16384) (j : Fin 1024) : EReal :=
  (∑ k : Fin 512, x0 (ix2 n k) * x4 (ix2 j k)) + x5 (ix1 j)

/-- Relation r's pair features: the head object's first 512 entries, then the tail object's last 512. -/
def pairs (x0 : FVec Ideal A0 .f32) (x2 : IVec A2 32) (x4 : FVec Ideal A4 .f32) (x5 : FVec Ideal A5 .f32)
    (r : Fin 32768) (q : Fin 1024) : EReal :=
  if q.val < 512 then edge x0 x4 x5 (hrow x2 r) q else edge x0 x4 x5 (trow x2 r) q

/-- The second linear layer, gated by the relation's visual features. -/
def gated (x0 : FVec Ideal A0 .f32) (x1 : FVec Ideal A1 .f32) (x2 : IVec A2 32) (x4 : FVec Ideal A4 .f32) (x5 : FVec Ideal A5 .f32)
    (x6 : FVec Ideal A6 .f32) (x7 : FVec Ideal A7 .f32) (r : Fin 32768) (p : Fin 4096) : EReal :=
  ((∑ q : Fin 1024, pairs x0 x2 x4 x5 r q * x6 (ix2 p q)) + x7 (ix1 p)) * x1 (ix2 r p)

/-- The bias row of relation r: the table at the head's class and the tail's class. -/
def bias (x2 : IVec A2 32) (x3 : IVec A3 32) (x10 : FVec Ideal A10 .f32) (r : Fin 32768) (j : Fin 51) : EReal :=
  x10 (ix3 (cls x3 (hrow x2 r)) (cls x3 (trow x2 r)) j)

/-- The result: relation r's score for class j. -/
def relDists (x0 : FVec Ideal A0 .f32) (x1 : FVec Ideal A1 .f32) (x2 : IVec A2 32) (x3 : IVec A3 32) (x4 : FVec Ideal A4 .f32)
    (x5 : FVec Ideal A5 .f32) (x6 : FVec Ideal A6 .f32) (x7 : FVec Ideal A7 .f32) (x8 : FVec Ideal A8 .f32) (x9 : FVec Ideal A9 .f32)
    (x10 : FVec Ideal A10 .f32) (r : Fin 32768) (j : Fin 51) : EReal :=
  ((∑ p : Fin 4096, gated x0 x1 x2 x4 x5 x6 x7 r p * x8 (ix2 j p)) + x9 (ix1 j)) + bias x2 x3 x10 r j

/-- The result as an array. -/
def relArr (x0 : FVec Ideal A0 .f32) (x1 : FVec Ideal A1 .f32) (x2 : IVec A2 32) (x3 : IVec A3 32) (x4 : FVec Ideal A4 .f32)
    (x5 : FVec Ideal A5 .f32) (x6 : FVec Ideal A6 .f32) (x7 : FVec Ideal A7 .f32) (x8 : FVec Ideal A8 .f32) (x9 : FVec Ideal A9 .f32)
    (x10 : FVec Ideal A10 .f32) : FVec Ideal AOut .f32 :=
  fun i => relDists x0 x1 x2 x3 x4 x5 x6 x7 x8 x9 x10 (i 0) (i 1)

theorem relArr_apply (x0 : FVec Ideal A0 .f32) (x1 : FVec Ideal A1 .f32) (x2 : IVec A2 32) (x3 : IVec A3 32) (x4 : FVec Ideal A4 .f32)
    (x5 : FVec Ideal A5 .f32) (x6 : FVec Ideal A6 .f32) (x7 : FVec Ideal A7 .f32) (x8 : FVec Ideal A8 .f32) (x9 : FVec Ideal A9 .f32)
    (x10 : FVec Ideal A10 .f32) (r : Fin 32768) (j : Fin 51) :
    relArr x0 x1 x2 x3 x4 x5 x6 x7 x8 x9 x10 (ix2 r j) = relDists x0 x1 x2 x3 x4 x5 x6 x7 x8 x9 x10 r j := rfl

end Cert.RelSpec

end
-- ==== Proof.PreIdx.lean ====
/-
  What the precondition says of the two integer inputs. The printed predicate is a conjunction of "all" tests, one
  per input; its last two say that every entry of the pair list lies in [0, 16384) and every entry of the class
  list in [0, 151), as signed words. A conjunction that is 1 has both conjuncts 1; an "all" that is 1 had a 1 at
  every index; a signed comparison that is 1 is the order of the signed values.
-/
import proofs.«428228_j56667798503475_1_alg».proof.Pre_finite_inputs
import proofs.«428228_j56667798503475_1_alg».proof.Proof.Spec
import Idealize.ShloMosaic.Lib.ReduceAll

noncomputable section

namespace Cert.RelSpec

open Idealize.ShloMosaic Idealize.ShloMosaic.ValueIdx Cert.Pre_finite_inputs

/-- A rank-0 array has one index. -/
instance subsingleton_scalarIdx : Subsingleton Cert.Pre_finite_inputs.S_.Idx := ⟨fun a b => funext fun d => d.elim0⟩

variable {F : FTy → Type} [FloatOps F] [Cert.Pre_finite_inputs.Facts]

/-- Under the precondition every pair index names an object and every class names a row of the bias table. -/
theorem ranges_of_pre (x0 : FVec F S16384x512 .f32) (x1 : FVec F S32768x4096 .f32) (x2 : IVec S32768x2 32) (x3 : IVec S16384 32)
    (x4 : FVec F S1024x512 .f32) (x5 : FVec F S1024 .f32) (x6 : FVec F S4096x1024 .f32) (x7 : FVec F S4096 .f32)
    (x8 : FVec F S51x4096 .f32) (x9 : FVec F S51 .f32) (x10 : FVec F S151x151x51 .f32)
    (h : Cert.Pre_finite_inputs.fn (F := F) x0 x1 x2 x3 x4 x5 x6 x7 x8 x9 x10 = fun _ => 1#1) :
    PairsInRange x2 ∧ ClassesInRange x3 := by
  have e := congrFun h ix0
  simp only [Cert.Pre_finite_inputs.fn, Cert.Pre_finite_inputs.fn_part1, Cert.Pre_finite_inputs.fn_part2,
    Cert.Pre_finite_inputs.fn_part3] at e
  obtain ⟨e12, e3⟩ := IntOp.andi_eq_one.1 e
  obtain ⟨-, e2⟩ := IntOp.andi_eq_one.1 e12
  refine ⟨fun r s => ?_, fun n => ?_⟩
  · have hk := Host.reduce_andi_all _ _ _ _ ix0 e2 (ix2 r s)
    obtain ⟨hge, hlt⟩ := IntOp.andi_eq_one.1 hk
    exact ⟨IntOp.cmpi_sge.1 hge, IntOp.cmpi_slt.1 hlt⟩
  · have hk := Host.reduce_andi_all _ _ _ _ ix0 e3 (ix1 n)
    obtain ⟨hge, hlt⟩ := IntOp.andi_eq_one.1 hk
    exact ⟨IntOp.cmpi_sge.1 hge, IntOp.cmpi_slt.1 hlt⟩

end Cert.RelSpec

end
-- ==== Proof.KArrays.lean ====
/-
  Names, at their literal types, for the arrays the kernel's program passes between its two calls and its host
  operations, at the ideal values (every float is an extended real): the arguments as launched, the arrays each
  call is entered with, and the arrays each call leaves.
-/
import proofs.«428228_j56667798503475_1_alg».proof.Proof.Gen.KernelIdeal.Frame
import proofs.«428228_j56667798503475_1_alg».proof.Proof.Spec

noncomputable section

namespace Cert.KernelIdeal.RelValue

open Cert.KernelIdeal Cert.KernelIdeal.Gen Cert.RelSpec
open Idealize.ShloMosaic Idealize.ShloMosaic.TcCoe Idealize.SL.Sem

variable (m : (ℓ : Loc nD τ sig) → Buf (Elt Ideal) ℓ) (ρ : Dev nD → PrngReg)

/-! The arguments as launched. -/
abbrev a0 (c : Dev nD) : FVec Ideal A0 .f32 := m ((c : Thread nD τ).loc main_arg0)
abbrev a1 (c : Dev nD) : FVec Ideal A1 .f32 := m ((c : Thread nD τ).loc main_arg1)
abbrev a2 (c : Dev nD) : IVec A2 32 := m ((c : Thread nD τ).loc main_arg2)
abbrev a3 (c : Dev nD) : IVec A3 32 := m ((c : Thread nD τ).loc main_arg3)
abbrev a4 (c : Dev nD) : FVec Ideal A4 .f32 := m ((c : Thread nD τ).loc main_arg4)
abbrev a5 (c : Dev nD) : FVec Ideal A5 .f32 := m ((c : Thread nD τ).loc main_arg5)
abbrev a6 (c : Dev nD) : FVec Ideal A6 .f32 := m ((c : Thread nD τ).loc main_arg6)
abbrev a7 (c : Dev nD) : FVec Ideal A7 .f32 := m ((c : Thread nD τ).loc main_arg7)
abbrev a8 (c : Dev nD) : FVec Ideal A8 .f32 := m ((c : Thread nD τ).loc main_arg8)
abbrev a9 (c : Dev nD) : FVec Ideal A9 .f32 := m ((c : Thread nD τ).loc main_arg9)
abbrev a10 (c : Dev nD) : FVec Ideal A10 .f32 := m ((c : Thread nD τ).loc main_arg10)

/-! What the first call is entered with: context rows [16384, 512], weight [512, 1024], bias row [1, 1024]. -/
abbrev ctxIn (c : Dev nD) : S16384x512.Idx → EReal := V1 m ρ c main_arg0
abbrev w1In (c : Dev nD) : S512x1024.Idx → EReal := V1 m ρ c main_v1
abbrev b1In (c : Dev nD) : S1x1024.Idx → EReal := V1 m ρ c main_v6
/-- What the first call leaves: the edge representations [16384, 1024]. -/
abbrev edgeOut (c : Dev nD) : S16384x1024.Idx → EReal := W2 m ρ c (Proc.devRef .tc main_v9)

/-! What the second call is entered with: pair features [32768, 1024], weight [1024, 4096], bias row [1, 4096],
    gate [32768, 4096], weight [4096, 51], bias row [1, 51], looked-up bias [32768, 51]. -/
abbrev pairIn (c : Dev nD) : S32768x1024.Idx → EReal := V10 m ρ c main_v19
abbrev w2In (c : Dev nD) : S1024x4096.Idx → EReal := V10 m ρ c main_v3
abbrev b2In (c : Dev nD) : S1x4096.Idx → EReal := V10 m ρ c main_v7
abbrev gateIn (c : Dev nD) : S32768x4096.Idx → EReal := V10 m ρ c main_arg1
abbrev w3In (c : Dev nD) : S4096x51.Idx → EReal := V10 m ρ c main_v5
abbrev b3In (c : Dev nD) : S1x51.Idx → EReal := V10 m ρ c main_v8
abbrev biasIn (c : Dev nD) : S32768x51.Idx → EReal := V10 m ρ c main_v26
/-- What the second call leaves: the scores [32768, 51]. -/
abbrev relOut (c : Dev nD) : S32768x51.Idx → EReal := W11 m ρ c (Proc.devRef .tc main_v27)

end Cert.KernelIdeal.RelValue

end
-- ==== Proof.KRegion0.lean ====
/-
  What the first call leaves in its output array, entry by entry: grid point t computes rows 1024 t … 1024 t + 1023
  of the matrix product of the context rows with the (transposed) weight, plus the bias row; the 16 blocks tile the
  array, so entry (n, j) of the array is Σ_k X[n,k]·W[k,j] + b[0,j] of the arrays the call was entered with.
-/
import proofs.«428228_j56667798503475_1_alg».proof.Proof.KArrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RelValue

open Cert.KernelIdeal Cert.KernelIdeal.Gen Cert.RelSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The block product at an index -/

/-- The two zero offsets, however they are spelt. -/
private theorem zeroOff : (![0, 0] : Fin 2 → Nat) = fun _ => 0 := funext fun a => by fin_cases a <;> rfl

/-- The left operand's row coordinate of the block product is the output's row. -/
private theorem lhs_blk_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- Its column coordinate is the contraction index. -/
private theorem lhs_blk_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- The right operand's row coordinate is the contraction index. -/
private theorem rhs_blk_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- Its column coordinate is the output's column. -/
private theorem rhs_blk_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product into the zero accumulator, at entry (p, q): the sum over k of the products. -/
private theorem blockProduct_apply (y0 : FVec Ideal S1024x512 .bf16) (y1 : FVec Ideal S512x1024 .bf16) (p : Fin 1024) (q : Fin 1024) :
    (matmul dot_S1024x512_S512x1024_S1024x1024_1_0_0_1_n_n none y0 y1 (constant (F := Ideal) S1024x1024 .f32 0x00000000#32) : FVec Ideal S1024x1024 .f32) (ix2 p q)
      = ∑ k : Fin 512, y0 (ix2 p k) * y1 (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_blk_0 _ _
    | ⟨1, _⟩ => exact (lhs_blk_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_blk_0 _ _).trans hk
    | ⟨1, _⟩ => exact rhs_blk_1 _ _)
  rw [el, er]

/-- What the body stores, at entry (p, q) of its block, from the three blocks it loads: row p of the first times
    column q of the second (the narrowing to bf16 keeps an ideal value), plus entry q of the bias row. -/
private theorem payload_apply (x0 : Vec Ideal S1024x512 .f32) (x1 : Vec Ideal S512x1024 .bf16) (x2 : Vec Ideal S1x1024 .f32)
    (p : Fin 1024) (q : Fin 1024) :
    (k0_pay1 (F := Ideal) x0 x1 x2 : S1024x1024.Idx → EReal) (ix2 p q)
      = (∑ k : Fin 512, (x0 (ix2 p k) : EReal) * (x1 (ix2 k q) : EReal)) + (x2 (ix2 (0 : Fin 1) q) : EReal) := by
  unfold k0_pay1
  rw [addf_apply, blockProduct_apply, shapeCast_self, shapeCast_self, broadcastTo_1b_ab_apply]
  rfl

/-! ## The array the call leaves, as one function of the index -/

/-- Row n, column j of X·W + b over the arrays the call is entered with. -/
private def edgeFn (c : Dev nD) (n : Fin 16384) (j : Fin 1024) : EReal :=
  (∑ k : Fin 512, ctxIn m ρ c (ix2 n k) * w1In m ρ c (ix2 k j)) + b1In m ρ c (ix2 (0 : Fin 1) j)

/-- The same as one function of the output array's index. -/
private def edgeArr (c : Dev nD) : S16384x1024.Idx → EReal := fun i => edgeFn m ρ c (i 0) (i 1)

/-- The four index maps over the 16 grid points: the context rows and the output move with the point along the rows,
    the weight and the bias row stay at block 0; every point writes its output block back. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_3.flush t = true :=
  (by decide +kernel : ∀ t : Fin grid0.N, _)

/-- Entry (p, k) of the context block at point t is entry (1024 t + p, k) of the context rows. -/
private theorem ctxBlock_apply (c : Dev nD) (t : Fin cfg0.N) (p : Fin 1024) (k : Fin 512) (n : Fin 16384)
    (hn : n.val = t.val * 1024 + p.val) :
    (iblk0 (V1 m ρ) c 0 t : Vec Ideal S1024x512 .f32) (ix2 p k) = ctxIn m ρ c (ix2 n k) := by
  obtain ⟨e0, e1, -⟩ := idx_facts t
  show V1 m ρ c main_arg0 (((cfg0.win 0).blk t).view.emb (ix2 p k)) = V1 m ρ c main_arg0 (ix2 n k)
  have h : ((cfg0.win 0).blk t).view.emb (ix2 p k) = ix2 n k := by
    funext a; apply Fin.ext
    match a with
    | ⟨0, _⟩ => show win0_0.index t (0 : Fin 2) * 1024 + 1 * p.val = n.val; omega
    | ⟨1, _⟩ => show win0_0.index t (1 : Fin 2) * 512 + 1 * k.val = k.val; omega
  rw [h]

/-- The weight block at every point is the whole weight. -/
private theorem wBlock_apply (c : Dev nD) (t : Fin cfg0.N) (k : Fin 512) (q : Fin 1024) :
    (iblk0 (V1 m ρ) c 1 t : Vec Ideal S512x1024 .bf16) (ix2 k q) = w1In m ρ c (ix2 k q) := by
  obtain ⟨-, -, e2, e3, -⟩ := idx_facts t
  show V1 m ρ c main_v1 (((cfg0.win 1).blk t).view.emb (ix2 k q)) = V1 m ρ c main_v1 (ix2 k q)
  have h : ((cfg0.win 1).blk t).view.emb (ix2 k q) = ix2 k q := by
    funext a; apply Fin.ext
    match a with
    | ⟨0, _⟩ => show win0_1.index t (0 : Fin 2) * 512 + 1 * k.val = k.val; omega
    | ⟨1, _⟩ => show win0_1.index t (1 : Fin 2) * 1024 + 1 * q.val = q.val; omega
  rw [h]

/-- The bias block at every point is the whole bias row. -/
private theorem bBlock_apply (c : Dev nD) (t : Fin cfg0.N) (q : Fin 1024) :
    (iblk0 (V1 m ρ) c 2 t : Vec Ideal S1x1024 .f32) (ix2 (0 : Fin 1) q) = b1In m ρ c (ix2 (0 : Fin 1) q) := by
  obtain ⟨-, -, -, -, e4, e5, -⟩ := idx_facts t
  show V1 m ρ c main_v6 (((cfg0.win 2).blk t).view.emb (ix2 (0 : Fin 1) q)) = V1 m ρ c main_v6 (ix2 (0 : Fin 1) q)
  have h : ((cfg0.win 2).blk t).view.emb (ix2 (0 : Fin 1) q) = ix2 (0 : Fin 1) q := by
    funext a; apply Fin.ext
    match a with
    | ⟨0, _⟩ => show win0_2.index t (0 : Fin 2) * 1 + 1 * (0 : Fin 1).val = (0 : Fin 1).val; omega
    | ⟨1, _⟩ => show win0_2.index t (1 : Fin 2) * 1024 + 1 * q.val = q.val; omega
  rw [h]

/-- What point t writes back is block t of that function: rows 1024 t … 1024 t + 1023. -/
private theorem flushed_eq (c : Dev nD) (t : Fin cfg0.N) :
    (dat0 (V1 m ρ) c).flushed 3 t = ((cfg0.win 3).blk t).view.read (Elt Ideal) (edgeArr m ρ c) := by
  show (cfg0.win 3).cut (grid0.coords t) ((dat0 (V1 m ρ) c).after 3 t) = _
  rw [after0_3]
  unfold out0_3
  rw [View.canon_unit_zero zeroOff]
  simp only [View.ld_unit_zero (S := S1024x512) zeroOff, View.ld_unit_zero (S := S512x1024) zeroOff, View.ld_unit_zero (S := S1x1024) zeroOff]
  funext y
  obtain ⟨p, q, rfl⟩ : ∃ (p q : Fin 1024), y = ix2 p q := ⟨y 0, y 1, eq_ix2 y⟩
  obtain ⟨-, -, -, -, -, -, e6, e7, -⟩ := idx_facts t
  have ht : t.val < 16 := lt_of_lt_of_eq t.isLt N_0
  show (k0_pay1 (F := Ideal) (iblk0 (V1 m ρ) c 0 t) (iblk0 (V1 m ρ) c 1 t) (iblk0 (V1 m ρ) c 2 t) : S1024x1024.Idx → EReal) (ix2 p q)
      = edgeArr m ρ c (((cfg0.win 3).blk t).view.emb (ix2 p q))
  have hemb : ((cfg0.win 3).blk t).view.emb (ix2 p q) = ix2 (⟨t.val * 1024 + p.val, by omega⟩ : Fin 16384) q := by
    funext a; apply Fin.ext
    match a with
    | ⟨0, _⟩ => show win0_3.index t (0 : Fin 2) * 1024 + 1 * p.val = t.val * 1024 + p.val; omega
    | ⟨1, _⟩ => show win0_3.index t (1 : Fin 2) * 1024 + 1 * q.val = q.val; omega
  rw [hemb, payload_apply]
  show _ = edgeFn m ρ c (⟨t.val * 1024 + p.val, by omega⟩ : Fin 16384) q
  unfold edgeFn
  rw [bBlock_apply]
  congr 1
  refine Finset.sum_congr rfl fun k _ => ?_
  rw [ctxBlock_apply m ρ c t p k (⟨t.val * 1024 + p.val, by omega⟩ : Fin 16384) rfl, wBlock_apply]

/-- An index of the array is in point t's block iff each coordinate is in the block's range on its axis. -/
private theorem mem_blk (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v9).slice (win0_3.rect t)).set ↔ _
  rw [View.set_slice_whole, Rect.mem_set_unit]
  exact Iff.rfl

/-- The 16 row blocks tile the array: row r lies in the block of point r / 1024. -/
private theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, e6, e7, hf⟩ := idx_facts t
  refine ⟨t, hf, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- So the output array after the call is that function. -/
private theorem edgeOut_eq (c : Dev nD) : edgeOut m ρ c = edgeArr m ρ c := by
  show W2 m ρ c (Proc.devRef .tc main_v9) = _
  exact (W2_arr m ρ c 3).trans
    ((dat0 (V1 m ρ) c).arrAt_eq_of_cover 3 (edgeArr m ρ c) (fun t _ => flushed_eq m ρ c t) covered)

/-- Entry (n, j) of the first call's output array after the call: the row-n, column-j entry of X·W + b, over the
    arrays the call finds at its entry. -/
theorem region0_apply (c : Dev nD) (n : Fin 16384) (j : Fin 1024) :
    edgeOut m ρ c (ix2 n j) = (∑ k : Fin 512, ctxIn m ρ c (ix2 n k) * w1In m ρ c (ix2 k j)) + b1In m ρ c (ix2 (0 : Fin 1) j) := by
  rw [edgeOut_eq]
  rfl

end Cert.KernelIdeal.RelValue

end
-- ==== Proof.KRegion1.lean ====
/-
  What the second call leaves in its output array, entry by entry: grid point t computes rows 256 t … 256 t + 255;
  a row of pair features times the second weight plus its bias, gated entrywise by the relation's visual features,
  times the third weight plus its bias plus the looked-up bias row. The 128 blocks tile the array.
-/
import proofs.«428228_j56667798503475_1_alg».proof.Proof.KArrays
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RelValue

open Cert.KernelIdeal Cert.KernelIdeal.Gen Cert.RelSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-! The operand indices of the product [mmA]: the left operand is read at (row, contraction), the right at (contraction, column). -/
theorem mmA_lhs_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem mmA_lhs_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem mmA_rhs_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem mmA_rhs_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-! The operand indices of the product [mmB]: the left operand is read at (row, contraction), the right at (contraction, column). -/
theorem mmB_lhs_0 (i : S256x51.Idx) (q : dot_S256x4096_S4096x51_S256x51_1_0_0_1_n_n.contr.Idx) :
    (dot_S256x4096_S4096x51_S256x51_1_0_0_1_n_n.lhsIdx i q 0).val = (i 0).val := by
  unfold DotDims.lhsIdx
  rw [dif_neg (show ¬(0 : Fin S256x4096.rank) ∈ dot_S256x4096_S4096x51_S256x51_1_0_0_1_n_n.lhsBatch by decide), dif_pos (show (0 : Fin S256x4096.rank) ∈ dot_S256x4096_S4096x51_S256x51_1_0_0_1_n_n.lhsNonContracting by decide)]
  rfl
theorem mmB_lhs_1 (i : S256x51.Idx) (q : dot_S256x4096_S4096x51_S256x51_1_0_0_1_n_n.contr.Idx) :
    (dot_S256x4096_S4096x51_S256x51_1_0_0_1_n_n.lhsIdx i q 1).val = (q ⟨0, by decide⟩).val :=
  dot_S256x4096_S4096x51_S256x51_1_0_0_1_n_n.lhsIdx_val_of_single rfl i q
theorem mmB_rhs_0 (i : S256x51.Idx) (q : dot_S256x4096_S4096x51_S256x51_1_0_0_1_n_n.contr.Idx) :
    (dot_S256x4096_S4096x51_S256x51_1_0_0_1_n_n.rhsIdx i q 0).val = (q ⟨0, by decide⟩).val :=
  dot_S256x4096_S4096x51_S256x51_1_0_0_1_n_n.rhsIdx_val_of_single rfl i q
theorem mmB_rhs_1 (i : S256x51.Idx) (q : dot_S256x4096_S4096x51_S256x51_1_0_0_1_n_n.contr.Idx) :
    (dot_S256x4096_S4096x51_S256x51_1_0_0_1_n_n.rhsIdx i q 1).val = (i 1).val := by
  unfold DotDims.rhsIdx
  rw [dif_neg (show ¬(1 : Fin S4096x51.rank) ∈ dot_S256x4096_S4096x51_S256x51_1_0_0_1_n_n.rhsBatch by decide), dif_pos (show (1 : Fin S4096x51.rank) ∈ dot_S256x4096_S4096x51_S256x51_1_0_0_1_n_n.rhsNonContracting by decide)]
  rfl

/-- The product into a zero accumulator, at row a and column b: the sum over the contraction coordinate. -/
theorem mmA_apply (x : FVec Ideal S256x1024 .bf16) (y : FVec Ideal S1024x4096 .bf16) (a : Fin 256) (b : Fin 4096) :
    matmul dot_S256x1024_S1024x4096_S256x4096_1_0_0_1_n_n none x y (constant S256x4096 .f32 0x00000000#32) (ix2 a b)
      = ∑ k : Fin 1024, x (ix2 a k) * y (ix2 k b) := by
  simp only [matmul]
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 a b) ((ValueIdx.contrEquiv1 dot_S256x1024_S1024x4096_S256x4096_1_0_0_1_n_n 1024 rfl rfl).symm k) = ix2 a k := funext fun d => Fin.ext (by
    match d with
    | ⟨0, _⟩ => exact mmA_lhs_0 _ _
    | ⟨1, _⟩ => exact (mmA_lhs_1 _ _).trans hk)
  have er : dot_S256x1024_S1024x4096_S256x4096_1_0_0_1_n_n.rhsIdx (ix2 a b) ((ValueIdx.contrEquiv1 dot_S256x1024_S1024x4096_S256x4096_1_0_0_1_n_n 1024 rfl rfl).symm k) = ix2 k b := funext fun d => Fin.ext (by
    match d with
    | ⟨0, _⟩ => exact (mmA_rhs_0 _ _).trans hk
    | ⟨1, _⟩ => exact mmA_rhs_1 _ _)
  rw [el, er]

/-- The product into a zero accumulator, at row a and column b: the sum over the contraction coordinate. -/
theorem mmB_apply (x : FVec Ideal S256x4096 .bf16) (y : FVec Ideal S4096x51 .bf16) (a : Fin 256) (b : Fin 51) :
    matmul dot_S256x4096_S4096x51_S256x51_1_0_0_1_n_n none x y (constant S256x51 .f32 0x00000000#32) (ix2 a b)
      = ∑ k : Fin 4096, x (ix2 a k) * y (ix2 k b) := by
  simp only [matmul]
  rw [Ideal.matmul_constant_zero_apply, ← Equiv.sum_comp (ValueIdx.contrEquiv1 dot_S256x4096_S4096x51_S256x51_1_0_0_1_n_n 4096 rfl rfl).symm]
  refine Finset.sum_congr rfl fun k _ => ?_
  have hk := ValueIdx.contrEquiv1_symm_val dot_S256x4096_S4096x51_S256x51_1_0_0_1_n_n 4096 rfl rfl k
  have el : dot_S256x4096_S4096x51_S256x51_1_0_0_1_n_n.lhsIdx (ix2 a b) ((ValueIdx.contrEquiv1 dot_S256x4096_S4096x51_S256x51_1_0_0_1_n_n 4096 rfl rfl).symm k) = ix2 a k := funext fun d => Fin.ext (by
    match d with
    | ⟨0, _⟩ => exact mmB_lhs_0 _ _
    | ⟨1, _⟩ => exact (mmB_lhs_1 _ _).trans hk)
  have er : dot_S256x4096_S4096x51_S256x51_1_0_0_1_n_n.rhsIdx (ix2 a b) ((ValueIdx.contrEquiv1 dot_S256x4096_S4096x51_S256x51_1_0_0_1_n_n 4096 rfl rfl).symm k) = ix2 k b := funext fun d => Fin.ext (by
    match d with
    | ⟨0, _⟩ => exact (mmB_rhs_0 _ _).trans hk
    | ⟨1, _⟩ => exact mmB_rhs_1 _ _)
  rw [el, er]

/-- A row laid along every row of the block, read at (a, b): the row's entry b. -/
theorem rowA_apply (x : FVec Ideal S1x4096 .f32) (a : Fin 256) (b : Fin 4096) :
    broadcastTo S256x4096 x broadcasts_S1x4096_S256x4096 (ix2 a b) = x (ix2 (0 : Fin 1) b) :=
  broadcastTo_apply x broadcasts_S1x4096_S256x4096 (ix2 a b) (ix2 (0 : Fin 1) b) (fun d => match d with
    | ⟨0, _⟩ => by show 0 = if (1 : Nat) = 1 then 0 else a.val; rw [if_pos rfl]
    | ⟨1, _⟩ => by show b.val = if (4096 : Nat) = 1 then 0 else b.val; rw [if_neg (by decide)])

/-- A row laid along every row of the block, read at (a, b): the row's entry b. -/
theorem rowB_apply (x : FVec Ideal S1x51 .f32) (a : Fin 256) (b : Fin 51) :
    broadcastTo S256x51 x broadcasts_S1x51_S256x51 (ix2 a b) = x (ix2 (0 : Fin 1) b) :=
  broadcastTo_apply x broadcasts_S1x51_S256x51 (ix2 a b) (ix2 (0 : Fin 1) b) (fun d => match d with
    | ⟨0, _⟩ => by show 0 = if (1 : Nat) = 1 then 0 else a.val; rw [if_pos rfl]
    | ⟨1, _⟩ => by show b.val = if (51 : Nat) = 1 then 0 else b.val; rw [if_neg (by decide)])

/-- The body's result at row a and column b of its block, from the seven blocks it loads. -/
theorem body_apply (x0 : FVec Ideal S256x1024 .bf16) (x1 : FVec Ideal S1024x4096 .bf16) (x2 : FVec Ideal S1x4096 .f32)
    (x3 : FVec Ideal S256x4096 .f32) (x4 : FVec Ideal S4096x51 .bf16) (x5 : FVec Ideal S1x51 .f32) (x6 : FVec Ideal S256x51 .f32)
    (a : Fin 256) (b : Fin 51) :
    k1_pay1 (F := Ideal) x0 x1 x2 x3 x4 x5 x6 (ix2 a b)
      = ((∑ p : Fin 4096, (((∑ q : Fin 1024, x0 (ix2 a q) * x1 (ix2 q p)) + x2 (ix2 (0 : Fin 1) p)) * x3 (ix2 a p)) * x4 (ix2 p b))
          + x5 (ix2 (0 : Fin 1) b))
        + x6 (ix2 a b) := by
  unfold k1_pay1
  simp only [shapeCast_self]
  rw [addf_apply, addf_apply, mmB_apply, rowB_apply]
  refine congrArg (· + x6 (ix2 a b)) (congrArg (· + x5 (ix2 (0 : Fin 1) b)) (Finset.sum_congr rfl fun p _ => ?_))
  rw [truncf_apply, mulf_apply, addf_apply, mmA_apply, rowA_apply]

/-! ## From the blocks to the array -/

/-- The body's accesses start at the block's origin. -/
theorem origin_zero : (![0, 0] : Fin 2 → Nat) = fun _ => 0 :=
  funext fun a => by match a with | ⟨0, _⟩ => rfl | ⟨1, _⟩ => rfl

/-- Entry (r, j) of the result as a function of the arrays the call is entered with. -/
abbrev relRow (c : Dev nD) (r : Fin 32768) (j : Fin 51) : EReal :=
  ((∑ p : Fin 4096,
        (((∑ q : Fin 1024, pairIn m ρ c (ix2 r q) * w2In m ρ c (ix2 q p)) + b2In m ρ c (ix2 (0 : Fin 1) p)) * gateIn m ρ c (ix2 r p))
          * w3In m ρ c (ix2 p j))
      + b3In m ρ c (ix2 (0 : Fin 1) j))
    + biasIn m ρ c (ix2 r j)

/-- The whole result array as one function of its index. -/
abbrev relFn (c : Dev nD) : S32768x51.Idx → EReal := fun i => relRow m ρ c (i 0) (i 1)

/-- Where each window's block sits at each of the 128 grid points t: the row-blocked windows (pair
    features, gate, looked-up bias, output) at block row t, the weights and bias rows at block 0. -/
theorem where_blocks : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ t.val < 128 :=
  (by decide +kernel : ∀ t : Fin grid1.N, _)

/-- Window 0's block at point t is rows 256 t … 256 t + 255 of its array. -/
theorem blk0_apply (c : Dev nD) (t : Fin cfg1.N) (a : Fin 256) (b : Fin 1024) (r : Fin 32768) (hr : r.val = t.val * 256 + a.val) :
    iblk1 (V10 m ρ) c 0 t (ix2 a b) = pairIn m ρ c (ix2 r b) := by
  obtain ⟨e00, e01, e10, e11, e20, e21, e30, e31, e40, e41, e50, e51, e60, e61, e70, e71, elt⟩ := where_blocks t
  show V10 m ρ c main_v19 (((cfg1.win 0).blk t).view.emb (ix2 a b)) = V10 m ρ c main_v19 (ix2 r b)
  refine congrArg (pairIn m ρ c) (funext fun d => Fin.ext ?_)
  match d with
  | ⟨0, _⟩ => show win1_0.index t (0 : Fin 2) * 256 + 1 * a.val = r.val; omega
  | ⟨1, _⟩ => show win1_0.index t (1 : Fin 2) * 1024 + 1 * b.val = b.val; omega

/-- Window 1's block at every point is its whole array. -/
theorem blk1_apply (c : Dev nD) (t : Fin cfg1.N) (a : Fin 1024) (b : Fin 4096) :
    iblk1 (V10 m ρ) c 1 t (ix2 a b) = w2In m ρ c (ix2 a b) := by
  obtain ⟨e00, e01, e10, e11, e20, e21, e30, e31, e40, e41, e50, e51, e60, e61, e70, e71, elt⟩ := where_blocks t
  show V10 m ρ c main_v3 (((cfg1.win 1).blk t).view.emb (ix2 a b)) = V10 m ρ c main_v3 (ix2 a b)
  refine congrArg (w2In m ρ c) (funext fun d => Fin.ext ?_)
  match d with
  | ⟨0, _⟩ => show win1_1.index t (0 : Fin 2) * 1024 + 1 * a.val = a.val; omega
  | ⟨1, _⟩ => show win1_1.index t (1 : Fin 2) * 4096 + 1 * b.val = b.val; omega

/-- Window 2's block at every point is its whole array. -/
theorem blk2_apply (c : Dev nD) (t : Fin cfg1.N) (a : Fin 1) (b : Fin 4096) :
    iblk1 (V10 m ρ) c 2 t (ix2 a b) = b2In m ρ c (ix2 a b) := by
  obtain ⟨e00, e01, e10, e11, e20, e21, e30, e31, e40, e41, e50, e51, e60, e61, e70, e71, elt⟩ := where_blocks t
  show V10 m ρ c main_v7 (((cfg1.win 2).blk t).view.emb (ix2 a b)) = V10 m ρ c main_v7 (ix2 a b)
  refine congrArg (b2In m ρ c) (funext fun d => Fin.ext ?_)
  match d with
  | ⟨0, _⟩ => show win1_2.index t (0 : Fin 2) * 1 + 1 * a.val = a.val; omega
  | ⟨1, _⟩ => show win1_2.index t (1 : Fin 2) * 4096 + 1 * b.val = b.val; omega

/-- Window 3's block at point t is rows 256 t … 256 t + 255 of its array. -/
theorem blk3_apply (c : Dev nD) (t : Fin cfg1.N) (a : Fin 256) (b : Fin 4096) (r : Fin 32768) (hr : r.val = t.val * 256 + a.val) :
    iblk1 (V10 m ρ) c 3 t (ix2 a b) = gateIn m ρ c (ix2 r b) := by
  obtain ⟨e00, e01, e10, e11, e20, e21, e30, e31, e40, e41, e50, e51, e60, e61, e70, e71, elt⟩ := where_blocks t
  show V10 m ρ c main_arg1 (((cfg1.win 3).blk t).view.emb (ix2 a b)) = V10 m ρ c main_arg1 (ix2 r b)
  refine congrArg (gateIn m ρ c) (funext fun d => Fin.ext ?_)
  match d with
  | ⟨0, _⟩ => show win1_3.index t (0 : Fin 2) * 256 + 1 * a.val = r.val; omega
  | ⟨1, _⟩ => show win1_3.index t (1 : Fin 2) * 4096 + 1 * b.val = b.val; omega

/-- Window 4's block at every point is its whole array. -/
theorem blk4_apply (c : Dev nD) (t : Fin cfg1.N) (a : Fin 4096) (b : Fin 51) :
    iblk1 (V10 m ρ) c 4 t (ix2 a b) = w3In m ρ c (ix2 a b) := by
  obtain ⟨e00, e01, e10, e11, e20, e21, e30, e31, e40, e41, e50, e51, e60, e61, e70, e71, elt⟩ := where_blocks t
  show V10 m ρ c main_v5 (((cfg1.win 4).blk t).view.emb (ix2 a b)) = V10 m ρ c main_v5 (ix2 a b)
  refine congrArg (w3In m ρ c) (funext fun d => Fin.ext ?_)
  match d with
  | ⟨0, _⟩ => show win1_4.index t (0 : Fin 2) * 4096 + 1 * a.val = a.val; omega
  | ⟨1, _⟩ => show win1_4.index t (1 : Fin 2) * 51 + 1 * b.val = b.val; omega

/-- Window 5's block at every point is its whole array. -/
theorem blk5_apply (c : Dev nD) (t : Fin cfg1.N) (a : Fin 1) (b : Fin 51) :
    iblk1 (V10 m ρ) c 5 t (ix2 a b) = b3In m ρ c (ix2 a b) := by
  obtain ⟨e00, e01, e10, e11, e20, e21, e30, e31, e40, e41, e50, e51, e60, e61, e70, e71, elt⟩ := where_blocks t
  show V10 m ρ c main_v8 (((cfg1.win 5).blk t).view.emb (ix2 a b)) = V10 m ρ c main_v8 (ix2 a b)
  refine congrArg (b3In m ρ c) (funext fun d => Fin.ext ?_)
  match d with
  | ⟨0, _⟩ => show win1_5.index t (0 : Fin 2) * 1 + 1 * a.val = a.val; omega
  | ⟨1, _⟩ => show win1_5.index t (1 : Fin 2) * 51 + 1 * b.val = b.val; omega

/-- Window 6's block at point t is rows 256 t … 256 t + 255 of its array. -/
theorem blk6_apply (c : Dev nD) (t : Fin cfg1.N) (a : Fin 256) (b : Fin 51) (r : Fin 32768) (hr : r.val = t.val * 256 + a.val) :
    iblk1 (V10 m ρ) c 6 t (ix2 a b) = biasIn m ρ c (ix2 r b) := by
  obtain ⟨e00, e01, e10, e11, e20, e21, e30, e31, e40, e41, e50, e51, e60, e61, e70, e71, elt⟩ := where_blocks t
  show V10 m ρ c main_v26 (((cfg1.win 6).blk t).view.emb (ix2 a b)) = V10 m ρ c main_v26 (ix2 r b)
  refine congrArg (biasIn m ρ c) (funext fun d => Fin.ext ?_)
  match d with
  | ⟨0, _⟩ => show win1_6.index t (0 : Fin 2) * 256 + 1 * a.val = r.val; omega
  | ⟨1, _⟩ => show win1_6.index t (1 : Fin 2) * 51 + 1 * b.val = b.val; omega

/-- The body's result at row a, column b of point t's block is entry (256 t + a, b) of the result function. -/
theorem point_apply (c : Dev nD) (t : Fin cfg1.N) (a : Fin 256) (b : Fin 51) (r : Fin 32768) (hr : r.val = t.val * 256 + a.val) :
    k1_pay1 (F := Ideal) (iblk1 (V10 m ρ) c 0 t) (iblk1 (V10 m ρ) c 1 t) (iblk1 (V10 m ρ) c 2 t) (iblk1 (V10 m ρ) c 3 t) (iblk1 (V10 m ρ) c 4 t) (iblk1 (V10 m ρ) c 5 t) (iblk1 (V10 m ρ) c 6 t) (ix2 a b) = relRow m ρ c r b := by
  refine (body_apply (iblk1 (V10 m ρ) c 0 t) (iblk1 (V10 m ρ) c 1 t) (iblk1 (V10 m ρ) c 2 t) (iblk1 (V10 m ρ) c 3 t) (iblk1 (V10 m ρ) c 4 t) (iblk1 (V10 m ρ) c 5 t) (iblk1 (V10 m ρ) c 6 t) a b).trans ?_
  simp only [blk0_apply m ρ c t a _ r hr, blk1_apply m ρ c t, blk2_apply m ρ c t, blk3_apply m ρ c t a _ r hr,
    blk4_apply m ρ c t, blk5_apply m ρ c t, blk6_apply m ρ c t a _ r hr]

/-- What point t writes back is block t of the result function. -/
theorem flushed_eq (c : Dev nD) (t : Fin cfg1.N) :
    (dat1 (V10 m ρ) c).flushed 7 t = ((cfg1.win 7).blk t).view.read (Elt Ideal) (relFn m ρ c) := by
  show (cfg1.win 7).cut (grid1.coords t) ((dat1 (V10 m ρ) c).after 7 t) = _
  rw [after1_7]
  unfold out1_7
  rw [View.canon_unit_zero origin_zero]
  simp only [View.ld_unit_zero (S := S256x1024) origin_zero, View.ld_unit_zero (S := S1024x4096) origin_zero,
    View.ld_unit_zero (S := S1x4096) origin_zero, View.ld_unit_zero (S := S256x4096) origin_zero,
    View.ld_unit_zero (S := S4096x51) origin_zero, View.ld_unit_zero (S := S1x51) origin_zero,
    View.ld_unit_zero (S := S256x51) origin_zero]
  obtain ⟨e00, e01, e10, e11, e20, e21, e30, e31, e40, e41, e50, e51, e60, e61, e70, e71, elt⟩ := where_blocks t
  funext y
  obtain ⟨a, b, rfl⟩ : ∃ (a : Fin 256) (b : Fin 51), y = ix2 a b := ⟨y 0, y 1, eq_ix2 y⟩
  have hr : ((((cfg1.win 7).blk t).view.emb (ix2 a b)) 0).val = t.val * 256 + a.val := by
    show win1_7.index t (0 : Fin 2) * 256 + 1 * a.val = _; omega
  have hj : (((cfg1.win 7).blk t).view.emb (ix2 a b)) 1 = b := Fin.ext (by
    show win1_7.index t (1 : Fin 2) * 51 + 1 * b.val = _; omega)
  refine (point_apply m ρ c t a b ((((cfg1.win 7).blk t).view.emb (ix2 a b)) 0) hr).trans ?_
  show relRow m ρ c ((((cfg1.win 7).blk t).view.emb (ix2 a b)) 0) b
    = relRow m ρ c ((((cfg1.win 7).blk t).view.emb (ix2 a b)) 0) ((((cfg1.win 7).blk t).view.emb (ix2 a b)) 1)
  rw [hj]

/-- An index of the array is in point t's block iff each coordinate is in the block's range on its axis. -/
theorem mem_block (t : Fin cfg1.N) (i : S32768x51.Idx) :
    i ∈ ((cfg1.win 7).blk t).view.set ↔ ∀ a : Fin 2, win1_7.index t a * S256x51.size a ≤ (i a).val ∧ (i a).val < win1_7.index t a * S256x51.size a + S256x51.size a := by
  show i ∈ ((View.whole main_v27).slice (win1_7.rect t)).set ↔ _
  rw [View.set_slice_whole, Rect.mem_set_unit]
  exact Iff.rfl

/-- Row r of the array is in the block of point r / 256: the 128 blocks of 256 rows tile it. -/
theorem covered (i : S32768x51.Idx) :
    ∃ t : Fin cfg1.N, (cfg1.win 7).flush t = true ∧ i ∈ ((cfg1.win 7).blk t).view.set := by
  have hi0 : (i 0).val < 32768 := idx2_lt0 i
  have hi1 : (i 1).val < 51 := idx2_lt1 i
  have hN : cfg1.N = 128 := N_1
  have hlt : (i 0).val / 256 < cfg1.N := by rw [hN]; omega
  obtain ⟨e00, e01, e10, e11, e20, e21, e30, e31, e40, e41, e50, e51, e60, e61, e70, e71, elt⟩ := where_blocks ⟨(i 0).val / 256, hlt⟩
  have e70' : win1_7.index ⟨(i 0).val / 256, hlt⟩ (0 : Fin 2) = (i 0).val / 256 := e70
  refine ⟨⟨(i 0).val / 256, hlt⟩, flush1_7 _, ?_⟩
  rw [mem_block]
  intro a
  match a with
  | ⟨0, _⟩ => show win1_7.index ⟨(i 0).val / 256, hlt⟩ (0 : Fin 2) * 256 ≤ (i 0).val ∧ (i 0).val < win1_7.index ⟨(i 0).val / 256, hlt⟩ (0 : Fin 2) * 256 + 256; omega
  | ⟨1, _⟩ => show win1_7.index ⟨(i 0).val / 256, hlt⟩ (1 : Fin 2) * 51 ≤ (i 1).val ∧ (i 1).val < win1_7.index ⟨(i 0).val / 256, hlt⟩ (1 : Fin 2) * 51 + 51; omega

/-- The second call's output array after the call is the result function of the arrays it was entered with. -/
theorem relOut_eq (c : Dev nD) : relOut m ρ c = relFn m ρ c :=
  (W11_arr m ρ c 7).trans ((dat1 (V10 m ρ) c).arrAt_eq_of_cover 7 (relFn m ρ c) (fun t _ => flushed_eq m ρ c t) covered)

/-- Entry (r, j) of the second call's output array after the call, over the arrays the call finds at its entry. -/
theorem region1_apply (c : Dev nD) (r : Fin 32768) (j : Fin 51) :
    relOut m ρ c (ix2 r j)
      = ((∑ p : Fin 4096,
            (((∑ q : Fin 1024, pairIn m ρ c (ix2 r q) * w2In m ρ c (ix2 q p)) + b2In m ρ c (ix2 (0 : Fin 1) p)) * gateIn m ρ c (ix2 r p))
              * w3In m ρ c (ix2 p j))
          + b3In m ρ c (ix2 (0 : Fin 1) j))
        + biasIn m ρ c (ix2 r j) := by
  exact congrFun (relOut_eq m ρ c) (ix2 r j)

end Cert.KernelIdeal.RelValue

end
-- ==== Proof.KHostA.lean ====
/-
  The weight arrays the two calls are entered with: each is a transpose (and a change of float format, the
  identity at the ideal values) or a reshape of an argument, computed before the first call and written by nothing
  afterwards; the arguments themselves are written by nothing.
-/
import proofs.«428228_j56667798503475_1_alg».proof.Proof.KArrays
import Idealize.ShloMosaic.Lib.Pipeline.Value
import Idealize.ShloMosaic.Lib.StableHlo.Run

set_option maxRecDepth 16384

noncomputable section

open scoped BigOperators

namespace Cert.KernelIdeal.RelValue

open Cert.KernelIdeal Cert.KernelIdeal.Gen Cert.RelSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## A stretch of host operations writes only its own results

Each stretch of host operations between the launch and the second call is a list of operations, each writing one
result buffer. The result buffers of each stretch are listed here; a buffer outside a stretch's list holds after the
stretch what it held before. -/

/-- The buffers the operations of this stretch write, in order. -/
private abbrev res0 : List (Ref sig .tc) :=
  [main_v0, main_v1, main_v2, main_v3, main_v4, main_v5, main_v6, main_v7, main_v8]

/-- The buffers the operations of this stretch write, in order. -/
private abbrev res1 : List (Ref sig .tc) :=
  [main_v10, main_v11, main_v12, main_v13, main_v14, main_v15]

/-- The buffers the operations of this stretch write, in order. -/
private abbrev res1_1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v16]

/-- The buffers the operations of this stretch write, in order. -/
private abbrev res1_2 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v17]

/-- The buffers the operations of this stretch write, in order. -/
private abbrev res1_3 : List (Ref sig .tc) :=
  [main_v18, main_v19]

/-- The buffers the operations of this stretch write, in order. -/
private abbrev res1_4 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v20]

/-- The buffers the operations of this stretch write, in order. -/
private abbrev res1_5 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_c_4, main_call3_v14, main_v21]

/-- The buffers the operations of this stretch write, in order. -/
private abbrev res1_6 : List (Ref sig .tc) :=
  [main_v22, main_c, main_v23, main_v24, main_v25]

/-- The buffers the operations of this stretch write, in order. -/
private abbrev res1_7 : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v26]

/-- Closes "a stretch leaves a buffer outside its result list as it was": no operation of the stretch writes the
    buffer, because each writes one result and the buffer differs from every one of them. -/
local macro "stretch_keeps" ops:ident hb:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => $hb (by rw [e]; decide))))

private theorem keep0 (V : Valuation τ sig (Elt Ideal)) (b : Ref sig .tc) (hb : b ∉ res0) :
    StableHlo.after (hostOps0 (F := Ideal)) V (Proc.devRef .tc b) = V (Proc.devRef .tc b) := by
  stretch_keeps hostOps0 hb

private theorem keep1 (V : Valuation τ sig (Elt Ideal)) (b : Ref sig .tc) (hb : b ∉ res1) :
    StableHlo.after (hostOps1 (F := Ideal)) V (Proc.devRef .tc b) = V (Proc.devRef .tc b) := by
  stretch_keeps hostOps1 hb

private theorem keep1_1 (V : Valuation τ sig (Elt Ideal)) (b : Ref sig .tc) (hb : b ∉ res1_1) :
    StableHlo.after (hostOps1_1 (F := Ideal)) V (Proc.devRef .tc b) = V (Proc.devRef .tc b) := by
  stretch_keeps hostOps1_1 hb

private theorem keep1_2 (V : Valuation τ sig (Elt Ideal)) (b : Ref sig .tc) (hb : b ∉ res1_2) :
    StableHlo.after (hostOps1_2 (F := Ideal)) V (Proc.devRef .tc b) = V (Proc.devRef .tc b) := by
  stretch_keeps hostOps1_2 hb

private theorem keep1_3 (V : Valuation τ sig (Elt Ideal)) (b : Ref sig .tc) (hb : b ∉ res1_3) :
    StableHlo.after (hostOps1_3 (F := Ideal)) V (Proc.devRef .tc b) = V (Proc.devRef .tc b) := by
  stretch_keeps hostOps1_3 hb

private theorem keep1_4 (V : Valuation τ sig (Elt Ideal)) (b : Ref sig .tc) (hb : b ∉ res1_4) :
    StableHlo.after (hostOps1_4 (F := Ideal)) V (Proc.devRef .tc b) = V (Proc.devRef .tc b) := by
  stretch_keeps hostOps1_4 hb

private theorem keep1_5 (V : Valuation τ sig (Elt Ideal)) (b : Ref sig .tc) (hb : b ∉ res1_5) :
    StableHlo.after (hostOps1_5 (F := Ideal)) V (Proc.devRef .tc b) = V (Proc.devRef .tc b) := by
  stretch_keeps hostOps1_5 hb

private theorem keep1_6 (V : Valuation τ sig (Elt Ideal)) (b : Ref sig .tc) (hb : b ∉ res1_6) :
    StableHlo.after (hostOps1_6 (F := Ideal)) V (Proc.devRef .tc b) = V (Proc.devRef .tc b) := by
  stretch_keeps hostOps1_6 hb

private theorem keep1_7 (V : Valuation τ sig (Elt Ideal)) (b : Ref sig .tc) (hb : b ∉ res1_7) :
    StableHlo.after (hostOps1_7 (F := Ideal)) V (Proc.devRef .tc b) = V (Proc.devRef .tc b) := by
  stretch_keeps hostOps1_7 hb

/-- From the second call's entry back to the first call's entry: a buffer that is no array of the first call and
    no result of a host operation between the two calls holds at the second call's entry what it held at the
    first's. -/
private theorem W10_eq_W1 (c : Dev nD) (b : Ref sig .tc) (h0 : ∀ w, Pipeline.arrRef spec0 w ≠ b)
    (h1 : b ∉ res1) (h2 : b ∉ res1_1) (h3 : b ∉ res1_2) (h4 : b ∉ res1_3) (h5 : b ∉ res1_4) (h6 : b ∉ res1_5)
    (h7 : b ∉ res1_6) (h8 : b ∉ res1_7) :
    W10 m ρ c (Proc.devRef .tc b) = W1 m ρ c (Proc.devRef .tc b) :=
  calc W10 m ρ c (Proc.devRef .tc b)
    _ = W9 m ρ c (Proc.devRef .tc b) := keep1_7 _ b h8
    _ = W8 m ρ c (Proc.devRef .tc b) := keep1_6 _ b h7
    _ = W7 m ρ c (Proc.devRef .tc b) := keep1_5 _ b h6
    _ = W6 m ρ c (Proc.devRef .tc b) := keep1_4 _ b h5
    _ = W5 m ρ c (Proc.devRef .tc b) := keep1_3 _ b h4
    _ = W4 m ρ c (Proc.devRef .tc b) := keep1_2 _ b h3
    _ = W3 m ρ c (Proc.devRef .tc b) := keep1_1 _ b h2
    _ = W2 m ρ c (Proc.devRef .tc b) := keep1 _ b h1
    _ = W1 m ρ c (Proc.devRef .tc b) := W2_of_ne m ρ c b h0

/-! ## What the operations before the first call leave

The nine operations before the first call transpose each weight argument and change its float format (the identity
at the ideal values), and reshape each bias argument [n] to a row [1, n]. Each result buffer is read off the fold of
the operations over the launch memory. -/

private theorem W1_v1 (c : Dev nD) : (W1 m ρ c (Proc.devRef .tc main_v1) : S512x1024.Idx → EReal)
    = truncf .bf16 (transpose S512x1024 [1, 0] (a4 m c) transposes_S1024x512_S512x1024_1_0) bitsLt_bf16_f32 := by
  dsimp only [W1, W0, hostOps0]; after_results

private theorem W1_v3 (c : Dev nD) : (W1 m ρ c (Proc.devRef .tc main_v3) : S1024x4096.Idx → EReal)
    = truncf .bf16 (transpose S1024x4096 [1, 0] (a6 m c) transposes_S4096x1024_S1024x4096_1_0) bitsLt_bf16_f32 := by
  dsimp only [W1, W0, hostOps0]; after_results

private theorem W1_v5 (c : Dev nD) : (W1 m ρ c (Proc.devRef .tc main_v5) : S4096x51.Idx → EReal)
    = truncf .bf16 (transpose S4096x51 [1, 0] (a8 m c) transposes_S51x4096_S4096x51_1_0) bitsLt_bf16_f32 := by
  dsimp only [W1, W0, hostOps0]; after_results

private theorem W1_v6 (c : Dev nD) : (W1 m ρ c (Proc.devRef .tc main_v6) : S1x1024.Idx → EReal)
    = shapeCast S1x1024 (a5 m c) shapeCasts_S1024_S1x1024 := by
  dsimp only [W1, W0, hostOps0]; after_results; rfl

private theorem W1_v7 (c : Dev nD) : (W1 m ρ c (Proc.devRef .tc main_v7) : S1x4096.Idx → EReal)
    = shapeCast S1x4096 (a7 m c) shapeCasts_S4096_S1x4096 := by
  dsimp only [W1, W0, hostOps0]; after_results; rfl

private theorem W1_v8 (c : Dev nD) : (W1 m ρ c (Proc.devRef .tc main_v8) : S1x51.Idx → EReal)
    = shapeCast S1x51 (a9 m c) shapeCasts_S51_S1x51 := by
  dsimp only [W1, W0, hostOps0]; after_results; rfl

/-! ## The layout operations read at an index -/

/-- A transposed matrix with its float format changed reads, at the ideal values, the matrix at the swapped
    index. -/
private theorem transposed_apply {n0 n1 : Nat} (x : FVec Ideal ⟨2, ![n1, n0]⟩ .f32)
    (h : (⟨2, ![n1, n0]⟩ : Shape).Transposes [1, 0] ⟨2, ![n0, n1]⟩) (h' : FTy.bf16.bits < FTy.f32.bits)
    (k : Fin n0) (j : Fin n1) :
    (truncf .bf16 (transpose ⟨2, ![n0, n1]⟩ [1, 0] x h) h' : FVec Ideal ⟨2, ![n0, n1]⟩ .bf16) (ix2 k j) = x (ix2 j k) :=
  (truncf_apply _ h' (ix2 k j)).trans
    (transpose_apply [1, 0] x h (ix2 k j) (ix2 j k) (fun b => match b with
      | ⟨0, _⟩ => rfl
      | ⟨1, _⟩ => rfl))

/-- A vector reshaped to a one-row matrix reads, in its row, the vector at the column. -/
private theorem row_apply {n : Nat} (x : FVec Ideal ⟨1, ![n]⟩ .f32)
    (h : (⟨1, ![n]⟩ : Shape).ShapeCasts ⟨2, ![1, n]⟩) (j : Fin n) :
    shapeCast ⟨2, ![1, n]⟩ x h (ix2 (0 : Fin 1) j) = x (ix1 j) :=
  shapeCast_apply x h (ix2 (0 : Fin 1) j) (ix1 j) (by
    rw [Shape.rowMajor_val_two, Shape.rowMajor_val_one]; show j.val = 0 * n + j.val; omega)

/-! ## The arrays the two calls are entered with -/

/-- The first call's left operand is the argument x0. -/
theorem ctxIn_eq (c : Dev nD) : ctxIn m ρ c = a0 m c := by
  show W1 m ρ c (Proc.devRef .tc main_arg0) = m ((c : Thread nD τ).loc main_arg0)
  exact (keep0 _ main_arg0 (by decide)).trans rfl

/-- The first call's weight is the first weight argument transposed. -/
theorem w1In_apply (c : Dev nD) (k : Fin 512) (j : Fin 1024) : w1In m ρ c (ix2 k j) = a4 m c (ix2 j k) := by
  show W1 m ρ c (Proc.devRef .tc main_v1) (ix2 k j) = _
  rw [W1_v1 m ρ c]
  exact transposed_apply (a4 m c) _ _ k j

/-- The first call's bias row is the first bias argument. -/
theorem b1In_apply (c : Dev nD) (j : Fin 1024) : b1In m ρ c (ix2 (0 : Fin 1) j) = a5 m c (ix1 j) := by
  show W1 m ρ c (Proc.devRef .tc main_v6) (ix2 (0 : Fin 1) j) = _
  rw [W1_v6 m ρ c]
  exact row_apply (a5 m c) _ j

/-- The second call's first weight is the second weight argument transposed. -/
theorem w2In_apply (c : Dev nD) (q : Fin 1024) (p : Fin 4096) : w2In m ρ c (ix2 q p) = a6 m c (ix2 p q) := by
  have e : (W10 m ρ c (Proc.devRef .tc main_v3) : S1024x4096.Idx → EReal) = _ :=
    (W10_eq_W1 m ρ c main_v3 (by decide) (by decide) (by decide) (by decide) (by decide) (by decide) (by decide) (by decide) (by decide)).trans (W1_v3 m ρ c)
  show W10 m ρ c (Proc.devRef .tc main_v3) (ix2 q p) = _
  rw [e]
  exact transposed_apply (a6 m c) _ _ q p

/-- The second call's first bias row is the second bias argument. -/
theorem b2In_apply (c : Dev nD) (p : Fin 4096) : b2In m ρ c (ix2 (0 : Fin 1) p) = a7 m c (ix1 p) := by
  have e : (W10 m ρ c (Proc.devRef .tc main_v7) : S1x4096.Idx → EReal) = _ :=
    (W10_eq_W1 m ρ c main_v7 (by decide) (by decide) (by decide) (by decide) (by decide) (by decide) (by decide) (by decide) (by decide)).trans (W1_v7 m ρ c)
  show W10 m ρ c (Proc.devRef .tc main_v7) (ix2 (0 : Fin 1) p) = _
  rw [e]
  exact row_apply (a7 m c) _ p

/-- The second call's gate is the argument x1. -/
theorem gateIn_eq (c : Dev nD) : gateIn m ρ c = a1 m c := by
  show W10 m ρ c (Proc.devRef .tc main_arg1) = m ((c : Thread nD τ).loc main_arg1)
  exact (W10_eq_W1 m ρ c main_arg1 (by decide) (by decide) (by decide) (by decide) (by decide) (by decide) (by decide) (by decide) (by decide)).trans
    ((keep0 _ main_arg1 (by decide)).trans rfl)

/-- The second call's second weight is the third weight argument transposed. -/
theorem w3In_apply (c : Dev nD) (p : Fin 4096) (j : Fin 51) : w3In m ρ c (ix2 p j) = a8 m c (ix2 j p) := by
  have e : (W10 m ρ c (Proc.devRef .tc main_v5) : S4096x51.Idx → EReal) = _ :=
    (W10_eq_W1 m ρ c main_v5 (by decide) (by decide) (by decide) (by decide) (by decide) (by decide) (by decide) (by decide) (by decide)).trans (W1_v5 m ρ c)
  show W10 m ρ c (Proc.devRef .tc main_v5) (ix2 p j) = _
  rw [e]
  exact transposed_apply (a8 m c) _ _ p j

/-- The second call's second bias row is the third bias argument. -/
theorem b3In_apply (c : Dev nD) (j : Fin 51) : b3In m ρ c (ix2 (0 : Fin 1) j) = a9 m c (ix1 j) := by
  have e : (W10 m ρ c (Proc.devRef .tc main_v8) : S1x51.Idx → EReal) = _ :=
    (W10_eq_W1 m ρ c main_v8 (by decide) (by decide) (by decide) (by decide) (by decide) (by decide) (by decide) (by decide) (by decide)).trans (W1_v8 m ρ c)
  show W10 m ρ c (Proc.devRef .tc main_v8) (ix2 (0 : Fin 1) j) = _
  rw [e]
  exact row_apply (a9 m c) _ j

end Cert.KernelIdeal.RelValue

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.KPairs.lean ====
/-
  The pair features the second call is entered with: for relation r, columns 0 … 511 are the head object's row of
  the first call's output (columns 0 … 511), columns 512 … 1023 the tail object's row (columns 512 … 1023). The
  program takes each row with an index it first wraps (a negative index counts from the end) and then tests
  against the table's range, filling a row whose index fails the test with a fixed pattern; with every index in
  range the wrap does nothing, the test passes, and the take is the plain row.
-/
import proofs.«428228_j56667798503475_1_alg».proof.Proof.KArrays
import proofs.«428228_j56667798503475_1_alg».proof.Proof.LibRows
import Idealize.ShloMosaic.Lib.Pipeline.Value
import Idealize.ShloMosaic.Lib.StableHlo.Run
import Idealize.ShloMosaic.Lib.StableHlo.Predicate

set_option maxRecDepth 16384

noncomputable section

open scoped BigOperators

namespace Cert.KernelIdeal.RelValue

open Cert.KernelIdeal Cert.KernelIdeal.Gen Cert.RelSpec
open Idealize.ShloMosaic Idealize.ShloMosaic.TcCoe Idealize.ShloMosaic.ValueIdx Idealize.SL.Sem

/-! ## The take as one function of its table and its row numbers -/

/-- A list of row numbers with the negative ones counted from the end of a 16384-row table. -/
private def wrapIdx (idx : IVec S32768 32) : IVec S32768 32 :=
  select (cmpi .slt idx (broadcastInDim S32768 ![] bcast_S_S32768 (constantI S_ 32 0#32)))
    (addi idx (broadcastInDim S32768 ![] bcast_S_S32768 (constantI S_ 32 16384#32))) idx

/-- The wrapped row numbers as a column. -/
private def colIdx (idx : IVec S32768 32) : IVec S32768x1 32 :=
  broadcastInDim S32768x1 ![0] bcast_S32768_S32768x1_0 (wrapIdx idx)

/-- Per list position: is the wrapped row number inside the table, 0 ≤ · ≤ 16383? -/
private def inTable (idx : IVec S32768 32) : IVec S32768 1 :=
  Host.reduce IntOp.andi
    (andi (cmpi .sge (colIdx idx) (broadcastInDim S32768x1 ![] bcast_S_S32768x1 (constantI S_ 32 0#32)))
      (cmpi .sle (colIdx idx) (broadcastInDim S32768x1 ![0, 1] bcast_S1x1_S32768x1_0_1
        (broadcastInDim S1x1 ![1] bcast_S1_S1x1_1 (constantI S1 32 16383#32)))))
    (constantI S_ 1 1#1) reducesTo_S32768x1_S32768_d1 h_S_

/-- The take of rows of a [16384, 512] table at a list of 32768 row numbers: the gathered row where the wrapped
    number is inside the table, a fixed pattern elsewhere. -/
private def takeRows (x : FVec Ideal S16384x512 .f32) (idx : IVec S32768 32) : FVec Ideal S32768x512 .f32 :=
  select (broadcastInDim S32768x512 ![0] bcast_S32768_S32768x512_0 (inTable idx))
    (Host.gather gather_S16384x512_S32768x1_S32768x512_1_0_n_n_0_1_1512 x (colIdx idx))
    (broadcastInDim S32768x512 ![] bcast_S_S32768x512 (constant (F := Ideal) S_ .f32 0x7FC00000#32))

/-! The words: a row number in range is not negative, passes both tests. -/

private theorem cmpi_slt_zero (w : BitVec 32) (h0 : 0 ≤ w.toInt) : IntOp.cmpi .slt w 0#32 = 0#1 := by
  have h : w.slt 0#32 = false := by
    simp only [BitVec.slt, BitVec.toInt_zero, decide_eq_false_iff_not, not_lt]; exact h0
  show BitVec.ofBool (w.slt 0#32) = 0#1
  rw [h]; rfl

private theorem cmpi_sge_zero (w : BitVec 32) (h0 : 0 ≤ w.toInt) : IntOp.cmpi .sge w 0#32 = 1#1 := by
  have h : (0#32).sle w = true := by
    simp only [BitVec.sle, BitVec.toInt_zero, decide_eq_true_eq]; exact h0
  show BitVec.ofBool ((0#32).sle w) = 1#1
  rw [h]; rfl

private theorem cmpi_sle_last (w : BitVec 32) (h1 : w.toInt < 16384) : IntOp.cmpi .sle w 16383#32 = 1#1 := by
  have e : (16383#32).toInt = 16383 := by decide
  have h : w.sle 16383#32 = true := by
    simp only [BitVec.sle, e, decide_eq_true_eq]; omega
  show BitVec.ofBool (w.sle 16383#32) = 1#1
  rw [h]; rfl

/-- A left fold by and from 1 over 1s is 1. -/
private theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-! ## The take read at an index, every row number in range -/

/-- A row number in range is its own wrap. -/
private theorem wrapIdx_apply (idx : IVec S32768 32) (hidx : ∀ r : Fin 32768, 0 ≤ (idx (ix1 r)).toInt ∧ (idx (ix1 r)).toInt < 16384)
    (r : Fin 32768) : wrapIdx idx (ix1 r) = idx (ix1 r) := by
  show Scalar.select (IntOp.cmpi .slt (idx (ix1 r)) 0#32) (IntOp.addi (idx (ix1 r)) 16384#32) (idx (ix1 r)) = _
  rw [cmpi_slt_zero _ (hidx r).1, select_zero]

/-- The column of wrapped numbers at row r. -/
private theorem colIdx_apply (idx : IVec S32768 32) (hidx : ∀ r : Fin 32768, 0 ≤ (idx (ix1 r)).toInt ∧ (idx (ix1 r)).toInt < 16384)
    (r : Fin 32768) (z : Fin 1) : colIdx idx (ix2 r z) = idx (ix1 r) := by
  unfold colIdx
  rw [broadcastInDim_apply ![0] bcast_S32768_S32768x1_0 (wrapIdx idx) (ix2 r z) (ix1 r)
    (fun a => by match a with | ⟨0, _⟩ => rfl)]
  exact wrapIdx_apply idx hidx r

/-- Every list position passes the range test. -/
private theorem inTable_apply (idx : IVec S32768 32) (hidx : ∀ r : Fin 32768, 0 ≤ (idx (ix1 r)).toInt ∧ (idx (ix1 r)).toInt < 16384)
    (j : S32768.Idx) : inTable idx j = 1#1 := by
  unfold inTable
  rw [Host.reduce_eq_foldl]
  refine foldl_andi_ones _ _ fun i _ => ?_
  obtain ⟨p, z, rfl⟩ : ∃ (p : Fin 32768) (z : Fin 1), i = ix2 p z := ⟨i 0, i 1, eq_ix2 i⟩
  show IntOp.andi (IntOp.cmpi .sge (colIdx idx (ix2 p z)) 0#32) (IntOp.cmpi .sle (colIdx idx (ix2 p z)) 16383#32) = 1#1
  rw [colIdx_apply idx hidx p z, cmpi_sge_zero _ (hidx p).1, cmpi_sle_last _ (hidx p).2]
  rfl

/-- THE TAKE AT (r, q), every row number in range: the table's row the number names, column q. -/
private theorem takeRows_apply (idx : IVec S32768 32) (hidx : ∀ r : Fin 32768, 0 ≤ (idx (ix1 r)).toInt ∧ (idx (ix1 r)).toInt < 16384)
    (x : FVec Ideal S16384x512 .f32) (r : Fin 32768) (q : Fin 512) :
    takeRows x idx (ix2 r q) = x (ix2 (rowAt 16384 (by decide) (idx (ix1 r))) q) := by
  unfold takeRows
  rw [select_apply]
  have hm : broadcastInDim S32768x512 ![0] bcast_S32768_S32768x512_0 (inTable idx) (ix2 r q) = 1#1 := by
    unfold broadcastInDim
    exact inTable_apply idx hidx _
  rw [hm, select_one]
  have hg : gather_S16384x512_S32768x1_S32768x512_1_0_n_n_0_1_1512
      = rowGatherDims 16384 32768 512 gather_S16384x512_S32768x1_S32768x512_1_0_n_n_0_1_1512_wf := rfl
  rw [hg, rowGather_apply (by decide) _ x (colIdx idx) r q]
  refine congrArg (fun n : Fin 16384 => x (ix2 n q)) (Fin.ext ?_)
  show min (colIdx idx (ix2 r 0)).toInt.toNat (16384 - 1) = min (idx (ix1 r)).toInt.toNat (16384 - 1)
  rw [colIdx_apply idx hidx r 0]

/-! ## What each stretch of host operations between the two calls leaves -/

/-- A stretch of operations leaves a buffer as it was when none of its operations writes it: each operation writes one
    result buffer, and the buffer is none of them. -/
local macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

private theorem keep7_v19 (X : Valuation τ sig (Elt Ideal)) :
    StableHlo.after (hostOps1_7 (F := Ideal)) X (Proc.devRef .tc main_v19) = X (Proc.devRef .tc main_v19) := by
  not_written hostOps1_7
private theorem keep6_v19 (X : Valuation τ sig (Elt Ideal)) :
    StableHlo.after (hostOps1_6 (F := Ideal)) X (Proc.devRef .tc main_v19) = X (Proc.devRef .tc main_v19) := by
  not_written hostOps1_6
private theorem keep5_v19 (X : Valuation τ sig (Elt Ideal)) :
    StableHlo.after (hostOps1_5 (F := Ideal)) X (Proc.devRef .tc main_v19) = X (Proc.devRef .tc main_v19) := by
  not_written hostOps1_5
private theorem keep4_v19 (X : Valuation τ sig (Elt Ideal)) :
    StableHlo.after (hostOps1_4 (F := Ideal)) X (Proc.devRef .tc main_v19) = X (Proc.devRef .tc main_v19) := by
  not_written hostOps1_4
private theorem keep2_v16 (X : Valuation τ sig (Elt Ideal)) :
    StableHlo.after (hostOps1_2 (F := Ideal)) X (Proc.devRef .tc main_v16) = X (Proc.devRef .tc main_v16) := by
  not_written hostOps1_2
private theorem keep1_v11 (X : Valuation τ sig (Elt Ideal)) :
    StableHlo.after (hostOps1_1 (F := Ideal)) X (Proc.devRef .tc main_v11) = X (Proc.devRef .tc main_v11) := by
  not_written hostOps1_1
private theorem keep1_v15 (X : Valuation τ sig (Elt Ideal)) :
    StableHlo.after (hostOps1_1 (F := Ideal)) X (Proc.devRef .tc main_v15) = X (Proc.devRef .tc main_v15) := by
  not_written hostOps1_1
private theorem keep0_arg2 (X : Valuation τ sig (Elt Ideal)) :
    StableHlo.after (hostOps0 (F := Ideal)) X (Proc.devRef .tc main_arg2) = X (Proc.devRef .tc main_arg2) := by
  not_written hostOps0

set_option maxHeartbeats 1000000 in
/-- The stretch that takes the head rows leaves the take of its table at its row numbers. -/
private theorem after_take_head (X : Valuation τ sig (Elt Ideal)) :
    (StableHlo.after (hostOps1_1 (F := Ideal)) X (Proc.devRef .tc main_v16) : S32768x512.Idx → EReal)
      = takeRows (X (Proc.devRef .tc main_v10)) (X (Proc.devRef .tc main_v13)) := by
  dsimp only [hostOps1_1]
  after_results_simp
  simp only [StableHlo.TRef.toBuf, StableHlo.TRef.ofBuf, cast_eq]
  rfl

set_option maxHeartbeats 1000000 in
/-- The stretch that takes the tail rows leaves the take of its table at its row numbers. -/
private theorem after_take_tail (X : Valuation τ sig (Elt Ideal)) :
    (StableHlo.after (hostOps1_2 (F := Ideal)) X (Proc.devRef .tc main_v17) : S32768x512.Idx → EReal)
      = takeRows (X (Proc.devRef .tc main_v11)) (X (Proc.devRef .tc main_v15)) := by
  dsimp only [hostOps1_2]
  after_results_simp
  simp only [StableHlo.TRef.toBuf, StableHlo.TRef.ofBuf, cast_eq]
  rfl

/-- The last stretch before the second call: the two takes side by side, in the second call's float format. -/
private theorem after_concat (X : Valuation τ sig (Elt Ideal)) :
    (StableHlo.after (hostOps1_3 (F := Ideal)) X (Proc.devRef .tc main_v19) : S32768x1024.Idx → EReal)
      = (truncf (F := Ideal) .bf16 (concatenate S32768x1024 1 [⟨S32768x512, (X (Proc.devRef .tc main_v16) : S32768x512.Idx → EReal)⟩,
          ⟨S32768x512, (X (Proc.devRef .tc main_v17) : S32768x512.Idx → EReal)⟩] concatenates_S32768x512_S32768x512_S32768x1024_d1) bitsLt_bf16_f32 : S32768x1024.Idx → EReal) := by
  dsimp only [hostOps1_3]
  after_results

/-- The stretch after the first call: the two halves of its output's columns, and the two columns of the pair list
    as lists. -/
private theorem after_slices_head (X : Valuation τ sig (Elt Ideal)) :
    (StableHlo.after (hostOps1 (F := Ideal)) X (Proc.devRef .tc main_v10) : S16384x512.Idx → EReal)
      = extractStridedSlice S16384x512 ![0, 0] (X (Proc.devRef .tc main_v9) : S16384x1024.Idx → EReal) slices_S16384x1024_S16384x512_0_0 := by
  dsimp only [hostOps1]
  after_results
private theorem after_slices_tail (X : Valuation τ sig (Elt Ideal)) :
    (StableHlo.after (hostOps1 (F := Ideal)) X (Proc.devRef .tc main_v11) : S16384x512.Idx → EReal)
      = extractStridedSlice S16384x512 ![0, 512] (X (Proc.devRef .tc main_v9) : S16384x1024.Idx → EReal) slices_S16384x1024_S16384x512_0_512 := by
  dsimp only [hostOps1]
  after_results
private theorem after_heads (X : Valuation τ sig (Elt Ideal)) :
    (StableHlo.after (hostOps1 (F := Ideal)) X (Proc.devRef .tc main_v13) : IVec S32768 32)
      = shapeCast S32768 (extractStridedSlice S32768x1 ![0, 0] (X (Proc.devRef .tc main_arg2) : IVec S32768x2 32) slices_S32768x2_S32768x1_0_0)
          shapeCasts_S32768x1_S32768 := by
  dsimp only [hostOps1]
  after_results
  rfl
private theorem after_tails (X : Valuation τ sig (Elt Ideal)) :
    (StableHlo.after (hostOps1 (F := Ideal)) X (Proc.devRef .tc main_v15) : IVec S32768 32)
      = shapeCast S32768 (extractStridedSlice S32768x1 ![0, 1] (X (Proc.devRef .tc main_arg2) : IVec S32768x2 32) slices_S32768x2_S32768x1_0_1)
          shapeCasts_S32768x1_S32768 := by
  dsimp only [hostOps1]
  after_results
  rfl

/-! ## The slices read at an index -/

/-- Column s of the pair list as a list, at position r. -/
private theorem pairColumn_apply (x2 : IVec S32768x2 32) (s : Fin 2) (h : S32768x2.Slices ![0, s.val] S32768x1) (r : Fin 32768) :
    shapeCast S32768 (extractStridedSlice S32768x1 ![0, s.val] x2 h) shapeCasts_S32768x1_S32768 (ix1 r) = x2 (ix2 r s) := by
  rw [shapeCast_apply _ shapeCasts_S32768x1_S32768 (ix1 r) (ix2 r (0 : Fin 1)) (by
    rw [Shape.rowMajor_val_two, Shape.rowMajor_val_one]; show r.val * 1 + 0 = r.val; omega)]
  exact extractStridedSlice_apply ![0, s.val] x2 h (ix2 r (0 : Fin 1)) (ix2 r s) (fun a => by
    match a with
    | ⟨0, _⟩ => show r.val = 0 + r.val; omega
    | ⟨1, _⟩ => show s.val = s.val + 0; omega)

/-- The left half of the first call's output at (n, q). -/
private theorem leftHalf_apply (e : S16384x1024.Idx → EReal) (n : Fin 16384) (q : Fin 512) (q' : Fin 1024) (hq : q'.val = q.val) :
    extractStridedSlice S16384x512 ![0, 0] e slices_S16384x1024_S16384x512_0_0 (ix2 n q) = e (ix2 n q') :=
  extractStridedSlice_apply ![0, 0] e slices_S16384x1024_S16384x512_0_0 (ix2 n q) (ix2 n q') (fun a => by
    match a with
    | ⟨0, _⟩ => show n.val = 0 + n.val; omega
    | ⟨1, _⟩ => show q'.val = 0 + q.val; omega)

/-- The right half of the first call's output at (n, q). -/
private theorem rightHalf_apply (e : S16384x1024.Idx → EReal) (n : Fin 16384) (q : Fin 512) (q' : Fin 1024) (hq : q'.val = 512 + q.val) :
    extractStridedSlice S16384x512 ![0, 512] e slices_S16384x1024_S16384x512_0_512 (ix2 n q) = e (ix2 n q') :=
  extractStridedSlice_apply ![0, 512] e slices_S16384x1024_S16384x512_0_512 (ix2 n q) (ix2 n q') (fun a => by
    match a with
    | ⟨0, _⟩ => show n.val = 0 + n.val; omega
    | ⟨1, _⟩ => show q'.val = 512 + q.val; omega)

/-! ## The pair features at the second call's entry -/

variable (m : (ℓ : Loc nD τ sig) → Buf (Elt Ideal) ℓ) (ρ : Dev nD → PrngReg)

/-- The pair list at the first call's exit is the argument as launched. -/
private theorem W2_pairList (c : Dev nD) : (W2 m ρ c (Proc.devRef .tc main_arg2) : IVec S32768x2 32) = a2 m c :=
  (W2_of_ne m ρ c main_arg2 (by decide)).trans ((keep0_arg2 _).trans rfl)

/-- The head objects' numbers, as the stretch after the first call lists them. -/
private theorem heads_apply (c : Dev nD) (r : Fin 32768) :
    (W3 m ρ c (Proc.devRef .tc main_v13) : IVec S32768 32) (ix1 r) = a2 m c (ix2 r (0 : Fin 2)) := by
  have e : (W3 m ρ c (Proc.devRef .tc main_v13) : IVec S32768 32)
      = shapeCast S32768 (extractStridedSlice S32768x1 ![0, 0] (a2 m c) slices_S32768x2_S32768x1_0_0) shapeCasts_S32768x1_S32768 :=
    (after_heads (W2 m ρ c)).trans (by rw [W2_pairList m ρ c])
  rw [e]
  exact pairColumn_apply (a2 m c) 0 slices_S32768x2_S32768x1_0_0 r

/-- The tail objects' numbers, which the first take leaves in place. -/
private theorem tails_apply (c : Dev nD) (r : Fin 32768) :
    (W4 m ρ c (Proc.devRef .tc main_v15) : IVec S32768 32) (ix1 r) = a2 m c (ix2 r (1 : Fin 2)) := by
  have e : (W4 m ρ c (Proc.devRef .tc main_v15) : IVec S32768 32)
      = shapeCast S32768 (extractStridedSlice S32768x1 ![0, 1] (a2 m c) slices_S32768x2_S32768x1_0_1) shapeCasts_S32768x1_S32768 :=
    (keep1_v15 (W3 m ρ c)).trans ((after_tails (W2 m ρ c)).trans (by rw [W2_pairList m ρ c]))
  rw [e]
  exact pairColumn_apply (a2 m c) 1 slices_S32768x2_S32768x1_0_1 r

/-- Entry (r, q) of the pair-feature array at the second call's entry, in terms of the first call's output array. -/
theorem pairIn_apply (c : Dev nD) (hP : PairsInRange (a2 m c)) (r : Fin 32768) (q : Fin 1024) :
    pairIn m ρ c (ix2 r q)
      = if q.val < 512 then edgeOut m ρ c (ix2 (hrow (a2 m c) r) q) else edgeOut m ρ c (ix2 (trow (a2 m c) r) q) := by
  -- the array is the two takes side by side: nothing after the concatenation writes it
  have hcat : (W10 m ρ c (Proc.devRef .tc main_v19) : S32768x1024.Idx → EReal)
      = (truncf (F := Ideal) .bf16 (concatenate S32768x1024 1
          [⟨S32768x512, (W5 m ρ c (Proc.devRef .tc main_v16) : S32768x512.Idx → EReal)⟩,
           ⟨S32768x512, (W5 m ρ c (Proc.devRef .tc main_v17) : S32768x512.Idx → EReal)⟩]
          concatenates_S32768x512_S32768x512_S32768x1024_d1) bitsLt_bf16_f32 : S32768x1024.Idx → EReal) :=
    (keep7_v19 _).trans ((keep6_v19 _).trans ((keep5_v19 _).trans ((keep4_v19 _).trans (after_concat _))))
  -- each take, over the half of the first call's output it reads and the column of the pair list it follows
  have hhead : (W5 m ρ c (Proc.devRef .tc main_v16) : S32768x512.Idx → EReal)
      = takeRows (W3 m ρ c (Proc.devRef .tc main_v10)) (W3 m ρ c (Proc.devRef .tc main_v13)) :=
    (keep2_v16 _).trans (after_take_head _)
  have htail : (W5 m ρ c (Proc.devRef .tc main_v17) : S32768x512.Idx → EReal)
      = takeRows (W4 m ρ c (Proc.devRef .tc main_v11)) (W4 m ρ c (Proc.devRef .tc main_v15)) :=
    after_take_tail _
  have hleft : (W3 m ρ c (Proc.devRef .tc main_v10) : S16384x512.Idx → EReal)
      = extractStridedSlice S16384x512 ![0, 0] (edgeOut m ρ c) slices_S16384x1024_S16384x512_0_0 :=
    after_slices_head _
  have hright : (W4 m ρ c (Proc.devRef .tc main_v11) : S16384x512.Idx → EReal)
      = extractStridedSlice S16384x512 ![0, 512] (edgeOut m ρ c) slices_S16384x1024_S16384x512_0_512 :=
    (keep1_v11 _).trans (after_slices_tail _)
  show (W10 m ρ c (Proc.devRef .tc main_v19) : S32768x1024.Idx → EReal) (ix2 r q) = _
  rw [hcat, truncf_apply]
  by_cases hq : q.val < 512
  · rw [if_pos hq,
      concatenate_pair_apply_left (t := S32768x1024) (s₁ := S32768x512) (s₂ := S32768x512) (1 : Fin 2) _ _ concatenates_S32768x512_S32768x512_S32768x1024_d1 (ix2 r q) rfl
        (ix2 r (⟨q.val, hq⟩ : Fin 512)) (fun b => by match b with | ⟨0, _⟩ => rfl | ⟨1, _⟩ => rfl),
      hhead, takeRows_apply _ (fun r' => by rw [heads_apply m ρ c r']; exact hP r' 0) _ r ⟨q.val, hq⟩,
      hleft, leftHalf_apply _ _ _ q rfl, heads_apply m ρ c r]
    rfl
  · have hq' : q.val - 512 < 512 := by have := q.isLt; omega
    rw [if_neg hq,
      concatenate_pair_apply_right (t := S32768x1024) (s₁ := S32768x512) (s₂ := S32768x512) (1 : Fin 2) _ _ concatenates_S32768x512_S32768x512_S32768x1024_d1 (ix2 r q) rfl rfl
        (ix2 r (⟨q.val - 512, hq'⟩ : Fin 512))
        (fun b hb => by match b with | ⟨0, _⟩ => rfl | ⟨1, _⟩ => exact absurd rfl hb)
        (by show q.val - 512 + 512 = q.val; omega),
      htail, takeRows_apply _ (fun r' => by rw [tails_apply m ρ c r']; exact hP r' 1) _ r ⟨q.val - 512, hq'⟩,
      hright, rightHalf_apply _ _ _ q (by show q.val = 512 + (q.val - 512); omega), tails_apply m ρ c r]
    rfl

end Cert.KernelIdeal.RelValue

end
-- ==== Proof.KBias.lean ====
/-
  The bias rows the second call is entered with: for relation r, the row of the bias table at the head object's
  class and the tail object's class. The program looks the two classes up in the class list (an index wrapped and
  range-tested as for the pair features), forms the flat row number 151·(head class) + (tail class) of the table
  read as 22801 rows of 51, and takes that row (wrapped and range-tested again). With every pair index and every
  class in range all wraps do nothing and all tests pass; 151·a + b with 0 ≤ a, b < 151 is below 22801 and does
  not overflow, and row 151·a + b of the table read as 22801 rows is its row (a, b).
-/
import proofs.«428228_j56667798503475_1_alg».proof.Proof.KArrays
import proofs.«428228_j56667798503475_1_alg».proof.Proof.LibRows
import Idealize.ShloMosaic.Lib.Pipeline.Value
import Idealize.ShloMosaic.Lib.StableHlo.Run
import Idealize.ShloMosaic.Lib.StableHlo.Predicate

set_option maxRecDepth 16384

noncomputable section

open scoped BigOperators

namespace Cert.KernelIdeal.RelValue

open Cert.KernelIdeal Cert.KernelIdeal.Gen Cert.RelSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The program's takes, as functions of the arrays they read

A take of table entries at an index list wraps each index (a negative one has the table's length added), tests the
wrapped index against the table's range, reads the table at the wrapped index clamped into the range, and puts a
filler where the test fails. -/

/-- An index list wrapped as a take wraps it (a negative entry has the table's length added), as a column. -/
private def wrapCol (n : BitVec 32) (idx : IVec S32768 32) : IVec S32768x1 32 :=
  broadcastInDim S32768x1 ![0] bcast_S32768_S32768x1_0
    (select (cmpi .slt idx (broadcastInDim S32768 ![] bcast_S_S32768 (constantI S_ 32 0#32)))
      (addi idx (broadcastInDim S32768 ![] bcast_S_S32768 (constantI S_ 32 n))) idx)

/-- The range test of a take: entry by entry, whether the wrapped index lies in [0, hi]. -/
private def inTable (hi : BitVec 32) (col : IVec S32768x1 32) : IVec S32768 1 :=
  Host.reduce IntOp.andi
    (andi (cmpi .sge col (broadcastInDim S32768x1 ![] bcast_S_S32768x1 (constantI S_ 32 0#32)))
      (cmpi .sle col (broadcastInDim S32768x1 ![0, 1] bcast_S1x1_S32768x1_0_1
        (broadcastInDim S1x1 ![1] bcast_S1_S1x1_1 (constantI S1 32 hi)))))
    (constantI S_ 1 1#1) reducesTo_S32768x1_S32768_d1 h_S_

/-- The take of rows of the flattened bias table. -/
private def takeRows (x : FVec Ideal S22801x51 .f32) (idx : IVec S32768 32) : FVec Ideal S32768x51 .f32 :=
  select (broadcastInDim S32768x51 ![0] bcast_S32768_S32768x51_0 (inTable 22800#32 (wrapCol 22801#32 idx)))
    (Host.gather gather_S22801x51_S32768x1_S32768x51_1_0_n_n_0_1_151 x (wrapCol 22801#32 idx))
    (broadcastInDim S32768x51 ![] bcast_S_S32768x51 (constant (F := Ideal) S_ .f32 0x7FC00000#32))

/-- The take of entries of the class list. -/
private def takeCls (x : IVec S16384 32) (idx : IVec S32768 32) : IVec S32768 32 :=
  select (inTable 16383#32 (wrapCol 16384#32 idx))
    (Host.gather gather_S16384_S32768x1_S32768_n_0_n_n_0_1_1 x (wrapCol 16384#32 idx))
    (broadcastInDim S32768 ![] bcast_S_S32768 (constantI S_ 32 2147483648#32))

/-- The head column of the pair list, as a list. -/
private def pairCol0 (x2 : IVec S32768x2 32) : IVec S32768 32 :=
  shapeCast S32768 (extractStridedSlice S32768x1 ![0, 0] x2 slices_S32768x2_S32768x1_0_0) shapeCasts_S32768x1_S32768

/-- The tail column of the pair list, as a list. -/
private def pairCol1 (x2 : IVec S32768x2 32) : IVec S32768 32 :=
  shapeCast S32768 (extractStridedSlice S32768x1 ![0, 1] x2 slices_S32768x2_S32768x1_0_1) shapeCasts_S32768x1_S32768

/-- The flat row number 151 a + b of the bias table read as 22801 rows, in 32-bit words. -/
private def flatIdx (a b : IVec S32768 32) : IVec S32768 32 :=
  addi (muli a (broadcastInDim S32768 ![] bcast_S_S32768 (constantI S_ 32 151#32))) b

/-! ## Words in range -/

/-- A word whose signed value lies in [0, N), N at most 2³¹, has that value unsigned too. -/
private theorem word_range (w : BitVec 32) (N : ℕ) (hN : N ≤ 2 ^ 31) (h0 : 0 ≤ w.toInt) (h1 : w.toInt < N) :
    w.toNat < N ∧ w.toInt = (w.toNat : ℤ) := by
  have hc := BitVec.toInt_eq_toNat_cond w
  have hlt := w.isLt
  split_ifs at hc <;> omega

/-- A fold of the one-bit "and" from 1 over entries that are all 1 is 1. -/
private theorem foldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi 1#1 1#1 = (1#1 : BitVec 1) from by decide]
    exact ih

/-! ## The index preparation of a take, read at an entry -/

/-- A non-negative index is not wrapped. -/
private theorem wrapCol_apply (n : BitVec 32) (idx : IVec S32768 32) (r : Fin 32768) (h0 : 0 ≤ (idx (ix1 r)).toInt) :
    wrapCol n idx (ix2 r (0 : Fin 1)) = idx (ix1 r) := by
  unfold wrapCol
  rw [broadcastInDim_apply _ _ _ _ (ix1 r) (fun a => by match a with | ⟨0, _⟩ => rfl), select_apply]
  have hc : cmpi .slt idx (broadcastInDim S32768 ![] bcast_S_S32768 (constantI S_ 32 0#32)) (ix1 r) = 0#1 := by
    show BitVec.ofBool ((idx (ix1 r)).slt 0#32) = 0#1
    have hs : (idx (ix1 r)).slt 0#32 = false := by
      rw [BitVec.slt, decide_eq_false_iff_not]
      show ¬ (idx (ix1 r)).toInt < 0
      omega
    rw [hs]; rfl
  rw [hc, select_zero]

/-- Every entry of a column is (r, 0) for a row r. -/
private theorem col_idx (i : S32768x1.Idx) : ∃ r : Fin 32768, i = ix2 r (0 : Fin 1) := by
  refine ⟨i 0, ?_⟩
  funext d
  match d with
  | ⟨0, _⟩ => rfl
  | ⟨1, h⟩ => exact Fin.ext (Nat.lt_one_iff.mp (i ⟨1, h⟩).isLt)

/-- The range test passes everywhere when every entry of the column is a small word at most the bound. -/
private theorem inTable_apply (hi : BitVec 32) (hhi : hi.toNat < 2 ^ 31) (col : IVec S32768x1 32)
    (hcol : ∀ i, (col i).toNat ≤ hi.toNat) (j : S32768.Idx) : inTable hi col j = 1#1 := by
  unfold inTable
  rw [Host.reduce_eq_foldl]
  refine foldl_andi_one _ (fun i => ?_) _
  show IntOp.andi (IntOp.cmpi .sge (col i) 0#32) (IntOp.cmpi .sle (col i) hi) = 1#1
  have hc := hcol i
  rw [(StableHlo.Predicate.sge_iff_toNat (a := col i) (b := 0#32) (by omega) (by decide)).mpr (Nat.zero_le _),
    (StableHlo.Predicate.sle_iff_toNat (a := col i) (b := hi) (by omega) hhi).mpr hc]
  decide

/-! ## The takes read at an entry -/

private theorem ixP_eq (p : Fin 32768) : (StableHlo.Predicate.ixP p : S32768x1.Idx) = ix2 p (0 : Fin 1) := by
  funext d
  match d with
  | ⟨0, _⟩ => rfl
  | ⟨1, _⟩ => rfl

private theorem ofFin_eq {n : ℕ} (p : Fin n) : (Shape.Idx.ofFin p : (⟨1, ![n]⟩ : Shape).Idx) = ix1 p := by
  funext d
  match d with
  | ⟨0, _⟩ => rfl

/-- The take of class-list entries at indices that all lie in the list: entry r is the list at the index's row. -/
private theorem takeCls_apply (x : IVec S16384 32) (idx : IVec S32768 32)
    (hidx : ∀ r : Fin 32768, 0 ≤ (idx (ix1 r)).toInt ∧ (idx (ix1 r)).toInt < 16384) (r : Fin 32768) :
    takeCls x idx (ix1 r) = x (ix1 (rowAt 16384 (by decide) (idx (ix1 r)))) := by
  unfold takeCls
  have hin : inTable 16383#32 (wrapCol 16384#32 idx) (ix1 r) = 1#1 := by
    refine inTable_apply 16383#32 (by decide) _ (fun i => ?_) _
    obtain ⟨p, rfl⟩ := col_idx i
    rw [wrapCol_apply _ _ p (hidx p).1]
    have := (word_range _ 16384 (by norm_num) (hidx p).1 (hidx p).2).1
    show (idx (ix1 p)).toNat ≤ 16383
    omega
  rw [select_apply, hin, select_one]
  have hg := StableHlo.Predicate.gather_take gather_S16384_S32768x1_S32768_n_0_n_n_0_1_1 rfl rfl rfl rfl x
    (wrapCol 16384#32 idx) r (by decide)
  rw [ofFin_eq] at hg
  rw [hg, ofFin_eq]
  refine congrArg x (congrArg ix1 (Fin.ext ?_))
  show min ((wrapCol 16384#32 idx) (StableHlo.Predicate.ixP r)).toInt.toNat (16384 - 1) = min (idx (ix1 r)).toInt.toNat (16384 - 1)
  rw [ixP_eq, wrapCol_apply _ _ r (hidx r).1]

/-- The take of table rows at row numbers that all lie in the table: entry (r, j) is the table at the row number's
    row, column j. -/
private theorem takeRows_apply (x : FVec Ideal S22801x51 .f32) (idx : IVec S32768 32)
    (hidx : ∀ r : Fin 32768, 0 ≤ (idx (ix1 r)).toInt ∧ (idx (ix1 r)).toInt < 22801) (r : Fin 32768) (j : Fin 51) :
    takeRows x idx (ix2 r j) = x (ix2 (rowAt 22801 (by decide) (idx (ix1 r))) j) := by
  unfold takeRows
  have hin : inTable 22800#32 (wrapCol 22801#32 idx) (ix1 r) = 1#1 := by
    refine inTable_apply 22800#32 (by decide) _ (fun i => ?_) _
    obtain ⟨p, rfl⟩ := col_idx i
    rw [wrapCol_apply _ _ p (hidx p).1]
    have := (word_range _ 22801 (by norm_num) (hidx p).1 (hidx p).2).1
    show (idx (ix1 p)).toNat ≤ 22800
    omega
  rw [select_apply, broadcastInDim_apply _ _ _ _ (ix1 r) (fun a => by match a with | ⟨0, _⟩ => rfl), hin, select_one]
  have hd : gather_S22801x51_S32768x1_S32768x51_1_0_n_n_0_1_151
      = rowGatherDims 22801 32768 51 gather_S22801x51_S32768x1_S32768x51_1_0_n_n_0_1_151_wf := rfl
  rw [hd, rowGather_apply (by decide) _ x (wrapCol 22801#32 idx) r j]
  refine congrArg x (congrArg (fun a => ix2 a j) (Fin.ext ?_))
  show min ((wrapCol 22801#32 idx) (ix2 r (0 : Fin 1))).toInt.toNat (22801 - 1) = min (idx (ix1 r)).toInt.toNat (22801 - 1)
  rw [wrapCol_apply _ _ r (hidx r).1]

/-! ## The columns of the pair list, the flat row number and the flattened table, read at an entry -/

private theorem pairCol0_apply (x2 : IVec S32768x2 32) (r : Fin 32768) : pairCol0 x2 (ix1 r) = x2 (ix2 r (0 : Fin 2)) := by
  unfold pairCol0
  rw [shapeCast_apply _ _ (ix1 r) (ix2 r (0 : Fin 1)) (by
    rw [Shape.rowMajor_val_two, Shape.rowMajor_val_one]; show r.val * 1 + 0 = r.val; omega)]
  unfold extractStridedSlice
  refine congrArg x2 (funext fun a => Fin.ext ?_)
  match a with
  | ⟨0, _⟩ => show 0 + r.val = r.val; omega
  | ⟨1, _⟩ => rfl

private theorem pairCol1_apply (x2 : IVec S32768x2 32) (r : Fin 32768) : pairCol1 x2 (ix1 r) = x2 (ix2 r (1 : Fin 2)) := by
  unfold pairCol1
  rw [shapeCast_apply _ _ (ix1 r) (ix2 r (0 : Fin 1)) (by
    rw [Shape.rowMajor_val_two, Shape.rowMajor_val_one]; show r.val * 1 + 0 = r.val; omega)]
  unfold extractStridedSlice
  refine congrArg x2 (funext fun a => Fin.ext ?_)
  match a with
  | ⟨0, _⟩ => show 0 + r.val = r.val; omega
  | ⟨1, _⟩ => rfl

private theorem flatIdx_apply (a b : IVec S32768 32) (r : Fin 32768) :
    flatIdx a b (ix1 r) = a (ix1 r) * 151#32 + b (ix1 r) := rfl

/-- For two words below 151 the flat row number 151 a + b is computed without overflow. -/
private theorem flat_toNat (ca cb : BitVec 32) (ha : ca.toNat < 151) (hb : cb.toNat < 151) :
    (ca * 151#32 + cb).toNat = ca.toNat * 151 + cb.toNat := by
  have h151 : (151#32 : BitVec 32).toNat = 151 := rfl
  rw [BitVec.toNat_add, BitVec.toNat_mul, h151]
  omega

/-- Row 151 a + b of the table read as 22801 rows of 51 is its row (a, b). -/
private theorem flatTable_apply (x10 : FVec Ideal S151x151x51 .f32) (a b : Fin 151) (j : Fin 51) (n : Fin 22801)
    (hn : n.val = a.val * 151 + b.val) :
    shapeCast S22801x51 x10 shapeCasts_S151x151x51_S22801x51 (ix2 n j) = x10 (ix3 a b j) :=
  shapeCast_apply x10 _ (ix2 n j) (ix3 a b j) (by
    rw [Shape.rowMajor_val_three, Shape.rowMajor_val_two]
    show (a.val * 151 + b.val) * 51 + j.val = n.val * 51 + j.val
    rw [hn])

/-! ## The looked-up bias as a function of the arguments -/

/-- With every pair index and every class in range, the composite of the takes at (r, j) is the table at the head's
    class, the tail's class and j. -/
private theorem bias_pure (x2 : IVec S32768x2 32) (x3 : IVec S16384 32) (x10 : FVec Ideal S151x151x51 .f32)
    (hP : PairsInRange x2) (hC : ClassesInRange x3) (r : Fin 32768) (j : Fin 51) :
    takeRows (shapeCast S22801x51 x10 shapeCasts_S151x151x51_S22801x51)
      (flatIdx (takeCls x3 (pairCol0 x2)) (takeCls x3 (pairCol1 x2))) (ix2 r j) = bias x2 x3 x10 r j := by
  have h0 : ∀ p : Fin 32768, 0 ≤ (pairCol0 x2 (ix1 p)).toInt ∧ (pairCol0 x2 (ix1 p)).toInt < 16384 := fun p => by
    rw [pairCol0_apply]; exact hP p 0
  have h1 : ∀ p : Fin 32768, 0 ≤ (pairCol1 x2 (ix1 p)).toInt ∧ (pairCol1 x2 (ix1 p)).toInt < 16384 := fun p => by
    rw [pairCol1_apply]; exact hP p 1
  have hA : ∀ p : Fin 32768, takeCls x3 (pairCol0 x2) (ix1 p) = x3 (ix1 (hrow x2 p)) := fun p => by
    rw [takeCls_apply x3 _ h0 p, pairCol0_apply]; rfl
  have hB : ∀ p : Fin 32768, takeCls x3 (pairCol1 x2) (ix1 p) = x3 (ix1 (trow x2 p)) := fun p => by
    rw [takeCls_apply x3 _ h1 p, pairCol1_apply]; rfl
  -- the class of an object as the value of its class word
  have hcls : ∀ n : Fin 16384, (x3 (ix1 n)).toNat < 151 ∧ (cls x3 n).val = (x3 (ix1 n)).toNat := fun n => by
    obtain ⟨hlt, he⟩ := word_range _ 151 (by norm_num) (hC n).1 (hC n).2
    refine ⟨hlt, ?_⟩
    show (rowAt 151 (by decide) (x3 (ix1 n))).val = _
    rw [rowAt_val]; omega
  -- the flat row number
  have hflat : ∀ p : Fin 32768,
      (flatIdx (takeCls x3 (pairCol0 x2)) (takeCls x3 (pairCol1 x2)) (ix1 p)).toNat
        = (cls x3 (hrow x2 p)).val * 151 + (cls x3 (trow x2 p)).val := fun p => by
    rw [flatIdx_apply, hA p, hB p, flat_toNat _ _ (hcls (hrow x2 p)).1 (hcls (trow x2 p)).1,
      (hcls (hrow x2 p)).2, (hcls (trow x2 p)).2]
  have hint : ∀ p : Fin 32768,
      (flatIdx (takeCls x3 (pairCol0 x2)) (takeCls x3 (pairCol1 x2)) (ix1 p)).toInt
        = ((cls x3 (hrow x2 p)).val * 151 + (cls x3 (trow x2 p)).val : ℕ) := fun p => by
    have ha := (cls x3 (hrow x2 p)).isLt
    have hb := (cls x3 (trow x2 p)).isLt
    rw [StableHlo.Predicate.toInt_eq_toNat_of_lt (by rw [hflat p]; omega), hflat p]
  have hidx : ∀ p : Fin 32768,
      0 ≤ (flatIdx (takeCls x3 (pairCol0 x2)) (takeCls x3 (pairCol1 x2)) (ix1 p)).toInt
        ∧ (flatIdx (takeCls x3 (pairCol0 x2)) (takeCls x3 (pairCol1 x2)) (ix1 p)).toInt < 22801 := fun p => by
    have ha := (cls x3 (hrow x2 p)).isLt
    have hb := (cls x3 (trow x2 p)).isLt
    rw [hint p]; omega
  rw [takeRows_apply _ _ hidx r j]
  refine flatTable_apply x10 (cls x3 (hrow x2 r)) (cls x3 (trow x2 r)) j _ ?_
  have ha := (cls x3 (hrow x2 r)).isLt
  have hb := (cls x3 (trow x2 r)).isLt
  rw [rowAt_val, hint r]
  omega

/-! ## The host operations between the launch and the second call

The program's host operations come in stretches; each operation writes one result buffer. For the stretches a
buffer has to be carried across here, the result buffers are listed: a buffer outside a stretch's list holds after
the stretch what it held before it. -/

/-- The result buffers of the operations of one stretch, in order. -/
private abbrev res0 : List (Ref sig .tc) :=
  [main_v0, main_v1, main_v2, main_v3, main_v4, main_v5, main_v6, main_v7, main_v8]

/-- The result buffers of the operations of one stretch, in order. -/
private abbrev res1 : List (Ref sig .tc) :=
  [main_v10, main_v11, main_v12, main_v13, main_v14, main_v15]

/-- The result buffers of the operations of one stretch, in order. -/
private abbrev res1_1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v16]

/-- The result buffers of the operations of one stretch, in order. -/
private abbrev res1_2 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v17]

/-- The result buffers of the operations of one stretch, in order. -/
private abbrev res1_3 : List (Ref sig .tc) :=
  [main_v18, main_v19]

/-- The result buffers of the operations of one stretch, in order. -/
private abbrev res1_4 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_c_4, main_call2_v14,
   main_v20]

/-- The result buffers of the operations of one stretch, in order. -/
private abbrev res1_5 : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_c_4, main_call3_v14,
   main_v21]

/-- No operation of the stretch writes a buffer that differs from every result buffer of the stretch, so the buffer
    holds after the stretch what it held before. -/
local macro "not_written" ops:ident hb:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (fun e => $hb (by rw [e]; decide))))

private theorem keep0 (V : Valuation τ sig (Elt Ideal)) (b : Ref sig .tc) (hb : b ∉ res0) :
    StableHlo.after (hostOps0 (F := Ideal)) V (Proc.devRef .tc b) = V (Proc.devRef .tc b) := by
  not_written hostOps0 hb

private theorem keep1 (V : Valuation τ sig (Elt Ideal)) (b : Ref sig .tc) (hb : b ∉ res1) :
    StableHlo.after (hostOps1 (F := Ideal)) V (Proc.devRef .tc b) = V (Proc.devRef .tc b) := by
  not_written hostOps1 hb

private theorem keep1_1 (V : Valuation τ sig (Elt Ideal)) (b : Ref sig .tc) (hb : b ∉ res1_1) :
    StableHlo.after (hostOps1_1 (F := Ideal)) V (Proc.devRef .tc b) = V (Proc.devRef .tc b) := by
  not_written hostOps1_1 hb

private theorem keep1_2 (V : Valuation τ sig (Elt Ideal)) (b : Ref sig .tc) (hb : b ∉ res1_2) :
    StableHlo.after (hostOps1_2 (F := Ideal)) V (Proc.devRef .tc b) = V (Proc.devRef .tc b) := by
  not_written hostOps1_2 hb

private theorem keep1_3 (V : Valuation τ sig (Elt Ideal)) (b : Ref sig .tc) (hb : b ∉ res1_3) :
    StableHlo.after (hostOps1_3 (F := Ideal)) V (Proc.devRef .tc b) = V (Proc.devRef .tc b) := by
  not_written hostOps1_3 hb

private theorem keep1_4 (V : Valuation τ sig (Elt Ideal)) (b : Ref sig .tc) (hb : b ∉ res1_4) :
    StableHlo.after (hostOps1_4 (F := Ideal)) V (Proc.devRef .tc b) = V (Proc.devRef .tc b) := by
  not_written hostOps1_4 hb

private theorem keep1_5 (V : Valuation τ sig (Elt Ideal)) (b : Ref sig .tc) (hb : b ∉ res1_5) :
    StableHlo.after (hostOps1_5 (F := Ideal)) V (Proc.devRef .tc b) = V (Proc.devRef .tc b) := by
  not_written hostOps1_5 hb

/-! ## What each stretch computes, as a function of the buffers it reads -/

private theorem after1_v13 (V : Valuation τ sig (Elt Ideal)) :
    (StableHlo.after (hostOps1 (F := Ideal)) V (Proc.devRef .tc main_v13) : S32768.Idx → BitVec 32)
      = pairCol0 (V (Proc.devRef .tc main_arg2)) := by
  dsimp only [hostOps1]; after_results; rfl

private theorem after1_v15 (V : Valuation τ sig (Elt Ideal)) :
    (StableHlo.after (hostOps1 (F := Ideal)) V (Proc.devRef .tc main_v15) : S32768.Idx → BitVec 32)
      = pairCol1 (V (Proc.devRef .tc main_arg2)) := by
  dsimp only [hostOps1]; after_results; rfl

private theorem after4_v20 (V : Valuation τ sig (Elt Ideal)) :
    (StableHlo.after (hostOps1_4 (F := Ideal)) V (Proc.devRef .tc main_v20) : S32768.Idx → BitVec 32)
      = takeCls (V (Proc.devRef .tc main_arg3)) (V (Proc.devRef .tc main_v13)) := by
  dsimp only [hostOps1_4]
  after_results_simp
  simp only [StableHlo.TRef.ofBuf, StableHlo.TRef.toBuf, cast_eq]
  rfl

private theorem after5_v21 (V : Valuation τ sig (Elt Ideal)) :
    (StableHlo.after (hostOps1_5 (F := Ideal)) V (Proc.devRef .tc main_v21) : S32768.Idx → BitVec 32)
      = takeCls (V (Proc.devRef .tc main_arg3)) (V (Proc.devRef .tc main_v15)) := by
  dsimp only [hostOps1_5]
  after_results_simp
  simp only [StableHlo.TRef.ofBuf, StableHlo.TRef.toBuf, cast_eq]
  rfl

private theorem after6_v22 (V : Valuation τ sig (Elt Ideal)) :
    (StableHlo.after (hostOps1_6 (F := Ideal)) V (Proc.devRef .tc main_v22) : S22801x51.Idx → EReal)
      = shapeCast S22801x51 (V (Proc.devRef .tc main_arg10) : S151x151x51.Idx → EReal) shapeCasts_S151x151x51_S22801x51 := by
  dsimp only [hostOps1_6]; after_results; rfl

private theorem after6_v25 (V : Valuation τ sig (Elt Ideal)) :
    (StableHlo.after (hostOps1_6 (F := Ideal)) V (Proc.devRef .tc main_v25) : S32768.Idx → BitVec 32)
      = flatIdx (V (Proc.devRef .tc main_v20)) (V (Proc.devRef .tc main_v21)) := by
  dsimp only [hostOps1_6]; after_results; rfl

private theorem after7_v26 (V : Valuation τ sig (Elt Ideal)) :
    (StableHlo.after (hostOps1_7 (F := Ideal)) V (Proc.devRef .tc main_v26) : S32768x51.Idx → EReal)
      = takeRows (V (Proc.devRef .tc main_v22)) (V (Proc.devRef .tc main_v25)) := by
  dsimp only [hostOps1_7]
  after_results_simp
  simp only [StableHlo.TRef.ofBuf, StableHlo.TRef.toBuf, cast_eq]
  rfl

/-! ## The looked-up bias array at the second call's entry -/

/-- A buffer that is no array of the first call and no result of a host operation up to the class takes holds,
    after the first call and after each of the later stretches, what it held at launch. -/
private theorem arg_levels (c : Dev nD) (b : Ref sig .tc) (h0 : b ∉ res0) (hs : ∀ w, Pipeline.arrRef spec0 w ≠ b)
    (h1 : b ∉ res1) (h2 : b ∉ res1_1) (h3 : b ∉ res1_2) (h4 : b ∉ res1_3) (h5 : b ∉ res1_4) (h6 : b ∉ res1_5) :
    W2 m ρ c (Proc.devRef .tc b) = W0 m ρ c (Proc.devRef .tc b)
      ∧ W6 m ρ c (Proc.devRef .tc b) = W0 m ρ c (Proc.devRef .tc b)
      ∧ W7 m ρ c (Proc.devRef .tc b) = W0 m ρ c (Proc.devRef .tc b)
      ∧ W8 m ρ c (Proc.devRef .tc b) = W0 m ρ c (Proc.devRef .tc b) := by
  have e2 : W2 m ρ c (Proc.devRef .tc b) = W0 m ρ c (Proc.devRef .tc b) := (W2_of_ne m ρ c b hs).trans (keep0 _ b h0)
  have e3 : W3 m ρ c (Proc.devRef .tc b) = W0 m ρ c (Proc.devRef .tc b) := (keep1 _ b h1).trans e2
  have e4 : W4 m ρ c (Proc.devRef .tc b) = W0 m ρ c (Proc.devRef .tc b) := (keep1_1 _ b h2).trans e3
  have e5 : W5 m ρ c (Proc.devRef .tc b) = W0 m ρ c (Proc.devRef .tc b) := (keep1_2 _ b h3).trans e4
  have e6 : W6 m ρ c (Proc.devRef .tc b) = W0 m ρ c (Proc.devRef .tc b) := (keep1_3 _ b h4).trans e5
  have e7 : W7 m ρ c (Proc.devRef .tc b) = W0 m ρ c (Proc.devRef .tc b) := (keep1_4 _ b h5).trans e6
  have e8 : W8 m ρ c (Proc.devRef .tc b) = W0 m ρ c (Proc.devRef .tc b) := (keep1_5 _ b h6).trans e7
  exact ⟨e2, e6, e7, e8⟩

/-- The looked-up bias array at the second call's entry, as the composite of the takes over the arguments. -/
private theorem biasArr_eq (c : Dev nD) :
    (W10 m ρ c (Proc.devRef .tc main_v26) : S32768x51.Idx → EReal)
      = takeRows (shapeCast S22801x51 (a10 m c) shapeCasts_S151x151x51_S22801x51)
          (flatIdx (takeCls (a3 m c) (pairCol0 (a2 m c))) (takeCls (a3 m c) (pairCol1 (a2 m c)))) := by
  obtain ⟨x2_2, -, -, -⟩ := arg_levels m ρ c main_arg2 (by decide) (by decide) (by decide) (by decide) (by decide)
    (by decide) (by decide) (by decide)
  obtain ⟨-, x3_6, x3_7, -⟩ := arg_levels m ρ c main_arg3 (by decide) (by decide) (by decide) (by decide) (by decide)
    (by decide) (by decide) (by decide)
  obtain ⟨-, -, -, x10_8⟩ := arg_levels m ρ c main_arg10 (by decide) (by decide) (by decide) (by decide) (by decide)
    (by decide) (by decide) (by decide)
  have v13 : W6 m ρ c (Proc.devRef .tc main_v13) = W3 m ρ c (Proc.devRef .tc main_v13) :=
    (keep1_3 _ main_v13 (by decide)).trans ((keep1_2 _ main_v13 (by decide)).trans (keep1_1 _ main_v13 (by decide)))
  have v15 : W7 m ρ c (Proc.devRef .tc main_v15) = W3 m ρ c (Proc.devRef .tc main_v15) :=
    (keep1_4 _ main_v15 (by decide)).trans
      ((keep1_3 _ main_v15 (by decide)).trans ((keep1_2 _ main_v15 (by decide)).trans (keep1_1 _ main_v15 (by decide))))
  have v20 : W8 m ρ c (Proc.devRef .tc main_v20) = W7 m ρ c (Proc.devRef .tc main_v20) := keep1_5 _ main_v20 (by decide)
  have e26 : (W10 m ρ c (Proc.devRef .tc main_v26) : S32768x51.Idx → EReal) = _ := after7_v26 (W9 m ρ c)
  have e22 : (W9 m ρ c (Proc.devRef .tc main_v22) : S22801x51.Idx → EReal) = _ := after6_v22 (W8 m ρ c)
  have e25 : (W9 m ρ c (Proc.devRef .tc main_v25) : S32768.Idx → BitVec 32) = _ := after6_v25 (W8 m ρ c)
  have e21 : (W8 m ρ c (Proc.devRef .tc main_v21) : S32768.Idx → BitVec 32) = _ := after5_v21 (W7 m ρ c)
  have e20 : (W7 m ρ c (Proc.devRef .tc main_v20) : S32768.Idx → BitVec 32) = _ := after4_v20 (W6 m ρ c)
  have e13 : (W3 m ρ c (Proc.devRef .tc main_v13) : S32768.Idx → BitVec 32) = _ := after1_v13 (W2 m ρ c)
  have e15 : (W3 m ρ c (Proc.devRef .tc main_v15) : S32768.Idx → BitVec 32) = _ := after1_v15 (W2 m ρ c)
  rw [e26, e22, e25, v20, e20, e21, v13, v15, e13, e15, x3_6, x3_7, x2_2, x10_8]

/-- Entry (r, j) of the looked-up bias array at the second call's entry. -/
theorem biasIn_apply (c : Dev nD) (hP : PairsInRange (a2 m c)) (hC : ClassesInRange (a3 m c)) (r : Fin 32768) (j : Fin 51) :
    biasIn m ρ c (ix2 r j) = bias (a2 m c) (a3 m c) (a10 m c) r j := by
  show W10 m ρ c (Proc.devRef .tc main_v26) (ix2 r j) = _
  rw [biasArr_eq m ρ c]
  exact bias_pure (a2 m c) (a3 m c) (a10 m c) hP hC r j

end Cert.KernelIdeal.RelValue

end
-- ==== Proof.KValue.lean ====
/-
  The kernel's program computes the specification. The second call's output, entry (r, j), is a sum over the 4096
  gated features of relation r against row j of the third weight, plus that bias, plus the looked-up bias row; the
  gated feature p is a sum over the 1024 pair features against row p of the second weight, plus that bias, times
  the visual feature; the pair features are rows of the first call's output, which is the edge representation.
  Each layer is rewritten by its lemma; nothing is rearranged, so no law of the extended reals beyond equality of
  the summands is used.
-/
import proofs.«428228_j56667798503475_1_alg».proof.Proof.KRun
import proofs.«428228_j56667798503475_1_alg».proof.Proof.KRegion0
import proofs.«428228_j56667798503475_1_alg».proof.Proof.KRegion1
import proofs.«428228_j56667798503475_1_alg».proof.Proof.KHostA
import proofs.«428228_j56667798503475_1_alg».proof.Proof.KPairs
import proofs.«428228_j56667798503475_1_alg».proof.Proof.KBias

set_option maxRecDepth 16384

noncomputable section

open scoped BigOperators

namespace Cert.KernelIdeal.RelValue

open Cert.KernelIdeal Cert.KernelIdeal.Gen Cert.RelSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first call's output is the edge representation of the arguments. -/
theorem edgeOut_apply (c : Dev nD) (n : Fin 16384) (j : Fin 1024) :
    edgeOut m ρ c (ix2 n j) = edge (a0 m c) (a4 m c) (a5 m c) n j := by
  rw [region0_apply m ρ c n j, b1In_apply m ρ c j, ctxIn_eq m ρ c]
  unfold edge
  refine congrArg₂ (· + ·) ?_ rfl
  exact Finset.sum_congr rfl fun k _ => by rw [w1In_apply m ρ c k j]

/-- The pair features the second call is entered with are the specification's. -/
theorem pairIn_eq_pairs (c : Dev nD) (hP : PairsInRange (a2 m c)) (r : Fin 32768) (q : Fin 1024) :
    pairIn m ρ c (ix2 r q) = pairs (a0 m c) (a2 m c) (a4 m c) (a5 m c) r q := by
  rw [pairIn_apply m ρ c hP r q]
  unfold pairs
  by_cases hq : q.val < 512
  · rw [if_pos hq, if_pos hq]; exact edgeOut_apply m ρ c _ q
  · rw [if_neg hq, if_neg hq]; exact edgeOut_apply m ρ c _ q

/-- The second call's output is the specification, entry by entry. -/
theorem relOut_apply (c : Dev nD) (hP : PairsInRange (a2 m c)) (hC : ClassesInRange (a3 m c)) (r : Fin 32768) (j : Fin 51) :
    relOut m ρ c (ix2 r j)
      = relDists (a0 m c) (a1 m c) (a2 m c) (a3 m c) (a4 m c) (a5 m c) (a6 m c) (a7 m c) (a8 m c) (a9 m c) (a10 m c) r j := by
  rw [region1_apply m ρ c r j, biasIn_apply m ρ c hP hC r j, b3In_apply m ρ c j, gateIn_eq m ρ c]
  unfold relDists
  refine congrArg₂ (· + ·) (congrArg₂ (· + ·) ?_ rfl) rfl
  refine Finset.sum_congr rfl fun p _ => ?_
  rw [w3In_apply m ρ c p j, b2In_apply m ρ c p]
  unfold gated
  refine congrArg₂ (· * ·) (congrArg₂ (· * ·) (congrArg₂ (· + ·) ?_ rfl) rfl) rfl
  exact Finset.sum_congr rfl fun q _ => by rw [pairIn_eq_pairs m ρ c hP r q, w2In_apply m ρ c q p]

/-- The second call's output array is the specification's array. -/
theorem relOut_eq_relArr (c : Dev nD) (hP : PairsInRange (a2 m c)) (hC : ClassesInRange (a3 m c)) :
    relOut m ρ c = relArr (a0 m c) (a1 m c) (a2 m c) (a3 m c) (a4 m c) (a5 m c) (a6 m c) (a7 m c) (a8 m c) (a9 m c) (a10 m c) := by
  funext i
  obtain ⟨r, j, rfl⟩ : ∃ (r : Fin 32768) (j : Fin 51), i = ix2 r j := ⟨i 0, i 1, eq_ix2 i⟩
  rw [relOut_apply m ρ c hP hC r j, relArr_apply]

/-- THE RUN WITH ITS VALUE: every weakly fair execution terminates without a fault, the result buffer holding the
    specification's array of the arguments and the arguments as launched, when on every device the pair indices
    and the classes are in range. -/
theorem run (h : ∀ c : Dev nD, PairsInRange (a2 m c) ∧ ClassesInRange (a3 m c)) :
    θ_run defs (onTc (τ := τ) (main (F := Ideal))) ⟨m, fun _ => 0, ρ⟩ (fun r => ∀ c : Dev nD,
      r.2.mem ((c.tc : Thread nD τ).loc main_v27)
        = relArr (a0 m c) (a1 m c) (a2 m c) (a3 m c) (a4 m c) (a5 m c) (a6 m c) (a7 m c) (a8 m c) (a9 m c) (a10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ hr c => ⟨(hr c).1.trans (relOut_eq_relArr m ρ c (h c).1 (h c).2), (hr c).2⟩) (run_v27 m ρ)

end Cert.KernelIdeal.RelValue

end
-- ==== Proof.RFeat.lean ====
/-
  The reference's scores before the bias, entry by entry: its three matrix products read as sums, its edge
  representation cut into head and tail halves by a reshape to [16384, 2, 512], the two row takes by the pair
  indices (wrapped, which does nothing for an index in range; the take itself clamps, which does nothing either),
  and their concatenation. At the ideal values this is the specification's Σ_p gated r p · x8[j,p] + x9[j].
-/
import proofs.«428228_j56667798503475_1_alg».proof.Proof.Gen.ReferenceIdeal.Read
import proofs.«428228_j56667798503475_1_alg».proof.Proof.Spec
import proofs.«428228_j56667798503475_1_alg».proof.Proof.LibRows
import Idealize.ShloMosaic.Lib.StableHlo.Predicate

set_option maxRecDepth 16384

noncomputable section

open scoped BigOperators

namespace Cert.ReferenceIdeal.RelValue

open Cert.ReferenceIdeal Cert.ReferenceIdeal.Gen Cert.ReferenceIdeal.Read Cert.RelSpec
open Idealize.ShloMosaic Idealize.ShloMosaic.TcCoe Idealize.ShloMosaic.ValueIdx Idealize.SL.Sem

/-- The first linear layer of the reference, entry by entry: the product with the transposed weights read as a
    sum over the 512 context features, plus the broadcast bias. -/
private theorem val_main_v4_edge (x0 : FVec Ideal S16384x512 .f32) (x4 : FVec Ideal S1024x512 .f32) (x5 : FVec Ideal S1024 .f32)
    (n : Fin 16384) (j : Fin 1024) :
    val_main_v4 (F := Ideal) x0 x4 x5 (ix2 n j) = edge x0 x4 x5 n j := by
  have e2 : idx_main_v2 (idx_main_v3 (ix2 n j)) = ix1 j :=
    funext fun a => Fin.ext (by match a with | ⟨0, _⟩ => rfl)
  have el : ∀ k : Fin 512, lidx_main_v1 (ix2 n j) k = ix2 n k := fun k =>
    funext fun a => Fin.ext (by match a with | ⟨0, _⟩ => rfl | ⟨1, _⟩ => rfl)
  have er : ∀ k : Fin 512, idx_main_v0 (ridx_main_v1 (ix2 n j) k) = ix2 j k := fun k =>
    funext fun a => Fin.ext (by match a with | ⟨0, _⟩ => rfl | ⟨1, _⟩ => rfl)
  rw [val_main_v4_apply, val_main_v1_apply, val_main_v3_apply, val_main_v2_apply, e2]
  unfold edge
  rw [Ideal.addf_def]
  congr 1
  refine Finset.sum_congr rfl fun k _ => ?_
  rw [val_main_v0_apply, el, er]

/-- The head half of the edge representation: the slice [:, 0, :] of the reshape to [16384, 2, 512], as a
    [16384, 512] array, holds entry q < 512 of the layer's row. -/
private theorem val_main_v7_head (x0 : FVec Ideal S16384x512 .f32) (x4 : FVec Ideal S1024x512 .f32) (x5 : FVec Ideal S1024 .f32)
    (n : Fin 16384) (q : Fin 1024) (hq : q.val < 512) :
    val_main_v7 (F := Ideal) x0 x4 x5 (ix2 n (⟨q.val, hq⟩ : Fin 512)) = val_main_v4 (F := Ideal) x0 x4 x5 (ix2 n q) := by
  rw [val_main_v7_apply, val_main_v6_apply, val_main_v5_apply]
  congr 1
  funext a
  refine Fin.ext ?_
  have hn := n.isLt
  match a with
  | ⟨0, _⟩ =>
    show (((n.val * 512 + q.val) / 512 * 2 + 0) * 512 + (n.val * 512 + q.val) % 512) / 1024 = n.val
    omega
  | ⟨1, _⟩ =>
    show (((n.val * 512 + q.val) / 512 * 2 + 0) * 512 + (n.val * 512 + q.val) % 512) % 1024 = q.val
    omega

/-- The tail half: the slice [:, 1, :] holds entry 512 + q of the layer's row. -/
private theorem val_main_v9_tail (x0 : FVec Ideal S16384x512 .f32) (x4 : FVec Ideal S1024x512 .f32) (x5 : FVec Ideal S1024 .f32)
    (n : Fin 16384) (q : Fin 1024) (hq : 512 ≤ q.val) :
    val_main_v9 (F := Ideal) x0 x4 x5 (ix2 n (⟨q.val - 512, by omega⟩ : Fin 512)) = val_main_v4 (F := Ideal) x0 x4 x5 (ix2 n q) := by
  rw [val_main_v9_apply, val_main_v8_apply, val_main_v5_apply]
  congr 1
  funext a
  refine Fin.ext ?_
  have hn := n.isLt
  have hq' := q.isLt
  match a with
  | ⟨0, _⟩ =>
    show (((n.val * 512 + (q.val - 512)) / 512 * 2 + (1 + 0)) * 512 + (n.val * 512 + (q.val - 512)) % 512) / 1024 = n.val
    omega
  | ⟨1, _⟩ =>
    show (((n.val * 512 + (q.val - 512)) / 512 * 2 + (1 + 0)) * 512 + (n.val * 512 + (q.val - 512)) % 512) % 1024 = q.val
    omega

/-- Wrapping a negative index by the table's length does nothing to an index that is not negative. -/
private theorem wrap_of_nonneg (w : BitVec 32) (h0 : 0 ≤ w.toInt) :
    Scalar.select (IntOp.cmpi .slt w 0#32) (IntOp.addi w 16384#32) w = w := by
  have h : IntOp.cmpi .slt w 0#32 = 0#1 := by
    unfold IntOp.cmpi
    show BitVec.ofBool (w.slt 0#32) = 0#1
    have hs : w.slt 0#32 = false := by
      unfold BitVec.slt
      exact decide_eq_false (by rw [show (0#32 : BitVec 32).toInt = 0 from rfl]; omega)
    rw [hs]; rfl
  rw [h]
  exact select_zero _ _

/-- The head index column, after the wrap and as a column: the pair list's first entry. -/
private theorem val_main_v19_head (x2 : IVec S32768x2 32) (hP : PairsInRange x2) (r : Fin 32768) :
    val_main_v19 (F := Ideal) x2 (ix2 r (0 : Fin 1)) = x2 (ix2 r (0 : Fin 2)) := by
  have e0 : idx_main_v10 (idx_main_v11 (idx_main_v19 (ix2 r (0 : Fin 1)))) = ix2 r (0 : Fin 2) :=
    funext fun a => Fin.ext (by match a with | ⟨0, _⟩ => exact Nat.div_one _ | ⟨1, _⟩ => rfl)
  rw [val_main_v19_apply, val_main_v18_apply, val_main_v15_apply, val_main_v17_apply, val_main_v11_apply,
    val_main_v10_apply, e0, val_main_v14_apply, val_main_c_apply, val_main_v16_apply, val_main_c_0_apply]
  exact wrap_of_nonneg _ (hP r 0).1

/-- The tail index column: the pair list's second entry. -/
private theorem val_main_v26_tail (x2 : IVec S32768x2 32) (hP : PairsInRange x2) (r : Fin 32768) :
    val_main_v26 (F := Ideal) x2 (ix2 r (0 : Fin 1)) = x2 (ix2 r (1 : Fin 2)) := by
  have e0 : idx_main_v12 (idx_main_v13 (idx_main_v26 (ix2 r (0 : Fin 1)))) = ix2 r (1 : Fin 2) :=
    funext fun a => Fin.ext (by match a with | ⟨0, _⟩ => exact Nat.div_one _ | ⟨1, _⟩ => rfl)
  rw [val_main_v26_apply, val_main_v25_apply, val_main_v22_apply, val_main_v24_apply, val_main_v13_apply,
    val_main_v12_apply, e0, val_main_v21_apply, val_main_c_1_apply, val_main_v23_apply, val_main_c_2_apply]
  exact wrap_of_nonneg _ (hP r 1).1

/-- The head rows taken: row r of the take is the head-half row of relation r's head object. -/
private theorem val_main_v20_row (x0 : FVec Ideal S16384x512 .f32) (x2 : IVec S32768x2 32) (x4 : FVec Ideal S1024x512 .f32)
    (x5 : FVec Ideal S1024 .f32) (hP : PairsInRange x2) (r : Fin 32768) (q : Fin 512) :
    val_main_v20 (F := Ideal) x0 x2 x4 x5 (ix2 r q) = val_main_v7 (F := Ideal) x0 x4 x5 (ix2 (hrow x2 r) q) := by
  unfold val_main_v20
  have hd : gather_S16384x512_S32768x1_S32768x512_1_0_n_n_0_1_1512 = rowGatherDims 16384 32768 512 _ := rfl
  have hr : (⟨min (val_main_v19 (F := Ideal) x2 (ix2 r (0 : Fin 1))).toInt.toNat (16384 - 1), by omega⟩ : Fin 16384)
      = hrow x2 r :=
    Fin.ext (by
      show min (val_main_v19 (F := Ideal) x2 (ix2 r (0 : Fin 1))).toInt.toNat (16384 - 1)
        = min (x2 (ix2 r (0 : Fin 2))).toInt.toNat (16384 - 1)
      rw [val_main_v19_head x2 hP r])
  rw [hd, rowGather_apply (by decide), hr]

/-- The tail rows taken: row r of the take is the tail-half row of relation r's tail object. -/
private theorem val_main_v27_row (x0 : FVec Ideal S16384x512 .f32) (x2 : IVec S32768x2 32) (x4 : FVec Ideal S1024x512 .f32)
    (x5 : FVec Ideal S1024 .f32) (hP : PairsInRange x2) (r : Fin 32768) (q : Fin 512) :
    val_main_v27 (F := Ideal) x0 x2 x4 x5 (ix2 r q) = val_main_v9 (F := Ideal) x0 x4 x5 (ix2 (trow x2 r) q) := by
  unfold val_main_v27
  have hd : gather_S16384x512_S32768x1_S32768x512_1_0_n_n_0_1_1512 = rowGatherDims 16384 32768 512 _ := rfl
  have hr : (⟨min (val_main_v26 (F := Ideal) x2 (ix2 r (0 : Fin 1))).toInt.toNat (16384 - 1), by omega⟩ : Fin 16384)
      = trow x2 r :=
    Fin.ext (by
      show min (val_main_v26 (F := Ideal) x2 (ix2 r (0 : Fin 1))).toInt.toNat (16384 - 1)
        = min (x2 (ix2 r (1 : Fin 2))).toInt.toNat (16384 - 1)
      rw [val_main_v26_tail x2 hP r])
  rw [hd, rowGather_apply (by decide), hr]

/-- The concatenation of the two takes, entry by entry, is the specification's pair feature row. -/
private theorem val_main_v28_pairs (x0 : FVec Ideal S16384x512 .f32) (x2 : IVec S32768x2 32) (x4 : FVec Ideal S1024x512 .f32)
    (x5 : FVec Ideal S1024 .f32) (hP : PairsInRange x2) (r : Fin 32768) (q : Fin 1024) :
    val_main_v28 (F := Ideal) x0 x2 x4 x5 (ix2 r q) = pairs x0 x2 x4 x5 r q := by
  unfold pairs
  by_cases hq : q.val < 512
  · rw [if_pos hq, ← val_main_v4_edge, ← val_main_v7_head x0 x4 x5 _ q hq, ← val_main_v20_row x0 x2 x4 x5 hP]
    unfold val_main_v28
    exact concatenate_pair_apply_left (t := S32768x1024) (s₁ := S32768x512) (s₂ := S32768x512) 1 _ _ _ (ix2 r q) rfl (ix2 r (⟨q.val, hq⟩ : Fin 512))
      (fun b => by match b with | ⟨0, _⟩ => rfl | ⟨1, _⟩ => rfl)
  · rw [if_neg hq, ← val_main_v4_edge, ← val_main_v9_tail x0 x4 x5 _ q (by omega), ← val_main_v27_row x0 x2 x4 x5 hP]
    unfold val_main_v28
    exact concatenate_pair_apply_right (t := S32768x1024) (s₁ := S32768x512) (s₂ := S32768x512) 1 _ _ _ (ix2 r q) rfl rfl (ix2 r (⟨q.val - 512, by omega⟩ : Fin 512))
      (fun b hb => by match b with | ⟨0, _⟩ => rfl | ⟨1, _⟩ => exact absurd rfl hb)
      (show q.val - 512 + 512 = q.val by omega)

/-- The second linear layer of the reference, gated: the specification's gated feature. -/
private theorem val_main_v34_gated (x0 : FVec Ideal S16384x512 .f32) (x1 : FVec Ideal S32768x4096 .f32) (x2 : IVec S32768x2 32)
    (x4 : FVec Ideal S1024x512 .f32) (x5 : FVec Ideal S1024 .f32) (x6 : FVec Ideal S4096x1024 .f32) (x7 : FVec Ideal S4096 .f32)
    (hP : PairsInRange x2) (r : Fin 32768) (p : Fin 4096) :
    val_main_v34 (F := Ideal) x0 x1 x2 x4 x5 x6 x7 (ix2 r p) = gated x0 x1 x2 x4 x5 x6 x7 r p := by
  have e2 : idx_main_v31 (idx_main_v32 (ix2 r p)) = ix1 p :=
    funext fun a => Fin.ext (by match a with | ⟨0, _⟩ => rfl)
  have el : ∀ k : Fin 1024, lidx_main_v30 (ix2 r p) k = ix2 r k := fun k =>
    funext fun a => Fin.ext (by match a with | ⟨0, _⟩ => rfl | ⟨1, _⟩ => rfl)
  have er : ∀ k : Fin 1024, idx_main_v29 (ridx_main_v30 (ix2 r p) k) = ix2 p k := fun k =>
    funext fun a => Fin.ext (by match a with | ⟨0, _⟩ => rfl | ⟨1, _⟩ => rfl)
  rw [val_main_v34_apply, val_main_v33_apply, val_main_v30_apply, val_main_v32_apply, val_main_v31_apply, e2]
  unfold gated
  rw [Ideal.mulf_def, Ideal.addf_def]
  congr 2
  refine Finset.sum_congr rfl fun k _ => ?_
  rw [val_main_v29_apply, el, er, val_main_v28_pairs x0 x2 x4 x5 hP]

/-- The reference's scores before the bias are the specification's, for pair indices in range. -/
theorem val_main_v39_apply' (x0 : FVec Ideal S16384x512 .f32) (x1 : FVec Ideal S32768x4096 .f32) (x2 : IVec S32768x2 32)
    (x4 : FVec Ideal S1024x512 .f32) (x5 : FVec Ideal S1024 .f32) (x6 : FVec Ideal S4096x1024 .f32) (x7 : FVec Ideal S4096 .f32)
    (x8 : FVec Ideal S51x4096 .f32) (x9 : FVec Ideal S51 .f32) (hP : PairsInRange x2) (r : Fin 32768) (j : Fin 51) :
    val_main_v39 (F := Ideal) x0 x1 x2 x4 x5 x6 x7 x8 x9 (ix2 r j)
      = (∑ p : Fin 4096, gated x0 x1 x2 x4 x5 x6 x7 r p * x8 (ix2 j p)) + x9 (ix1 j) := by
  have e2 : idx_main_v37 (idx_main_v38 (ix2 r j)) = ix1 j :=
    funext fun a => Fin.ext (by match a with | ⟨0, _⟩ => rfl)
  have el : ∀ k : Fin 4096, lidx_main_v36 (ix2 r j) k = ix2 r k := fun k =>
    funext fun a => Fin.ext (by match a with | ⟨0, _⟩ => rfl | ⟨1, _⟩ => rfl)
  have er : ∀ k : Fin 4096, idx_main_v35 (ridx_main_v36 (ix2 r j) k) = ix2 j k := fun k =>
    funext fun a => Fin.ext (by match a with | ⟨0, _⟩ => rfl | ⟨1, _⟩ => rfl)
  rw [val_main_v39_apply, val_main_v36_apply, val_main_v38_apply, val_main_v37_apply, e2, Ideal.addf_def]
  congr 1
  refine Finset.sum_congr rfl fun k _ => ?_
  rw [val_main_v35_apply, el, er, val_main_v34_gated x0 x1 x2 x4 x5 x6 x7 hP]

end Cert.ReferenceIdeal.RelValue

end
-- ==== Proof.RBias.lean ====
/-
  The reference's bias term, entry by entry: the two classes taken from the class list at the pair indices (each
  index wrapped, which does nothing in range; each take clamps, which does nothing either), wrapped again against
  the table's 151 rows, laid side by side as a two-column index list, and the table's row read at that pair of
  indices (clamped, which does nothing for classes in range).
-/
import proofs.«428228_j56667798503475_1_alg».proof.Proof.Gen.ReferenceIdeal.Read
import proofs.«428228_j56667798503475_1_alg».proof.Proof.Spec
import Idealize.ShloMosaic.Lib.StableHlo.Predicate

set_option maxRecDepth 16384

noncomputable section

open scoped BigOperators

namespace Cert.ReferenceIdeal.RelValue

open Cert.ReferenceIdeal Cert.ReferenceIdeal.Gen Cert.ReferenceIdeal.Read Cert.RelSpec
open Idealize.ShloMosaic Idealize.ShloMosaic.TcCoe Idealize.ShloMosaic.ValueIdx Idealize.SL.Sem

/-! ### A gather by pairs of indices, read at an entry -/

/-- The dimension numbers of a gather by PAIRS of indices: operand [N, M, C], start indices [E, 2] (one pair per
    row), result [E, C]; the two leading operand axes are start-indexed and collapsed, the last one is the offset axis. -/
abbrev pairGatherDims (N M C E : ℕ)
    (wf : GatherDims.WF ⟨3, ![N, M, C]⟩ ⟨2, ![E, 2]⟩ ⟨2, ![E, C]⟩ [1] [0, 1] [] [0, 1] [] 1 ![1, 1, C]) :
    GatherDims ⟨3, ![N, M, C]⟩ ⟨2, ![E, 2]⟩ ⟨2, ![E, C]⟩ where
  offsetDims := [1]
  collapsedSliceDims := [0, 1]
  operandBatchingDims := []
  startIndicesBatchingDims := []
  startIndexMap := [0, 1]
  indexVectorDim := 1
  sliceSizes := ![1, 1, C]
  wf := wf

/-- THE PAIR GATHER READ AT (e, c): the operand at row idx[e, 0] and column idx[e, 1], each read signed and
    clamped into its axis, entry c. -/
theorem pairGather_apply {α : Type} {N M C E w : ℕ} (hN : 0 < N) (hM : 0 < M)
    (wf : GatherDims.WF ⟨3, ![N, M, C]⟩ ⟨2, ![E, 2]⟩ ⟨2, ![E, C]⟩ [1] [0, 1] [] [0, 1] [] 1 ![1, 1, C])
    (x : (⟨3, ![N, M, C]⟩ : Shape).Idx → α) (idx : IVec ⟨2, ![E, 2]⟩ w) (e : Fin E) (c : Fin C) :
    Host.gather (pairGatherDims N M C E wf) x idx (ix2 e c)
      = x (ix3 (⟨min (idx (ix2 e (0 : Fin 2))).toInt.toNat (N - 1), by omega⟩ : Fin N)
            (⟨min (idx (ix2 e (1 : Fin 2))).toInt.toNat (M - 1), by omega⟩ : Fin M) c) := by
  unfold Host.gather
  congr 1
  funext a
  refine Fin.ext ?_
  have hk : (pairGatherDims N M C E wf).sKept = [(2 : Fin 3)] := rfl
  match a with
  | ⟨0, _⟩ =>
    show (pairGatherDims N M C E wf).start (ix2 e c) idx 0 + (pairGatherDims N M C E wf).batchCoord (ix2 e c) 0
      + (pairGatherDims N M C E wf).offCoord (ix2 e c) 0 = _
    rw [GatherDims.batchCoord_eq_zero _ _ _ List.not_mem_nil,
      GatherDims.offCoord_eq_zero _ _ _ (by rw [hk]; exact (by decide : (0 : Fin 3) ∉ [(2 : Fin 3)]))]
    simp only [Nat.add_zero]
    unfold GatherDims.start
    rw [dif_pos (show (0 : Fin 3) ∈ (pairGatherDims N M C E wf).startIndexMap from (by decide : (0 : Fin 3) ∈ [(0 : Fin 3), 1]))]
    have hsi : (pairGatherDims N M C E wf).siIdx (ix2 e c) ⟨List.idxOf (0 : Fin 3) (pairGatherDims N M C E wf).startIndexMap,
        List.idxOf_lt_length_iff.2 (by decide : (0 : Fin 3) ∈ [(0 : Fin 3), 1])⟩ = ix2 e (0 : Fin 2) := by
      funext b; refine Fin.ext ?_
      match b with
      | ⟨0, _⟩ => rfl
      | ⟨1, _⟩ => rfl
    rw [hsi]
    rfl
  | ⟨1, _⟩ =>
    show (pairGatherDims N M C E wf).start (ix2 e c) idx 1 + (pairGatherDims N M C E wf).batchCoord (ix2 e c) 1
      + (pairGatherDims N M C E wf).offCoord (ix2 e c) 1 = _
    rw [GatherDims.batchCoord_eq_zero _ _ _ List.not_mem_nil,
      GatherDims.offCoord_eq_zero _ _ _ (by rw [hk]; exact (by decide : (1 : Fin 3) ∉ [(2 : Fin 3)]))]
    simp only [Nat.add_zero]
    unfold GatherDims.start
    rw [dif_pos (show (1 : Fin 3) ∈ (pairGatherDims N M C E wf).startIndexMap from (by decide : (1 : Fin 3) ∈ [(0 : Fin 3), 1]))]
    have hsi : (pairGatherDims N M C E wf).siIdx (ix2 e c) ⟨List.idxOf (1 : Fin 3) (pairGatherDims N M C E wf).startIndexMap,
        List.idxOf_lt_length_iff.2 (by decide : (1 : Fin 3) ∈ [(0 : Fin 3), 1])⟩ = ix2 e (1 : Fin 2) := by
      funext b; refine Fin.ext ?_
      match b with
      | ⟨0, _⟩ => rfl
      | ⟨1, _⟩ => rfl
    rw [hsi]
    rfl
  | ⟨2, _⟩ =>
    show (pairGatherDims N M C E wf).start (ix2 e c) idx 2 + (pairGatherDims N M C E wf).batchCoord (ix2 e c) 2
      + (pairGatherDims N M C E wf).offCoord (ix2 e c) 2 = c.val
    rw [GatherDims.batchCoord_eq_zero _ _ _ List.not_mem_nil]
    have hs : (pairGatherDims N M C E wf).start (ix2 e c) idx 2 = 0 := by
      unfold GatherDims.start
      rw [dif_neg (show (2 : Fin 3) ∉ (pairGatherDims N M C E wf).startIndexMap from (by decide : (2 : Fin 3) ∉ [(0 : Fin 3), 1]))]
    rw [hs]
    unfold GatherDims.offCoord
    rw [dif_pos (show (2 : Fin 3) ∈ (pairGatherDims N M C E wf).sKept from by rw [hk]; exact List.mem_singleton.mpr rfl)]
    have hi : List.idxOf (2 : Fin 3) (pairGatherDims N M C E wf).sKept = 0 := by rw [hk]; exact List.idxOf_cons_self
    simp only [hi, Nat.zero_add]
    rfl

/-- The pair gather with each clamp written as the row a word names. -/
private theorem pairGather_rowAt {α : Type} {N M C E : ℕ} (hN : 0 < N) (hM : 0 < M)
    (wf : GatherDims.WF ⟨3, ![N, M, C]⟩ ⟨2, ![E, 2]⟩ ⟨2, ![E, C]⟩ [1] [0, 1] [] [0, 1] [] 1 ![1, 1, C])
    (x : (⟨3, ![N, M, C]⟩ : Shape).Idx → α) (idx : IVec ⟨2, ![E, 2]⟩ 32) (e : Fin E) (c : Fin C) :
    Host.gather (pairGatherDims N M C E wf) x idx (ix2 e c)
      = x (ix3 (rowAt N hN (idx (ix2 e (0 : Fin 2)))) (rowAt M hM (idx (ix2 e (1 : Fin 2)))) c) :=
  pairGather_apply hN hM wf x idx e c

/-- The rank-1 index at a coordinate, in the two spellings in use. -/
private theorem ofFin_eq_ix1 {n : ℕ} (p : Fin n) : Shape.Idx.ofFin p = ix1 p := by
  funext a
  match a with
  | ⟨0, _⟩ => exact Fin.ext rfl

/-- Row p of a one-column list, in the two spellings in use. -/
private theorem ixP_eq_ix2 {n : ℕ} (p : Fin n) : StableHlo.Predicate.ixP p = ix2 p (0 : Fin 1) := by
  funext a
  match a with
  | ⟨0, _⟩ => rfl
  | ⟨1, _⟩ => rfl

/-- A take from a list by a column of positions, read at position p: the list at the row the p-th word names. -/
private theorem take_rowAt {α : Type} {N n : ℕ} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ 32) (p : Fin n) (hN : 0 < N) :
    Host.gather d x idx (ix1 p) = x (ix1 (rowAt N hN (idx (ix2 p (0 : Fin 1))))) := by
  have h := StableHlo.Predicate.gather_take d hcoll hob hsim hivd x idx p hN
  rw [ofFin_eq_ix1, ofFin_eq_ix1] at h
  rw [h]
  refine congrArg (fun q : Fin N => x (ix1 q)) (Fin.ext ?_)
  show min (idx (StableHlo.Predicate.ixP p)).toInt.toNat (N - 1) = min (idx (ix2 p (0 : Fin 1))).toInt.toNat (N - 1)
  rw [ixP_eq_ix2]

/-- A word that is not negative is not below zero, so the wrap-around keeps it as it is. -/
private theorem select_slt_zero {α : Type} (w : BitVec 32) (h : 0 ≤ w.toInt) (a b : α) :
    Scalar.select (IntOp.cmpi .slt w 0#32) a b = b := by
  have hs : w.slt 0#32 = false := by
    unfold BitVec.slt
    rw [BitVec.toInt_zero]
    exact decide_eq_false (by omega)
  unfold Scalar.select IntOp.cmpi
  simp only [hs]
  exact if_neg (by decide)

/-! ### The two index columns of the pair list -/

private theorem idx_first (r : Fin 32768) : idx_main_v10 (idx_main_v11 (ix1 r)) = ix2 r (0 : Fin 2) := by
  funext a
  refine Fin.ext ?_
  match a with
  | ⟨0, _⟩ => exact Nat.div_one _
  | ⟨1, _⟩ => rfl

private theorem idx_second (r : Fin 32768) : idx_main_v12 (idx_main_v13 (ix1 r)) = ix2 r (1 : Fin 2) := by
  funext a
  refine Fin.ext ?_
  match a with
  | ⟨0, _⟩ => exact Nat.div_one _
  | ⟨1, _⟩ => rfl

private theorem idx_col (r : Fin 32768) : idx_main_v45 (ix2 r (0 : Fin 1)) = ix1 r := by
  funext a
  refine Fin.ext ?_
  match a with
  | ⟨0, _⟩ => rfl

private theorem idx_col' (r : Fin 32768) : idx_main_v52 (ix2 r (0 : Fin 1)) = ix1 r := by
  funext a
  refine Fin.ext ?_
  match a with
  | ⟨0, _⟩ => rfl

private theorem idx_colH (r : Fin 32768) : idx_main_v64 (ix2 r (0 : Fin 1)) = ix1 r := by
  funext a
  refine Fin.ext ?_
  match a with
  | ⟨0, _⟩ => rfl

private theorem idx_colT (r : Fin 32768) : idx_main_v65 (ix2 r (0 : Fin 1)) = ix1 r := by
  funext a
  refine Fin.ext ?_
  match a with
  | ⟨0, _⟩ => rfl

private theorem first_at (x2 : IVec S32768x2 32) (r : Fin 32768) :
    val_main_v11 (F := Ideal) x2 (ix1 r) = x2 (ix2 r (0 : Fin 2)) := by
  rw [val_main_v11_apply, val_main_v10_apply, idx_first]

private theorem second_at (x2 : IVec S32768x2 32) (r : Fin 32768) :
    val_main_v13 (F := Ideal) x2 (ix1 r) = x2 (ix2 r (1 : Fin 2)) := by
  rw [val_main_v13_apply, val_main_v12_apply, idx_second]

/-- The wrapped head index is the head index. -/
private theorem headIdx_at (x2 : IVec S32768x2 32) (hP : PairsInRange x2) (r : Fin 32768) :
    val_main_v44 (F := Ideal) x2 (ix1 r) = x2 (ix2 r (0 : Fin 2)) := by
  rw [val_main_v44_apply, val_main_v41_apply, val_main_v40_apply, val_main_c_3_apply, first_at]
  exact select_slt_zero _ (hP r 0).1 _ _

/-- The wrapped tail index is the tail index. -/
private theorem tailIdx_at (x2 : IVec S32768x2 32) (hP : PairsInRange x2) (r : Fin 32768) :
    val_main_v51 (F := Ideal) x2 (ix1 r) = x2 (ix2 r (1 : Fin 2)) := by
  rw [val_main_v51_apply, val_main_v48_apply, val_main_v47_apply, val_main_c_5_apply, second_at]
  exact select_slt_zero _ (hP r 1).1 _ _

/-! ### The two classes -/

/-- The head's class word. -/
private theorem headCls_at (x2 : IVec S32768x2 32) (x3 : IVec S16384 32) (hP : PairsInRange x2) (r : Fin 32768) :
    val_main_v46 (F := Ideal) x2 x3 (ix1 r) = x3 (ix1 (hrow x2 r)) := by
  unfold val_main_v46
  rw [take_rowAt gather_S16384_S32768x1_S32768_n_0_n_n_0_1_1 rfl rfl rfl rfl x3 (val_main_v45 (F := Ideal) x2) r (by decide),
    val_main_v45_apply, idx_col, headIdx_at x2 hP r]
  rfl

/-- The tail's class word. -/
private theorem tailCls_at (x2 : IVec S32768x2 32) (x3 : IVec S16384 32) (hP : PairsInRange x2) (r : Fin 32768) :
    val_main_v53 (F := Ideal) x2 x3 (ix1 r) = x3 (ix1 (trow x2 r)) := by
  unfold val_main_v53
  rw [take_rowAt gather_S16384_S32768x1_S32768_n_0_n_n_0_1_1 rfl rfl rfl rfl x3 (val_main_v52 (F := Ideal) x2) r (by decide),
    val_main_v52_apply, idx_col', tailIdx_at x2 hP r]
  rfl

/-- The wrapped head class is the head class. -/
private theorem headWrap_at (x2 : IVec S32768x2 32) (x3 : IVec S16384 32) (hP : PairsInRange x2) (hC : ClassesInRange x3)
    (r : Fin 32768) : val_main_v58 (F := Ideal) x2 x3 (ix1 r) = x3 (ix1 (hrow x2 r)) := by
  rw [val_main_v58_apply, val_main_v55_apply, val_main_v54_apply, val_main_c_7_apply, headCls_at x2 x3 hP r]
  exact select_slt_zero _ (hC _).1 _ _

/-- The wrapped tail class is the tail class. -/
private theorem tailWrap_at (x2 : IVec S32768x2 32) (x3 : IVec S16384 32) (hP : PairsInRange x2) (hC : ClassesInRange x3)
    (r : Fin 32768) : val_main_v63 (F := Ideal) x2 x3 (ix1 r) = x3 (ix1 (trow x2 r)) := by
  rw [val_main_v63_apply, val_main_v60_apply, val_main_v59_apply, val_main_c_9_apply, tailCls_at x2 x3 hP r]
  exact select_slt_zero _ (hC _).1 _ _

/-! ### The two-column index list -/

/-- Its first column is the head classes. -/
private theorem pairList_first (x2 : IVec S32768x2 32) (x3 : IVec S16384 32) (r : Fin 32768) :
    val_main_v66 (F := Ideal) x2 x3 (ix2 r (0 : Fin 2)) = val_main_v58 (F := Ideal) x2 x3 (ix1 r) := by
  rw [← idx_colH r, ← val_main_v64_apply]
  unfold val_main_v66
  generalize val_main_v64 (F := Ideal) x2 x3 = y₁
  generalize val_main_v65 (F := Ideal) x2 x3 = y₂
  exact concatenate_pair_apply_left _ y₁ y₂ concatenates_S32768x1_S32768x1_S32768x2_d1 (ix2 r (0 : Fin 2)) rfl
    (ix2 r (0 : Fin 1)) (fun b => match b with
      | ⟨0, _⟩ => rfl
      | ⟨1, _⟩ => rfl)

/-- Its second column is the tail classes. -/
private theorem pairList_second (x2 : IVec S32768x2 32) (x3 : IVec S16384 32) (r : Fin 32768) :
    val_main_v66 (F := Ideal) x2 x3 (ix2 r (1 : Fin 2)) = val_main_v63 (F := Ideal) x2 x3 (ix1 r) := by
  rw [← idx_colT r, ← val_main_v65_apply]
  unfold val_main_v66
  generalize val_main_v64 (F := Ideal) x2 x3 = y₁
  generalize val_main_v65 (F := Ideal) x2 x3 = y₂
  exact concatenate_pair_apply_right _ y₁ y₂ concatenates_S32768x1_S32768x1_S32768x2_d1 (ix2 r (1 : Fin 2)) rfl rfl
    (ix2 r (0 : Fin 1)) (fun b hb => match b, hb with
      | ⟨0, _⟩, _ => rfl
      | ⟨1, _⟩, hb => absurd (Fin.ext rfl) hb) rfl

/-- The reference's looked-up bias is the specification's, for pair indices and classes in range. -/
theorem val_main_v67_apply' (x2 : IVec S32768x2 32) (x3 : IVec S16384 32) (x10 : FVec Ideal S151x151x51 .f32)
    (hP : PairsInRange x2) (hC : ClassesInRange x3) (r : Fin 32768) (j : Fin 51) :
    val_main_v67 (F := Ideal) x2 x3 x10 (ix2 r j) = bias x2 x3 x10 r j := by
  have e0 := (pairList_first x2 x3 r).trans (headWrap_at x2 x3 hP hC r)
  have e1 := (pairList_second x2 x3 r).trans (tailWrap_at x2 x3 hP hC r)
  unfold val_main_v67
  generalize val_main_v66 (F := Ideal) x2 x3 = y at e0 e1
  have key := pairGather_rowAt (N := 151) (M := 151) (C := 51) (E := 32768) (by decide) (by decide)
    gather_S151x151x51_S32768x2_S32768x51_1_01_n_n_01_1_1151_wf x10 y r j
  rw [e0, e1] at key
  exact key

end Cert.ReferenceIdeal.RelValue

end
-- ==== Proof.RValue.lean ====
/-
  The reference's result is the specification, as arrays.
-/
import proofs.«428228_j56667798503475_1_alg».proof.Proof.Gen.ReferenceIdeal.Read
import proofs.«428228_j56667798503475_1_alg».proof.Proof.Spec
import proofs.«428228_j56667798503475_1_alg».proof.Proof.RFeat
import proofs.«428228_j56667798503475_1_alg».proof.Proof.RBias

set_option maxRecDepth 16384

noncomputable section

open scoped BigOperators

namespace Cert.ReferenceIdeal.RelValue

open Cert.ReferenceIdeal Cert.ReferenceIdeal.Gen Cert.ReferenceIdeal.Read Cert.RelSpec
open Idealize.ShloMosaic Idealize.ShloMosaic.TcCoe Idealize.ShloMosaic.ValueIdx Idealize.SL.Sem

/-- The reference's result array is the specification's, for pair indices and classes in range. -/
theorem result_eq (x0 : FVec Ideal S16384x512 .f32) (x1 : FVec Ideal S32768x4096 .f32) (x2 : IVec S32768x2 32) (x3 : IVec S16384 32)
    (x4 : FVec Ideal S1024x512 .f32) (x5 : FVec Ideal S1024 .f32) (x6 : FVec Ideal S4096x1024 .f32) (x7 : FVec Ideal S4096 .f32)
    (x8 : FVec Ideal S51x4096 .f32) (x9 : FVec Ideal S51 .f32) (x10 : FVec Ideal S151x151x51 .f32)
    (hP : PairsInRange x2) (hC : ClassesInRange x3) :
    val_main_v68 (F := Ideal) x0 x1 x2 x3 x4 x5 x6 x7 x8 x9 x10 = relArr x0 x1 x2 x3 x4 x5 x6 x7 x8 x9 x10 := by
  funext i
  obtain ⟨r, j, rfl⟩ : ∃ (r : Fin 32768) (j : Fin 51), i = ix2 r j := ⟨i 0, i 1, eq_ix2 i⟩
  rw [val_main_v68_apply, relArr_apply, val_main_v39_apply' x0 x1 x2 x4 x5 x6 x7 x8 x9 hP r j, val_main_v67_apply' x2 x3 x10 hP hC r j]
  rfl

end Cert.ReferenceIdeal.RelValue

end
-- ==== Proof.lean ====
/-
  The certificate that the kernel's program and its reference compute one function over the extended reals, for
  finite float inputs, pair indices naming objects and classes naming rows of the bias table.

  Both programs compute, for each relation, a linear layer of the concatenated head and tail halves of the two
  objects' edge representations, gated by the relation's visual features, a second linear layer, and a bias looked
  up at the two objects' classes (Proof/Spec.lean). The kernel's program does the first and the last two layers in
  two tiled calls whose blocks tile their output arrays (Proof/KRegion0.lean, Proof/KRegion1.lean), with weights
  transposed beforehand (Proof/KHostA.lean) and the row takes in between (Proof/KPairs.lean, Proof/KBias.lean);
  its takes fill a row whose index is out of range with a fixed pattern where the reference's clamp, so the two
  agree exactly where every index is in range, which the precondition states (Proof/PreIdx.lean). The reference is
  read operation by operation (Proof/RFeat.lean, Proof/RBias.lean). Each program's result array is the
  specification's (Proof/KValue.lean, Proof/RValue.lean); the frames are the generated ones, the reference's its run
  with the result dropped; the idealization rewrote nothing.
-/
import proofs.«428228_j56667798503475_1_alg».proof.Defs
import proofs.«428228_j56667798503475_1_alg».proof.Proof.Gen.Kernel
import proofs.«428228_j56667798503475_1_alg».proof.Proof.Gen.Kernel.Skeleton
import proofs.«428228_j56667798503475_1_alg».proof.Proof.Gen.Kernel.Launch
import proofs.«428228_j56667798503475_1_alg».proof.Proof.Gen.Kernel.Points
import proofs.«428228_j56667798503475_1_alg».proof.Proof.Gen.Kernel.Frame
import proofs.«428228_j56667798503475_1_alg».proof.Proof.Gen.KernelIdeal
import proofs.«428228_j56667798503475_1_alg».proof.Proof.Gen.KernelIdeal.Skeleton
import proofs.«428228_j56667798503475_1_alg».proof.Proof.Gen.KernelIdeal.Launch
import proofs.«428228_j56667798503475_1_alg».proof.Proof.Gen.KernelIdeal.Points
import proofs.«428228_j56667798503475_1_alg».proof.Proof.Gen.KernelIdeal.Frame
import proofs.«428228_j56667798503475_1_alg».proof.Proof.Gen.ReferenceIdeal
import proofs.«428228_j56667798503475_1_alg».proof.Proof.Gen.Pre_finite_inputs
import proofs.«428228_j56667798503475_1_alg».proof.Proof.Gen.ReferenceIdeal.Run
import proofs.«428228_j56667798503475_1_alg».proof.Proof.Gen.ReferenceIdeal.Read
import proofs.«428228_j56667798503475_1_alg».proof.Proof.PreIdx
import proofs.«428228_j56667798503475_1_alg».proof.Proof.KValue
import proofs.«428228_j56667798503475_1_alg».proof.Proof.RValue
import Idealize.ShloMosaic.Adequacy
import Idealize.ShloMosaic.Init

noncomputable section

namespace Cert.Proof

open Idealize.ShloMosaic Idealize.SL.Sem Cert.RelSpec

/-- The word-level program runs and leaves its arguments as launched. -/
theorem frame_k : Cert.frame_Kernel := fun m ρ _ => Cert.Kernel.Gen.frame m ρ

/-- The idealized program runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's array of those arguments:
    the precondition gives the index ranges, under which each side's result is the specification's. -/
theorem algebraic : Cert.algebraic_KernelIdeal_ReferenceIdeal := by
  intro m ρ m' ρ' hpre hagree
  have hr : ∀ c : Dev Cert.KernelIdeal.nD,
      PairsInRange (Cert.KernelIdeal.RelValue.a2 m c) ∧ ClassesInRange (Cert.KernelIdeal.RelValue.a3 m c) :=
    fun c => ranges_of_pre _ _ _ _ _ _ _ _ _ _ _ (hpre c)
  refine ⟨_, Cert.KernelIdeal.RelValue.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]
  exact Cert.ReferenceIdeal.RelValue.result_eq _ _ _ _ _ _ _ _ _ _ _ (hr c).1 (hr c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
